-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x66x66x66 : Shape := ⟨5, ![2, 32, 66, 66, 66]⟩
abbrev S2x26x64x64x64 : Shape := ⟨5, ![2, 26, 64, 64, 64]⟩
abbrev S_ : Shape := ⟨0, ![]⟩

class Facts : Prop where
  bcast_S_S2x32x66x66x66 : S_.BroadcastsInDim S2x32x66x66x66 (![] : Fin 0 → Fin S2x32x66x66x66.rank)
  reducesTo_S2x32x66x66x66_S_d0_1_2_3_4 : S2x32x66x66x66.ReducesTo [0, 1, 2, 3, 4] S_
  h_S_ : 0 < S_.numel
  bcast_S_S2x26x64x64x64 : S_.BroadcastsInDim S2x26x64x64x64 (![] : Fin 0 → Fin S2x26x64x64x64.rank)
  reducesTo_S2x26x64x64x64_S_d0_1_2_3_4 : S2x26x64x64x64.ReducesTo [0, 1, 2, 3, 4] S_

variable [Facts]

def fn {F : FTy → Type} [FloatOps F] (main_arg0 : FVec F S2x32x66x66x66 .f32) (main_arg1 : FVec F S2x26x64x64x64 .f32) : IVec S_ 1 :=
  let main_v0 : FVec F S2x32x66x66x66 .f32 := Host.absf main_arg0
  let main_cst : FVec F S_ .f32 := constant S_ .f32 0x7F800000#32
  let main_v1 : FVec F S2x32x66x66x66 .f32 := broadcastInDim S2x32x66x66x66 ![] bcast_S_S2x32x66x66x66 main_cst
  let main_v2 : IVec S2x32x66x66x66 1 := cmpf .olt main_v0 main_v1
  let main_c : IVec S_ 1 := constantI S_ 1 1#1
  let main_v3 : IVec S_ 1 := (fun x v => Host.reduce IntOp.andi x v reducesTo_S2x32x66x66x66_S_d0_1_2_3_4 h_S_) main_v2 main_c
  let main_v4 : FVec F S2x26x64x64x64 .f32 := Host.absf main_arg1
  let main_cst_0 : FVec F S_ .f32 := constant S_ .f32 0x7F800000#32
  let main_v5 : FVec F S2x26x64x64x64 .f32 := broadcastInDim S2x26x64x64x64 ![] bcast_S_S2x26x64x64x64 main_cst_0
  let main_v6 : IVec S2x26x64x64x64 1 := cmpf .olt main_v4 main_v5
  let main_c_1 : IVec S_ 1 := constantI S_ 1 1#1
  let main_v7 : IVec S_ 1 := (fun x v => Host.reduce IntOp.andi x v reducesTo_S2x26x64x64x64_S_d0_1_2_3_4 h_S_) main_v6 main_c_1
  let main_v8 : IVec S_ 1 := andi main_v3 main_v7
  main_v8
-- ==== Kernel.lean ====
abbrev S2x32x66x66x66 : Shape := ⟨5, ![2, 32, 66, 66, 66]⟩
abbrev S2x26x64x64x64 : Shape := ⟨5, ![2, 26, 64, 64, 64]⟩
abbrev S_ : Shape := ⟨0, ![]⟩
abbrev S2x32x66x66x128 : Shape := ⟨5, ![2, 32, 66, 66, 128]⟩
abbrev S2x26x64x4096 : Shape := ⟨4, ![2, 26, 64, 4096]⟩
abbrev S2x32x64x4096 : Shape := ⟨4, ![2, 32, 64, 4096]⟩
abbrev S1x26x8x4096 : Shape := ⟨4, ![1, 26, 8, 4096]⟩
abbrev S1x32x8x4096 : Shape := ⟨4, ![1, 32, 8, 4096]⟩
abbrev S2x32x10x66x128 : Shape := ⟨5, ![2, 32, 10, 66, 128]⟩
abbrev S2 : Shape := ⟨1, ![2]⟩
abbrev S1 : Shape := ⟨1, ![1]⟩
abbrev S1x32x10x66x128 : Shape := ⟨5, ![1, 32, 10, 66, 128]⟩
abbrev S32x10x66x128 : Shape := ⟨4, ![32, 10, 66, 128]⟩
abbrev S32x8x4096 : Shape := ⟨3, ![32, 8, 4096]⟩
abbrev S32x10x64x64 : Shape := ⟨4, ![32, 10, 64, 64]⟩
abbrev S32x10x4096 : Shape := ⟨3, ![32, 10, 4096]⟩
abbrev S1x1x8x4096 : Shape := ⟨4, ![1, 1, 8, 4096]⟩
abbrev S1x8x4096 : Shape := ⟨3, ![1, 8, 4096]⟩
abbrev S2x32x64x64x64 : Shape := ⟨5, ![2, 32, 64, 64, 64]⟩

abbrev nBuf : Space → Nat
  | .hbm => 8
  | .vmem => 5
  | .smem => 0
  | _ => 0

abbrev bufTy : (tb : Table) → Fin (tcTables nBuf tb) → BufTy
  | .hbm, ⟨0, _⟩ => ⟨S2x32x66x66x66, .f32⟩
  | .hbm, ⟨1, _⟩ => ⟨S2x26x64x64x64, .f32⟩
  | .hbm, ⟨2, _⟩ => ⟨S_, .i32⟩
  | .hbm, ⟨3, _⟩ => ⟨S_, .f32⟩
  | .hbm, ⟨4, _⟩ => ⟨S2x32x66x66x128, .f32⟩
  | .hbm, ⟨5, _⟩ => ⟨S2x26x64x4096, .f32⟩
  | .hbm, ⟨6, _⟩ => ⟨S2x32x64x4096, .f32⟩
  | .hbm, ⟨7, _⟩ => ⟨S2x32x64x64x64, .f32⟩
  | .local _ .vmem, ⟨0, _⟩ => ⟨S1x26x8x4096, .f32⟩
  | .local _ .vmem, ⟨1, _⟩ => ⟨S1x26x8x4096, .f32⟩
  | .local _ .vmem, ⟨2, _⟩ => ⟨S1x32x8x4096, .f32⟩
  | .local _ .vmem, ⟨3, _⟩ => ⟨S1x32x8x4096, .f32⟩
  | .local _ .vmem, ⟨4, _⟩ => ⟨S2x32x10x66x128, .f32⟩
  | _, _ => ⟨S2x32x66x66x66, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_309 : BitVec 32 := 0#32
  c0_i32_309
def k0_off1 (i : grid0.Coords) : Fin 5 → Nat :=
  let arg0 : BitVec 32 := BitVec.ofNat 32 (i 0).val
  let c0_i32_316 : BitVec 32 := 0#32
  let c0_i32_309 : BitVec 32 := 0#32
  let v336 : BitVec 32 := c0_i32_309
  let c0_i32_317 : BitVec 32 := 0#32
  let c0_i32_318 : BitVec 32 := 0#32
  ![arg0.toNat, 0, 0, 0, 0]
def k0_mult2 (i : grid0.Coords) : BitVec 32 :=
  let arg1 : BitVec 32 := BitVec.ofNat 32 (i 1).val
  let c8_i32 : BitVec 32 := 8#32
  let v13 : BitVec 32 := Scalar.muli arg1 c8_i32
  v13
def k0_off2 (i : grid0.Coords) : Fin 1 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off3 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  let c0_i32_7 : BitVec 32 := 0#32
  let c0_i32_8 : BitVec 32 := 0#32
  ![v12.toNat, 0, 0, 0, 0]
def k0_off4 (i : grid0.Coords) : Fin 5 → Nat :=
  let arg0 : BitVec 32 := BitVec.ofNat 32 (i 0).val
  let c0_i32_9 : BitVec 32 := 0#32
  let arg1 : BitVec 32 := BitVec.ofNat 32 (i 1).val
  let c8_i32 : BitVec 32 := 8#32
  let v13 : BitVec 32 := Scalar.muli arg1 c8_i32
  let v14 : BitVec 32 := v13
  let c0_i32_10 : BitVec 32 := 0#32
  let c0_i32_11 : BitVec 32 := 0#32
  ![arg0.toNat, 0, v14.toNat, 0, 0]
def k0_cond2 (i : grid0.Coords) : BitVec 1 :=
  let arg1 : BitVec 32 := BitVec.ofNat 32 (i 1).val
  let c1_i32_12 : BitVec 32 := 1#32
  let v21 : BitVec 32 := Scalar.addi arg1 c1_i32_12
  let c8_i32_13 : BitVec 32 := 8#32
  let v22 : BitVec 1 := Scalar.cmpi .slt v21 c8_i32_13
  let v23 : BitVec 32 := Scalar.extui v22
  let c0_i32_14 : BitVec 32 := 0#32
  let v24 : BitVec 1 := Scalar.cmpi .ne v23 c0_i32_14
  v24

def k0_mult3 (i : grid0.Coords) : BitVec 32 :=
  let arg1 : BitVec 32 := BitVec.ofNat 32 (i 1).val
  let c1_i32_309 : BitVec 32 := 1#32
  let v336 : BitVec 32 := Scalar.addi arg1 c1_i32_309
  let c8_i32_311 : BitVec 32 := 8#32
  let v338 : BitVec 32 := Scalar.muli v336 c8_i32_311
  v338
def k0_off5 (i : grid0.Coords) : Fin 1 → Nat :=
  let c1_i32_310 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v337 : BitVec 32 := Scalar.subi c1_i32_310 v12
  ![v337.toNat]
def k0_off6 (i : grid0.Coords) : Fin 5 → Nat :=
  let c1_i32_310 : BitVec 32 := 1#32
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v337 : BitVec 32 := Scalar.subi c1_i32_310 v12
  let c0_i32_312 : BitVec 32 := 0#32
  let c0_i32_313 : BitVec 32 := 0#32
  let c0_i32_314 : BitVec 32 := 0#32
  let c0_i32_315 : BitVec 32 := 0#32
  ![v337.toNat, 0, 0, 0, 0]
def k0_off7 (i : grid0.Coords) : Fin 5 → Nat :=
  let arg0 : BitVec 32 := BitVec.ofNat 32 (i 0).val
  let c0_i32_316 : BitVec 32 := 0#32
  let arg1 : BitVec 32 := BitVec.ofNat 32 (i 1).val
  let c1_i32_309 : BitVec 32 := 1#32
  let v336 : BitVec 32 := Scalar.addi arg1 c1_i32_309
  let c8_i32_311 : BitVec 32 := 8#32
  let v338 : BitVec 32 := Scalar.muli v336 c8_i32_311
  let v339 : BitVec 32 := v338
  let c0_i32_317 : BitVec 32 := 0#32
  let c0_i32_318 : BitVec 32 := 0#32
  ![arg0.toNat, 0, v339.toNat, 0, 0]
def k0_off8 (i : grid0.Coords) : Fin 5 → Nat :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v25 : Index := Scalar.indexCast v12
  let c0 : Index := 0#32
  let c0_15 : Index := 0#32
  let c0_16 : Index := 0#32
  let c0_17 : Index := 0#32
  ![v25.toNat, 0, 0, 0, 0]
def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x26x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S2x32x66x66x66_S2x32x66x66x128_000_000_000_000_0620 : S2x32x66x66x66.Pads (![0, 0, 0, 0, 0] : Fin 5 → Nat) ![0, 0, 0, 0, 62] ![0, 0, 0, 0, 0] S2x32x66x66x128
  h_S_ : 0 < S_.numel
  shapeCasts_S2x26x64x64x64_S2x26x64x4096 : S2x26x64x64x64.ShapeCasts S2x26x64x4096
  inb_S2_S1_0 : ∀ a, (![0] : Fin 1 → Nat) a + S1.size a ≤ S2.size a
  squeezes_S1_S_ : S1.Squeezes S_
  inb_S2x32x10x66x128_S1x32x10x66x128_0_0_0_0_0 : ∀ a, (![0, 0, 0, 0, 0] : Fin 5 → Nat) a + S1x32x10x66x128.size a ≤ S2x32x10x66x128.size a
  squeezes_S1x32x10x66x128_S32x10x66x128 : S1x32x10x66x128.Squeezes S32x10x66x128
  h_S1x32x10x66x128 : 0 < S1x32x10x66x128.numel
  shapeCasts_S1x32x10x66x128_S32x10x66x128 : S1x32x10x66x128.ShapeCasts S32x10x66x128
  inb_S1x32x8x4096_S1x32x8x4096_0_0_0_0 : ∀ a, (![0, 0, 0, 0] : Fin 4 → Nat) a + S1x32x8x4096.size a ≤ S1x32x8x4096.size a
  h_S1x32x8x4096 : 0 < S1x32x8x4096.numel
  shapeCasts_S1x32x8x4096_S32x8x4096 : S1x32x8x4096.ShapeCasts S32x8x4096
  shapeCasts_S32x8x4096_S1x32x8x4096 : S32x8x4096.ShapeCasts S1x32x8x4096
  slices_S32x10x66x128_o0_0_0_0_S32x10x64x64 : S32x10x66x128.Slices ![0, 0, 0, 0] S32x10x64x64
  shapeCasts_S32x10x64x64_S32x10x4096 : S32x10x64x64.ShapeCasts S32x10x4096
  slices_S32x10x4096_o0_0_0_S32x8x4096 : S32x10x4096.Slices ![0, 0, 0] S32x8x4096
  inb_S1x26x8x4096_S1x1x8x4096_0_0_0_0 : ∀ a, (![0, 0, 0, 0] : Fin 4 → Nat) a + S1x1x8x4096.size a ≤ S1x26x8x4096.size a
  h_S1x1x8x4096 : 0 < S1x1x8x4096.numel
  shapeCasts_S1x1x8x4096_S1x8x4096 : S1x1x8x4096.ShapeCasts S1x8x4096
  broadcasts_S1x8x4096_S32x8x4096 : S1x8x4096.Broadcasts S32x8x4096
  slices_S32x10x4096_o0_1_0_S32x8x4096 : S32x10x4096.Slices ![0, 1, 0] S32x8x4096
  inb_S1x26x8x4096_S1x1x8x4096_0_9_0_0 : ∀ a, (![0, 9, 0, 0] : Fin 4 → Nat) a + S1x1x8x4096.size a ≤ S1x26x8x4096.size a
  slices_S32x10x4096_o0_2_0_S32x8x4096 : S32x10x4096.Slices ![0, 2, 0] S32x8x4096
  inb_S1x26x8x4096_S1x1x8x4096_0_17_0_0 : ∀ a, (![0, 17, 0, 0] : Fin 4 → Nat) a + S1x1x8x4096.size a ≤ S1x26x8x4096.size a
  slices_S32x10x66x128_o0_0_0_1_S32x10x64x64 : S32x10x66x128.Slices ![0, 0, 0, 1] S32x10x64x64
  inb_S1x26x8x4096_S1x1x8x4096_0_1_0_0 : ∀ a, (![0, 1, 0, 0] : Fin 4 → Nat) a + S1x1x8x4096.size a ≤ S1x26x8x4096.size a
  inb_S1x26x8x4096_S1x1x8x4096_0_10_0_0 : ∀ a, (![0, 10, 0, 0] : Fin 4 → Nat) a + S1x1x8x4096.size a ≤ S1x26x8x4096.size a
  inb_S1x26x8x4096_S1x1x8x4096_0_18_0_0 : ∀ a, (![0, 18, 0, 0] : Fin 4 → Nat) a + S1x1x8x4096.size a ≤ S1x26x8x4096.size a
  slices_S32x10x66x128_o0_0_0_2_S32x10x64x64 : S32x10x66x128.Slices ![0, 0, 0, 2] S32x10x64x64
  inb_S1x26x8x4096_S1x1x8x4096_0_2_0_0 : ∀ a, (![0, 2, 0, 0] : Fin 4 → Nat) a + S1x1x8x4096.size a ≤ S1x26x8x4096.size a
  inb_S1x26x8x4096_S1x1x8x4096_0_11_0_0 : ∀ a, (![0, 11, 0, 0] : Fin 4 → Nat) a + S1x1x8x4096.size a ≤ S1x26x8x4096.size a
  inb_S1x26x8x4096_S1x1x8x4096_0_19_0_0 : ∀ a, (![0, 19, 0, 0] : Fin 4 → Nat) a + S1x1x8x4096.size a ≤ S1x26x8x4096.size a
  slices_S32x10x66x128_o0_0_1_0_S32x10x64x64 : S32x10x66x128.Slices ![0, 0, 1, 0] S32x10x64x64
  inb_S1x26x8x4096_S1x1x8x4096_0_3_0_0 : ∀ a, (![0, 3, 0, 0] : Fin 4 → Nat) a + S1x1x8x4096.size a ≤ S1x26x8x4096.size a
  inb_S1x26x8x4096_S1x1x8x4096_0_12_0_0 : ∀ a, (![0, 12, 0, 0] : Fin 4 → Nat) a + S1x1x8x4096.size a ≤ S1x26x8x4096.size a
  inb_S1x26x8x4096_S1x1x8x4096_0_20_0_0 : ∀ a, (![0, 20, 0, 0] : Fin 4 → Nat) a + S1x1x8x4096.size a ≤ S1x26x8x4096.size a
  slices_S32x10x66x128_o0_0_1_1_S32x10x64x64 : S32x10x66x128.Slices ![0, 0, 1, 1] S32x10x64x64
  inb_S1x26x8x4096_S1x1x8x4096_0_4_0_0 : ∀ a, (![0, 4, 0, 0] : Fin 4 → Nat) a + S1x1x8x4096.size a ≤ S1x26x8x4096.size a
  inb_S1x26x8x4096_S1x1x8x4096_0_21_0_0 : ∀ a, (![0, 21, 0, 0] : Fin 4 → Nat) a + S1x1x8x4096.size a ≤ S1x26x8x4096.size a
  slices_S32x10x66x128_o0_0_1_2_S32x10x64x64 : S32x10x66x128.Slices ![0, 0, 1, 2] S32x10x64x64
  inb_S1x26x8x4096_S1x1x8x4096_0_5_0_0 : ∀ a, (![0, 5, 0, 0] : Fin 4 → Nat) a + S1x1x8x4096.size a ≤ S1x26x8x4096.size a
  inb_S1x26x8x4096_S1x1x8x4096_0_13_0_0 : ∀ a, (![0, 13, 0, 0] : Fin 4 → Nat) a + S1x1x8x4096.size a ≤ S1x26x8x4096.size a
  inb_S1x26x8x4096_S1x1x8x4096_0_22_0_0 : ∀ a, (![0, 22, 0, 0] : Fin 4 → Nat) a + S1x1x8x4096.size a ≤ S1x26x8x4096.size a
  slices_S32x10x66x128_o0_0_2_0_S32x10x64x64 : S32x10x66x128.Slices ![0, 0, 2, 0] S32x10x64x64
  inb_S1x26x8x4096_S1x1x8x4096_0_6_0_0 : ∀ a, (![0, 6, 0, 0] : Fin 4 → Nat) a + S1x1x8x4096.size a ≤ S1x26x8x4096.size a
  inb_S1x26x8x4096_S1x1x8x4096_0_14_0_0 : ∀ a, (![0, 14, 0, 0] : Fin 4 → Nat) a + S1x1x8x4096.size a ≤ S1x26x8x4096.size a
  inb_S1x26x8x4096_S1x1x8x4096_0_23_0_0 : ∀ a, (![0, 23, 0, 0] : Fin 4 → Nat) a + S1x1x8x4096.size a ≤ S1x26x8x4096.size a
  slices_S32x10x66x128_o0_0_2_1_S32x10x64x64 : S32x10x66x128.Slices ![0, 0, 2, 1] S32x10x64x64
  inb_S1x26x8x4096_S1x1x8x4096_0_7_0_0 : ∀ a, (![0, 7, 0, 0] : Fin 4 → Nat) a + S1x1x8x4096.size a ≤ S1x26x8x4096.size a
  inb_S1x26x8x4096_S1x1x8x4096_0_15_0_0 : ∀ a, (![0, 15, 0, 0] : Fin 4 → Nat) a + S1x1x8x4096.size a ≤ S1x26x8x4096.size a
  inb_S1x26x8x4096_S1x1x8x4096_0_24_0_0 : ∀ a, (![0, 24, 0, 0] : Fin 4 → Nat) a + S1x1x8x4096.size a ≤ S1x26x8x4096.size a
  slices_S32x10x66x128_o0_0_2_2_S32x10x64x64 : S32x10x66x128.Slices ![0, 0, 2, 2] S32x10x64x64
  inb_S1x26x8x4096_S1x1x8x4096_0_8_0_0 : ∀ a, (![0, 8, 0, 0] : Fin 4 → Nat) a + S1x1x8x4096.size a ≤ S1x26x8x4096.size a
  inb_S1x26x8x4096_S1x1x8x4096_0_16_0_0 : ∀ a, (![0, 16, 0, 0] : Fin 4 → Nat) a + S1x1x8x4096.size a ≤ S1x26x8x4096.size a
  inb_S1x26x8x4096_S1x1x8x4096_0_25_0_0 : ∀ a, (![0, 25, 0, 0] : Fin 4 → Nat) a + S1x1x8x4096.size a ≤ S1x26x8x4096.size a
  shapeCasts_S2x32x64x4096_S2x32x64x64x64 : S2x32x64x4096.ShapeCasts S2x32x64x64x64
  hcc0_scratch1 : 4 + S2.numel ≤ 6
  hrank0 : 0 < grid0.rank
  k0_mult1_dvd : ∀ i : grid0.Coords, ∀ (k0_h1 : k0_cond1 i = 1#1), 8 ∣ k0_mult1.toNat
  k0_off1_inb : ∀ i : grid0.Coords, ∀ (k0_h1 : k0_cond1 i = 1#1), ∀ a, (k0_off1 i) a + S1x32x10x66x128.size a ≤ S2x32x66x66x128.size a
  k0_mult2_dvd : ∀ i : grid0.Coords, 8 ∣ (k0_mult2 i).toNat
  k0_off2_inb : ∀ i : grid0.Coords, ∀ a, (k0_off2 i) a + S1.size a ≤ S2.size a
  k0_off3_inb : ∀ i : grid0.Coords, ∀ a, (k0_off3 i) a + S1x32x10x66x128.size a ≤ S2x32x10x66x128.size a
  k0_off4_inb : ∀ i : grid0.Coords, ∀ a, (k0_off4 i) a + S1x32x10x66x128.size a ≤ S2x32x66x66x128.size a
  k0_mult3_dvd : ∀ i : grid0.Coords, ∀ (k0_h2 : k0_cond2 i = 1#1), 8 ∣ (k0_mult3 i).toNat
  k0_off5_inb : ∀ i : grid0.Coords, ∀ (k0_h2 : k0_cond2 i = 1#1), ∀ a, (k0_off5 i) a + S1.size a ≤ S2.size a
  k0_off6_inb : ∀ i : grid0.Coords, ∀ (k0_h2 : k0_cond2 i = 1#1), ∀ a, (k0_off6 i) a + S1x32x10x66x128.size a ≤ S2x32x10x66x128.size a
  k0_off7_inb : ∀ i : grid0.Coords, ∀ (k0_h2 : k0_cond2 i = 1#1), ∀ a, (k0_off7 i) a + S1x32x10x66x128.size a ≤ S2x32x66x66x128.size a
  k0_off8_inb : ∀ i : grid0.Coords, ∀ a, (k0_off8 i) a + S1x32x10x66x128.size a ≤ S2x32x10x66x128.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S1x26x8x4096.size a ≤ S2x26x64x4096.size a
  hwx0_0 : ∀ i : grid0.Coords, EltTy.bits .f32 = 32 ∨ (Rect.block (s := S2x26x64x4096) S1x26x8x4096.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x32x8x4096.size a ≤ S2x32x64x4096.size a
  hwx0_1 : ∀ i : grid0.Coords, EltTy.bits .f32 = 32 ∨ (Rect.block (s := S2x32x64x4096) S1x32x8x4096.size (cc0_transform_2 i) (hinb0_1 i)).WholeWords (EltTy.packing .f32)

variable [Facts₀]

abbrev cc0_scratch1 : DmaSems sig S2 := SemArray.consecutive 4 S2 hcc0_scratch1

abbrev win0_0 : Pipeline.Window sig grid0 :=
  Pipeline.Window.ofSpec (Memref.whole main_v1) S1x26x8x4096.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32x8x4096.size cc0_transform_2 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x32x66x66x66 : Shape := ⟨5, ![2, 32, 66, 66, 66]⟩
abbrev S2x26x64x64x64 : Shape := ⟨5, ![2, 26, 64, 64, 64]⟩
abbrev S_ : Shape := ⟨0, ![]⟩
abbrev S2x32x64x64x64 : Shape := ⟨5, ![2, 32, 64, 64, 64]⟩
abbrev S2x1x64x64x64 : Shape := ⟨5, ![2, 1, 64, 64, 64]⟩

abbrev nBuf : Space → Nat
  | .hbm => 134
  | .vmem => 0
  | .smem => 0
  | _ => 0

abbrev hbmTy0_0 (i : Nat) : BufTy := match i % 128 with
  | 0 => ⟨S2x32x66x66x66, .f32⟩
  | 1 => ⟨S2x26x64x64x64, .f32⟩
  | 2 => ⟨S_, .f32⟩
  | 3 => ⟨S2x32x64x64x64, .f32⟩
  | 4 => ⟨S2x32x64x64x64, .f32⟩
  | 5 => ⟨S2x1x64x64x64, .f32⟩
  | 6 => ⟨S2x32x64x64x64, .f32⟩
  | 7 => ⟨S2x32x64x64x64, .f32⟩
  | 8 => ⟨S2x32x64x64x64, .f32⟩
  | 9 => ⟨S2x32x64x64x64, .f32⟩
  | 10 => ⟨S2x1x64x64x64, .f32⟩
  | 11 => ⟨S2x32x64x64x64, .f32⟩
  | 12 => ⟨S2x32x64x64x64, .f32⟩
  | 13 => ⟨S2x32x64x64x64, .f32⟩
  | 14 => ⟨S2x32x64x64x64, .f32⟩
  | 15 => ⟨S2x1x64x64x64, .f32⟩
  | 16 => ⟨S2x32x64x64x64, .f32⟩
  | 17 => ⟨S2x32x64x64x64, .f32⟩
  | 18 => ⟨S2x32x64x64x64, .f32⟩
  | 19 => ⟨S2x32x64x64x64, .f32⟩
  | 20 => ⟨S2x1x64x64x64, .f32⟩
  | 21 => ⟨S2x32x64x64x64, .f32⟩
  | 22 => ⟨S2x32x64x64x64, .f32⟩
  | 23 => ⟨S2x32x64x64x64, .f32⟩
  | 24 => ⟨S2x32x64x64x64, .f32⟩
  | 25 => ⟨S2x1x64x64x64, .f32⟩
  | 26 => ⟨S2x32x64x64x64, .f32⟩
  | 27 => ⟨S2x32x64x64x64, .f32⟩
  | 28 => ⟨S2x32x64x64x64, .f32⟩
  | 29 => ⟨S2x32x64x64x64, .f32⟩
  | 30 => ⟨S2x1x64x64x64, .f32⟩
  | 31 => ⟨S2x32x64x64x64, .f32⟩
  | 32 => ⟨S2x32x64x64x64, .f32⟩
  | 33 => ⟨S2x32x64x64x64, .f32⟩
  | 34 => ⟨S2x32x64x64x64, .f32⟩
  | 35 => ⟨S2x1x64x64x64, .f32⟩
  | 36 => ⟨S2x32x64x64x64, .f32⟩
  | 37 => ⟨S2x32x64x64x64, .f32⟩
  | 38 => ⟨S2x32x64x64x64, .f32⟩
  | 39 => ⟨S2x32x64x64x64, .f32⟩
  | 40 => ⟨S2x1x64x64x64, .f32⟩
  | 41 => ⟨S2x32x64x64x64, .f32⟩
  | 42 => ⟨S2x32x64x64x64, .f32⟩
  | 43 => ⟨S2x32x64x64x64, .f32⟩
  | 44 => ⟨S2x32x64x64x64, .f32⟩
  | 45 => ⟨S2x1x64x64x64, .f32⟩
  | 46 => ⟨S2x32x64x64x64, .f32⟩
  | 47 => ⟨S2x32x64x64x64, .f32⟩
  | 48 => ⟨S2x32x64x64x64, .f32⟩
  | 49 => ⟨S2x32x64x64x64, .f32⟩
  | 50 => ⟨S2x1x64x64x64, .f32⟩
  | 51 => ⟨S2x32x64x64x64, .f32⟩
  | 52 => ⟨S2x32x64x64x64, .f32⟩
  | 53 => ⟨S2x32x64x64x64, .f32⟩
  | 54 => ⟨S2x32x64x64x64, .f32⟩
  | 55 => ⟨S2x1x64x64x64, .f32⟩
  | 56 => ⟨S2x32x64x64x64, .f32⟩
  | 57 => ⟨S2x32x64x64x64, .f32⟩
  | 58 => ⟨S2x32x64x64x64, .f32⟩
  | 59 => ⟨S2x32x64x64x64, .f32⟩
  | 60 => ⟨S2x1x64x64x64, .f32⟩
  | 61 => ⟨S2x32x64x64x64, .f32⟩
  | 62 => ⟨S2x32x64x64x64, .f32⟩
  | 63 => ⟨S2x32x64x64x64, .f32⟩
  | 64 => ⟨S2x32x64x64x64, .f32⟩
  | 65 => ⟨S2x1x64x64x64, .f32⟩
  | 66 => ⟨S2x32x64x64x64, .f32⟩
  | 67 => ⟨S2x32x64x64x64, .f32⟩
  | 68 => ⟨S2x32x64x64x64, .f32⟩
  | 69 => ⟨S2x32x64x64x64, .f32⟩
  | 70 => ⟨S2x1x64x64x64, .f32⟩
  | 71 => ⟨S2x32x64x64x64, .f32⟩
  | 72 => ⟨S2x32x64x64x64, .f32⟩
  | 73 => ⟨S2x32x64x64x64, .f32⟩
  | 74 => ⟨S2x32x64x64x64, .f32⟩
  | 75 => ⟨S2x1x64x64x64, .f32⟩
  | 76 => ⟨S2x32x64x64x64, .f32⟩
  | 77 => ⟨S2x32x64x64x64, .f32⟩
  | 78 => ⟨S2x32x64x64x64, .f32⟩
  | 79 => ⟨S2x32x64x64x64, .f32⟩
  | 80 => ⟨S2x1x64x64x64, .f32⟩
  | 81 => ⟨S2x32x64x64x64, .f32⟩
  | 82 => ⟨S2x32x64x64x64, .f32⟩
  | 83 => ⟨S2x32x64x64x64, .f32⟩
  | 84 => ⟨S2x32x64x64x64, .f32⟩
  | 85 => ⟨S2x1x64x64x64, .f32⟩
  | 86 => ⟨S2x32x64x64x64, .f32⟩
  | 87 => ⟨S2x32x64x64x64, .f32⟩
  | 88 => ⟨S2x32x64x64x64, .f32⟩
  | 89 => ⟨S2x32x64x64x64, .f32⟩
  | 90 => ⟨S2x1x64x64x64, .f32⟩
  | 91 => ⟨S2x32x64x64x64, .f32⟩
  | 92 => ⟨S2x32x64x64x64, .f32⟩
  | 93 => ⟨S2x32x64x64x64, .f32⟩
  | 94 => ⟨S2x32x64x64x64, .f32⟩
  | 95 => ⟨S2x1x64x64x64, .f32⟩
  | 96 => ⟨S2x32x64x64x64, .f32⟩
  | 97 => ⟨S2x32x64x64x64, .f32⟩
  | 98 => ⟨S2x32x64x64x64, .f32⟩
  | 99 => ⟨S2x32x64x64x64, .f32⟩
  | 100 => ⟨S2x1x64x64x64, .f32⟩
  | 101 => ⟨S2x32x64x64x64, .f32⟩
  | 102 => ⟨S2x32x64x64x64, .f32⟩
  | 103 => ⟨S2x32x64x64x64, .f32⟩
  | 104 => ⟨S2x32x64x64x64, .f32⟩
  | 105 => ⟨S2x1x64x64x64, .f32⟩
  | 106 => ⟨S2x32x64x64x64, .f32⟩
  | 107 => ⟨S2x32x64x64x64, .f32⟩
  | 108 => ⟨S2x32x64x64x64, .f32⟩
  | 109 => ⟨S2x32x64x64x64, .f32⟩
  | 110 => ⟨S2x1x64x64x64, .f32⟩
  | 111 => ⟨S2x32x64x64x64, .f32⟩
  | 112 => ⟨S2x32x64x64x64, .f32⟩
  | 113 => ⟨S2x32x64x64x64, .f32⟩
  | 114 => ⟨S2x32x64x64x64, .f32⟩
  | 115 => ⟨S2x1x64x64x64, .f32⟩
  | 116 => ⟨S2x32x64x64x64, .f32⟩
  | 117 => ⟨S2x32x64x64x64, .f32⟩
  | 118 => ⟨S2x32x64x64x64, .f32⟩
  | 119 => ⟨S2x32x64x64x64, .f32⟩
  | 120 => ⟨S2x1x64x64x64, .f32⟩
  | 121 => ⟨S2x32x64x64x64, .f32⟩
  | 122 => ⟨S2x32x64x64x64, .f32⟩
  | 123 => ⟨S2x32x64x64x64, .f32⟩
  | 124 => ⟨S2x32x64x64x64, .f32⟩
  | 125 => ⟨S2x1x64x64x64, .f32⟩
  | 126 => ⟨S2x32x64x64x64, .f32⟩
  | 127 => ⟨S2x32x64x64x64, .f32⟩
  | _ => ⟨S2x32x66x66x66, .f32⟩

abbrev hbmTy0_1 (i : Nat) : BufTy := match i % 128 with
  | 0 => ⟨S2x32x64x64x64, .f32⟩
  | 1 => ⟨S2x32x64x64x64, .f32⟩
  | 2 => ⟨S2x1x64x64x64, .f32⟩
  | 3 => ⟨S2x32x64x64x64, .f32⟩
  | 4 => ⟨S2x32x64x64x64, .f32⟩
  | 5 => ⟨S2x32x64x64x64, .f32⟩
  | _ => ⟨S2x32x66x66x66, .f32⟩

abbrev hbmTy (i : Nat) : BufTy := match i / 128 with
  | 0 => hbmTy0_0 i
  | 1 => hbmTy0_1 i
  | _ => ⟨S2x32x66x66x66, .f32⟩

abbrev bufTy : (tb : Table) → Fin (tcTables nBuf tb) → BufTy
  | .hbm, ⟨i, _⟩ => hbmTy i
  | _, _ => ⟨S2x32x66x66x66, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩

abbrev nD : Nat := 1
abbrev τ : Topo := Topo.v7x

variable {F : FTy → Type} [FloatOps F]

class Facts₀ : Prop where
  bcast_S_S2x32x64x64x64 : S_.BroadcastsInDim S2x32x64x64x64 (![] : Fin 0 → Fin S2x32x64x64x64.rank)
  slices_S2x32x66x66x66_S2x32x64x64x64_0_0_0_0_0 : S2x32x66x66x66.Slices ![0, 0, 0, 0, 0] S2x32x64x64x64
  slices_S2x26x64x64x64_S2x1x64x64x64_0_0_0_0_0 : S2x26x64x64x64.Slices ![0, 0, 0, 0, 0] S2x1x64x64x64
  bcast_S2x1x64x64x64_S2x32x64x64x64_0_1_2_3_4 : S2x1x64x64x64.BroadcastsInDim S2x32x64x64x64 (![0, 1, 2, 3, 4] : Fin 5 → Fin S2x32x64x64x64.rank)
  slices_S2x32x66x66x66_S2x32x64x64x64_0_0_0_0_1 : S2x32x66x66x66.Slices ![0, 0, 0, 0, 1] S2x32x64x64x64
  slices_S2x26x64x64x64_S2x1x64x64x64_0_1_0_0_0 : S2x26x64x64x64.Slices ![0, 1, 0, 0, 0] S2x1x64x64x64
  slices_S2x32x66x66x66_S2x32x64x64x64_0_0_0_0_2 : S2x32x66x66x66.Slices ![0, 0, 0, 0, 2] S2x32x64x64x64
  slices_S2x26x64x64x64_S2x1x64x64x64_0_2_0_0_0 : S2x26x64x64x64.Slices ![0, 2, 0, 0, 0] S2x1x64x64x64
  slices_S2x32x66x66x66_S2x32x64x64x64_0_0_0_1_0 : S2x32x66x66x66.Slices ![0, 0, 0, 1, 0] S2x32x64x64x64
  slices_S2x26x64x64x64_S2x1x64x64x64_0_3_0_0_0 : S2x26x64x64x64.Slices ![0, 3, 0, 0, 0] S2x1x64x64x64
  slices_S2x32x66x66x66_S2x32x64x64x64_0_0_0_1_1 : S2x32x66x66x66.Slices ![0, 0, 0, 1, 1] S2x32x64x64x64
  slices_S2x26x64x64x64_S2x1x64x64x64_0_4_0_0_0 : S2x26x64x64x64.Slices ![0, 4, 0, 0, 0] S2x1x64x64x64
  slices_S2x32x66x66x66_S2x32x64x64x64_0_0_0_1_2 : S2x32x66x66x66.Slices ![0, 0, 0, 1, 2] S2x32x64x64x64
  slices_S2x26x64x64x64_S2x1x64x64x64_0_5_0_0_0 : S2x26x64x64x64.Slices ![0, 5, 0, 0, 0] S2x1x64x64x64
  slices_S2x32x66x66x66_S2x32x64x64x64_0_0_0_2_0 : S2x32x66x66x66.Slices ![0, 0, 0, 2, 0] S2x32x64x64x64
  slices_S2x26x64x64x64_S2x1x64x64x64_0_6_0_0_0 : S2x26x64x64x64.Slices ![0, 6, 0, 0, 0] S2x1x64x64x64
  slices_S2x32x66x66x66_S2x32x64x64x64_0_0_0_2_1 : S2x32x66x66x66.Slices ![0, 0, 0, 2, 1] S2x32x64x64x64
  slices_S2x26x64x64x64_S2x1x64x64x64_0_7_0_0_0 : S2x26x64x64x64.Slices ![0, 7, 0, 0, 0] S2x1x64x64x64
  slices_S2x32x66x66x66_S2x32x64x64x64_0_0_0_2_2 : S2x32x66x66x66.Slices ![0, 0, 0, 2, 2] S2x32x64x64x64
  slices_S2x26x64x64x64_S2x1x64x64x64_0_8_0_0_0 : S2x26x64x64x64.Slices ![0, 8, 0, 0, 0] S2x1x64x64x64
  slices_S2x32x66x66x66_S2x32x64x64x64_0_0_1_0_0 : S2x32x66x66x66.Slices ![0, 0, 1, 0, 0] S2x32x64x64x64
  slices_S2x26x64x64x64_S2x1x64x64x64_0_9_0_0_0 : S2x26x64x64x64.Slices ![0, 9, 0, 0, 0] S2x1x64x64x64
  slices_S2x32x66x66x66_S2x32x64x64x64_0_0_1_0_1 : S2x32x66x66x66.Slices ![0, 0, 1, 0, 1] S2x32x64x64x64
  slices_S2x26x64x64x64_S2x1x64x64x64_0_10_0_0_0 : S2x26x64x64x64.Slices ![0, 10, 0, 0, 0] S2x1x64x64x64
  slices_S2x32x66x66x66_S2x32x64x64x64_0_0_1_0_2 : S2x32x66x66x66.Slices ![0, 0, 1, 0, 2] S2x32x64x64x64
  slices_S2x26x64x64x64_S2x1x64x64x64_0_11_0_0_0 : S2x26x64x64x64.Slices ![0, 11, 0, 0, 0] S2x1x64x64x64
  slices_S2x32x66x66x66_S2x32x64x64x64_0_0_1_1_0 : S2x32x66x66x66.Slices ![0, 0, 1, 1, 0] S2x32x64x64x64
  slices_S2x26x64x64x64_S2x1x64x64x64_0_12_0_0_0 : S2x26x64x64x64.Slices ![0, 12, 0, 0, 0] S2x1x64x64x64
  slices_S2x32x66x66x66_S2x32x64x64x64_0_0_1_1_2 : S2x32x66x66x66.Slices ![0, 0, 1, 1, 2] S2x32x64x64x64
  slices_S2x26x64x64x64_S2x1x64x64x64_0_13_0_0_0 : S2x26x64x64x64.Slices ![0, 13, 0, 0, 0] S2x1x64x64x64
  slices_S2x32x66x66x66_S2x32x64x64x64_0_0_1_2_0 : S2x32x66x66x66.Slices ![0, 0, 1, 2, 0] S2x32x64x64x64
  slices_S2x26x64x64x64_S2x1x64x64x64_0_14_0_0_0 : S2x26x64x64x64.Slices ![0, 14, 0, 0, 0] S2x1x64x64x64
  slices_S2x32x66x66x66_S2x32x64x64x64_0_0_1_2_1 : S2x32x66x66x66.Slices ![0, 0, 1, 2, 1] S2x32x64x64x64
  slices_S2x26x64x64x64_S2x1x64x64x64_0_15_0_0_0 : S2x26x64x64x64.Slices ![0, 15, 0, 0, 0] S2x1x64x64x64
  slices_S2x32x66x66x66_S2x32x64x64x64_0_0_1_2_2 : S2x32x66x66x66.Slices ![0, 0, 1, 2, 2] S2x32x64x64x64
  slices_S2x26x64x64x64_S2x1x64x64x64_0_16_0_0_0 : S2x26x64x64x64.Slices ![0, 16, 0, 0, 0] S2x1x64x64x64
  slices_S2x32x66x66x66_S2x32x64x64x64_0_0_2_0_0 : S2x32x66x66x66.Slices ![0, 0, 2, 0, 0] S2x32x64x64x64
  slices_S2x26x64x64x64_S2x1x64x64x64_0_17_0_0_0 : S2x26x64x64x64.Slices ![0, 17, 0, 0, 0] S2x1x64x64x64
  slices_S2x32x66x66x66_S2x32x64x64x64_0_0_2_0_1 : S2x32x66x66x66.Slices ![0, 0, 2, 0, 1] S2x32x64x64x64
  slices_S2x26x64x64x64_S2x1x64x64x64_0_18_0_0_0 : S2x26x64x64x64.Slices ![0, 18, 0, 0, 0] S2x1x64x64x64
  slices_S2x32x66x66x66_S2x32x64x64x64_0_0_2_0_2 : S2x32x66x66x66.Slices ![0, 0, 2, 0, 2] S2x32x64x64x64
  slices_S2x26x64x64x64_S2x1x64x64x64_0_19_0_0_0 : S2x26x64x64x64.Slices ![0, 19, 0, 0, 0] S2x1x64x64x64
  slices_S2x32x66x66x66_S2x32x64x64x64_0_0_2_1_0 : S2x32x66x66x66.Slices ![0, 0, 2, 1, 0] S2x32x64x64x64
  slices_S2x26x64x64x64_S2x1x64x64x64_0_20_0_0_0 : S2x26x64x64x64.Slices ![0, 20, 0, 0, 0] S2x1x64x64x64
  slices_S2x32x66x66x66_S2x32x64x64x64_0_0_2_1_1 : S2x32x66x66x66.Slices ![0, 0, 2, 1, 1] S2x32x64x64x64
  slices_S2x26x64x64x64_S2x1x64x64x64_0_21_0_0_0 : S2x26x64x64x64.Slices ![0, 21, 0, 0, 0] S2x1x64x64x64
  slices_S2x32x66x66x66_S2x32x64x64x64_0_0_2_1_2 : S2x32x66x66x66.Slices ![0, 0, 2, 1, 2] S2x32x64x64x64
  slices_S2x26x64x64x64_S2x1x64x64x64_0_22_0_0_0 : S2x26x64x64x64.Slices ![0, 22, 0, 0, 0] S2x1x64x64x64
  slices_S2x32x66x66x66_S2x32x64x64x64_0_0_2_2_0 : S2x32x66x66x66.Slices ![0, 0, 2, 2, 0] S2x32x64x64x64
  slices_S2x26x64x64x64_S2x1x64x64x64_0_23_0_0_0 : S2x26x64x64x64.Slices ![0, 23, 0, 0, 0] S2x1x64x64x64
  slices_S2x32x66x66x66_S2x32x64x64x64_0_0_2_2_1 : S2x32x66x66x66.Slices ![0, 0, 2, 2, 1] S2x32x64x64x64
  slices_S2x26x64x64x64_S2x1x64x64x64_0_24_0_0_0 : S2x26x64x64x64.Slices ![0, 24, 0, 0, 0] S2x1x64x64x64
  slices_S2x32x66x66x66_S2x32x64x64x64_0_0_2_2_2 : S2x32x66x66x66.Slices ![0, 0, 2, 2, 2] S2x32x64x64x64
  slices_S2x26x64x64x64_S2x1x64x64x64_0_25_0_0_0 : S2x26x64x64x64.Slices ![0, 25, 0, 0, 0] S2x1x64x64x64

variable [Facts₀]

class Facts : Prop extends Facts₀ where

variable [Facts]
-- ==== Proof.BitsKit.lean ====
/-
  The double-buffered stencil kernel's frame, first part: what every grid point's run is stated over.

  The kernel leaves the padded feature array in slow memory and streams it through a scratch buffer of two slots by
  copies of its own: at depth tile i of batch β it waits for the copy of depth rows [8 i, 8 i + 10) of batch β into
  slot i mod 2, and, unless i is the last tile, starts the copy of rows [8 (i + 1), 8 (i + 1) + 10) into the other
  slot; the first tile of a batch also starts its own copy.  So within a batch the eight copies form a ring of two slots
  running one block ahead, and between batches nothing is in flight.  The windows of consecutive tiles overlap by two
  rows, so a copy borrows its source rows from a read share of the whole array (one half share per slot) rather than
  from a partition into blocks.

  This module restates the launch facts at the resource algebra that carries the transfers' counters, decides the two
  branch conditions over the sixteen grid points, names the slots, source windows and semaphore cells as the body spells
  them, and states the ring before each step with its entry and exit.
-/
import proofs.«416960_j11115375362872_4_alg».proof.Proof.Gen.Kernel.Frame
import proofs.«416960_j11115375362872_4_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its one region, with the transfers' counters in the algebra -/

/-- The program is the host lines before the region, the region, and the one host line after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The array the kernel copies from by itself: the padded feature array after the host's widening of its last axis. -/
def H0 : Finset (Ref sig .tc) := {main_v0}
theorem H0_sub : H0 ⊆ Pipeline.restRefs sig spec0 := by decide

/-- The line after the region (a reshape of the result) touches neither a prefetched table (there is none) nor that array. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  rcases hop with rfl
  intro b hb
  simp only [H0, Finset.mem_singleton] at hb
  subst hb
  simp only [StableHlo.reshape_bufs, Finset.mem_insert, Finset.mem_singleton, not_or]
  exact ⟨StableHlo.devRef_ne_of_ne (by decide), StableHlo.devRef_ne_of_ne (by decide)⟩

/-- No host line after the region writes an argument: each ends as launched. -/
theorem W_main_arg0D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The weight window's staging buffer holds its block at every point, for any proof data whose array is the region-entry
    contents and whose body leaves the block in place. -/
theorem before0_0_ofD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's post: both arguments are buffers no window stages and no host line
    writes. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0D m dats c)),
      (((h c).2 main_arg1 (Pipeline.mem_restRefs_of main_arg1 (by decide) (by decide))).trans (W_main_arg1D m dats c))⟩) h

/-! ## The body's two branches, decided over the grid -/

/-- "This is the first depth tile of its batch": the body then starts the tile's own copy. -/
abbrev condFirst (i : grid0.Coords) : Prop := k0_cond1 i = 1#1
theorem hcondFirst : ∀ t : Fin cfg0.N, condFirst (grid0.coords t) ↔ t.val % 8 = 0 :=
  (by decide +kernel : ∀ t : Fin grid0.N, condFirst (grid0.coords t) ↔ t.val % 8 = 0)

/-- "A depth tile follows in this batch": the body then starts the next tile's copy. -/
abbrev condMore (i : grid0.Coords) : Prop := k0_cond2 i = 1#1
theorem hcondMore : ∀ t : Fin cfg0.N, condMore (grid0.coords t) ↔ t.val % 8 < 7 :=
  (by decide +kernel : ∀ t : Fin grid0.N, condMore (grid0.coords t) ↔ t.val % 8 < 7)

/-! ## The memrefs the body is called with -/

/-- One staging buffer of the output window, through which its contents are stated. -/
abbrev VO : View sig .tc .vmem S1x32x8x4096 .f32 := (Memref.whole cc0_stg1_0 : Memref sig .tc .vmem S1x32x8x4096 .f32).view
/-- Each window's current staging memref at a point, as the pipeline passes it. -/
abbrev msA (t : Fin cfg0.N) : Memref sig .tc .vmem S1x26x8x4096 .f32 := win0_0.stage (cfg0.slots t 0)
abbrev hsA (t : Fin cfg0.N) : (msA t).IsWhole := hstage0_0 ((cfg0.slots t 0).cast nbuf0_0)
abbrev msO (t : Fin cfg0.N) : Memref sig .tc .vmem S1x32x8x4096 .f32 := win0_1.stage (cfg0.slots t 1)
abbrev hsO (t : Fin cfg0.N) : (msO t).IsWhole := hstage0_1 ((cfg0.slots t 1).cast nbuf0_1)
/-- The scratch of two slots, and the array left in slow memory, whole. -/
abbrev scM : Memref sig .tc .vmem S2x32x10x66x128 .f32 := Memref.whole cc0_scratch0
abbrev hbM : Memref sig .tc .hbm S2x32x66x66x128 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two semaphore cells. -/
abbrev osem : Fin 2 → SemLoc sig := fun j => (![SemLoc.dma 4, SemLoc.dma 5] : Fin 2 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0) := by
  rw [Pipeline.ownSems0_eq_of_list c osem [0, 1] (by decide) (by decide)]; rfl
theorem hbmPts_eq (c : Dev nD) :
    (bigSep H0 (fun b => ((c : Thread nD τ).loc b) ↦{fullShare} V m c b) : sProp 𝕄) = iprop(hbPt c hbM (V m c main_v0)) := by
  rw [BI.bigSep_eq_bigSepL_of_eq [main_v0] (by decide) (by decide)]; rfl

/-- What the launch hands the region and takes back: the scratch at some contents, the generator register, the two cells at
    zero, the padded array at its region-entry contents. -/
theorem PhiD_eq (c : Dev nD) :
    (Pipeline.ΦD osem spec0 H0 (V m) c : sProp 𝕄)
      = iprop(iprop((∃ d, owns (c : Thread nD τ) scM fullShare d)) ∗ (∃ r, prngReg c r) ∗ iprop(semVal ((c : Thread nD τ), SemLoc.dma 4) 0 ∗ semVal ((c : Thread nD τ), SemLoc.dma 5) 0) ∗ iprop(hbPt c hbM (V m c main_v0))) := by
  rw [Pipeline.ΦD_eq, scopedRest0_eq, ownSems0_eq, hbmPts_eq]; simp only [scM, owns_whole]; try rfl

/-! ## The ring of one batch: two slots, eight source windows, one copy ahead -/

theorem inb_slot (s : Fin 2) : ∀ a, (![s.val, 0, 0, 0, 0] : Fin 5 → Nat) a + S1x32x10x66x128.size a ≤ S2x32x10x66x128.size a := by
  have := s.isLt; intro a; fin_cases a <;> simp <;> omega
theorem inb_src (β : Fin 2) (b : Fin 8) : ∀ a, (![β.val, 0, 8 * b.val, 0, 0] : Fin 5 → Nat) a + S1x32x10x66x128.size a ≤ S2x32x66x66x128.size a := by
  have := β.isLt; have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch, spelt as the body's copies spell their destination. -/
def rslot (s : Fin 2) : Memref sig .tc .vmem S32x10x66x128 .f32 :=
  (scM.slice (Rect.unit (s := S2x32x10x66x128) ![s.val, 0, 0, 0, 0] S1x32x10x66x128.size (inb_slot s)) (fun _ => rfl)).squeeze S32x10x66x128 squeezes_S1x32x10x66x128_S32x10x66x128
/-- Depth rows [8 b, 8 b + 10) of batch `β` of the padded array, spelt as the copies spell their source. -/
def srcB (β : Fin 2) (b : Fin 8) : Memref sig .tc .hbm S32x10x66x128 .f32 :=
  (hbM.slice (Rect.unit (s := S2x32x66x66x128) ![β.val, 0, 8 * b.val, 0, 0] S1x32x10x66x128.size (inb_src β b)) (fun _ => rfl)).squeeze S32x10x66x128 squeezes_S1x32x10x66x128_S32x10x66x128
/-- Semaphore cell `s`, spelt as the body spells a cell; its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

section RingFamilies
variable (c : Dev nD) (W : HbBuf (F := F) c hbM) (β : Fin 2)
/-- The array is lent by share, one read share per slot: consecutive windows overlap, and each copy borrows its rows from
    its own slot's share of the whole array. -/
abbrev qs (s : Fin 2) : PosShare TreeShare := if s.val = 0 then fullShare.left else fullShare.right
/-- Slot `s` held at `f`; cell `s` at zero; window `b`'s rows of slot `s`'s share, the rest of that share, and the share whole;
    the slot once window `b` has landed in it; the copy of window `b` into slot `s` in flight. -/
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 8) : sProp 𝕄 := (srcB β b).view.loc (c : Thread nD τ) ↦[(srcB β b).view.set]{qs s} W
def restP (s : Fin 2) (b : Fin 8) : sProp 𝕄 := ((c : Thread nD τ).loc main_v0) ↦[Finset.univ \ (srcB β b).view.set]{qs s} W
abbrev wholeP (s : Fin 2) : sProp 𝕄 := ((c : Thread nD τ).loc main_v0) ↦[Finset.univ]{qs s} W
abbrev landed (s : Fin 2) (b : Fin 8) (f : HbBuf (F := F) c (rslot s)) : HbBuf (F := F) c (rslot s) :=
  (rslot s).view.writes (Elt F) f [⟨Rect.whole S32x10x66x128, ReadAs.same.apply ((srcB β b).view.read (Elt F) W)⟩]
abbrev flightP (s : Fin 2) (b : Fin 8) (f : HbBuf (F := F) c (rslot s)) : sProp 𝕄 :=
  Transfers.Flight countersEmb (c : Thread nD τ) (cellR s) default ((rslot s).view.amount (cellR s))
    iprop(slotP c s (landed c W β s b f) ∗ srcP c W β s b)
/-- A slot not in flight carries its share of the array whole; a flight, the rest of the share it borrowed from. No window is
    held apart. -/
abbrev slotW (s : Fin 2) (f : HbBuf (F := F) c (rslot s)) : sProp 𝕄 := iprop(slotP c s f ∗ wholeP c W s)
abbrev flightW (s : Fin 2) (b : Fin 8) (f : HbBuf (F := F) c (rslot s)) : sProp 𝕄 := iprop(flightP c W β s b f ∗ restP c W β s b)
abbrev noHome (b : Fin 8) : sProp 𝕄 := iprop(emp)
/-- The ring of batch `β` before its step `k`: every slot free before the first; from then on window `k` in flight into slot
    `k`, the other slot keeping window `k - 1`. -/
def ringAt (k : ℕ) : sProp 𝕄 :=
  if k = 0 then Ring.At₀ (cellP c) (slotW c W) noHome
  else Ring.AtK 1 (cellP c) (slotW c W) noHome (flightW c W β) (landed c W β) k
omit [FloatOps F] in
theorem cellP_0 : cellP (F := F) c 0 = semVal ((c : Thread nD τ), SemLoc.dma 4) 0 := congrArg (fun x => (semVal ((c : Thread nD τ), x) 0 : sProp 𝕄)) cellR_0
omit [FloatOps F] in
theorem cellP_1 : cellP (F := F) c 1 = semVal ((c : Thread nD τ), SemLoc.dma 5) 0 := congrArg (fun x => (semVal ((c : Thread nD τ), x) 0 : sProp 𝕄)) cellR_1
end RingFamilies

/-! ### The slots, disjoint and covering the scratch -/

abbrev slotSet (s : Fin 2) : Finset S2x32x10x66x128.Idx := (Rect.unit (s := S2x32x10x66x128) ![s.val, 0, 0, 0, 0] S1x32x10x66x128.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x32x10x66x128) (0 : Fin 5) 1 (fun s : Fin 2 => (![s.val, 0, 0, 0, 0] : Fin 5 → Nat)) S1x32x10x66x128.size inb_slot (fun s => by simp) rfl s s' h
theorem slots_cover : Finset.univ.biUnion slotSet = Finset.univ :=
  Ring.lead_cover (s := S2x32x10x66x128) (0 : Fin 5) 1 (fun s : Fin 2 => (![s.val, 0, 0, 0, 0] : Fin 5 → Nat)) S1x32x10x66x128.size inb_slot (fun s => by simp)
    (fun s a ha => by fin_cases a <;> first | exact absurd rfl ha | rfl) rfl (fun a ha => by fin_cases a <;> first | exact absurd rfl ha | rfl) rfl

/-! ### What the launch hands the ring, and takes back -/

section InOut
variable (c : Dev nD) (W : HbBuf (F := F) c hbM) (β : Fin 2)
theorem slotP_eq (s : Fin 2) (f) : slotP (F := F) c s f = (((c : Thread nD τ).loc cc0_scratch0) ↦[slotSet s]{fullShare} f : sProp 𝕄) := by
  unfold slotP; rw [slotSet_eq]; rfl
/-- A slot's share of the array, whole, is window `b`'s rows and the rest, for any window. -/
theorem src_split (s : Fin 2) (b : Fin 8) : wholeP (F := F) c W s ⊣⊢ iprop(srcP c W β s b ∗ restP c W β s b) := by
  unfold restP; exact pointsTo_split_subset (Finset.subset_univ _)
/-- The array whole at the full share is the two slots' shares. -/
theorem whole_split : (hbPt c hbM W : sProp 𝕄) ⊣⊢ iprop(wholeP c W 0 ∗ wholeP c W 1) :=
  pointsTo_share (PosShare.mem_left_op_right fullShare)
set_option maxHeartbeats 1000000 in
/-- The scratch whole at anything is its two slots at something each, and back. -/
theorem slots_in : iprop(∃ d, owns (c : Thread nD τ) scM fullShare d) ⊢ (iprop((∃ f, slotP (F := F) c 0 f) ∗ ∃ f, slotP (F := F) c 1 f) : sProp 𝕄) := by
  simp only [scM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- Nothing in flight: both slots free with their shares of the array, the form the ring has before a batch's first step.
    It does not depend on the batch. -/
def allFree (c : Dev nD) (W : HbBuf (F := F) c hbM) : sProp 𝕄 := Ring.At₀ (cellP c) (slotW c W) noHome

/-- Into the ring: the scratch whole, the cells at zero and the array whole are the ring with nothing in flight; -/
theorem ring_in (c : Dev nD) (W : HbBuf (F := F) c hbM) :
    iprop((∃ d, owns (c : Thread nD τ) scM fullShare d) ∗ (semVal ((c : Thread nD τ), SemLoc.dma 4) 0 ∗ semVal ((c : Thread nD τ), SemLoc.dma 5) 0) ∗ hbPt c hbM W)
      ⊢ allFree c W := by
  unfold allFree Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and out of it: with nothing in flight those pieces again. -/
theorem ring_out (c : Dev nD) (W : HbBuf (F := F) c hbM) :
    allFree c W
      ⊢ iprop((∃ d, owns (c : Thread nD τ) scM fullShare d) ∗ (semVal ((c : Thread nD τ), SemLoc.dma 4) 0 ∗ semVal ((c : Thread nD τ), SemLoc.dma 5) 0) ∗ hbPt c hbM W) := by
  unfold allFree Ring.At₀
  rw [Ring.bigSep_fin2]
  simp only [Ring.free, cellP_0, cellP_1]
  iintro ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c W).2; isplitl [HW0]; · iexact HW0
    iexact HW1

/-! ## The region invariant at a point -/

/-- The batch of a point, and of the position just after the last point. -/
def bat (p : ℕ) : Fin 2 := Fin.ofNat 2 (p / 8)

/-- Before point `p`: the generator register at some state, and the ring of the point's batch before step `p mod 8`. -/
def PhiR (c : Dev nD) (p : ℕ) : sProp 𝕄 := iprop((∃ r, prngReg c r) ∗ ringAt c (V m c main_v0) (bat p) (p % 8))

theorem ringAt_zero (c : Dev nD) (W : HbBuf (F := F) c hbM) (β : Fin 2) : ringAt c W β 0 = allFree c W := by
  unfold ringAt allFree; rw [if_pos rfl]

/-! ## The ring's step at each kind of point, and the body's operands there as the ring's slots, windows and cells -/

section Canon
omit [FloatOps F]
theorem stepA (t : Fin grid0.N) (h0 : condFirst (grid0.coords t)) (h1 : condMore (grid0.coords t)) : t.val % 8 = 0 := (hcondFirst t).mp h0
theorem stepB (t : Fin grid0.N) (h0 : ¬condFirst (grid0.coords t)) (h1 : condMore (grid0.coords t)) : 1 ≤ t.val % 8 ∧ t.val % 8 + 1 < 8 := by
  have a := (hcondFirst t).not.mp h0; have b := (hcondMore t).mp h1; omega
theorem stepC (t : Fin grid0.N) (h0 : ¬condFirst (grid0.coords t)) (h1 : ¬condMore (grid0.coords t)) : 1 ≤ t.val % 8 ∧ t.val % 8 + 1 = 8 := by
  have a := (hcondFirst t).not.mp h0; have b := (hcondMore t).not.mp h1; omega

set_option synthInstance.maxSize 4096 in
theorem coff_first_dst : ∀ t : Fin grid0.N, condFirst (grid0.coords t) → (![0, 0, 0, 0, 0] : Fin 5 → Nat) = ![(Ring.sl 2 (t.val % 8)).val, 0, 0, 0, 0] := by decide +kernel
@[sl_canon] theorem canon_first_dst (t : Fin grid0.N) (h0 : condFirst (grid0.coords t)) :
    (scM.slice (Rect.unit (s := S2x32x10x66x128) ![0, 0, 0, 0, 0] S1x32x10x66x128.size inb_S2x32x10x66x128_S1x32x10x66x128_0_0_0_0_0) (fun _ => rfl)).squeeze S32x10x66x128 squeezes_S1x32x10x66x128_S32x10x66x128 = rslot (Ring.sl 2 (t.val % 8)) :=
  congrArg (fun M : Memref sig .tc .vmem S1x32x10x66x128 .f32 => M.squeeze S32x10x66x128 squeezes_S1x32x10x66x128_S32x10x66x128) (Memref.slice_unit_congr _ (coff_first_dst t h0) _ _ (fun _ => rfl) (fun _ => rfl))
set_option synthInstance.maxSize 4096 in
theorem coff_first_cell : ∀ t : Fin grid0.N, condFirst (grid0.coords t) → (![0] : Fin 1 → Nat) = ![(Ring.sl 2 (t.val % 8)).val] := by decide +kernel
@[sl_canon] theorem canon_first_cell (t : Fin grid0.N) (h0 : condFirst (grid0.coords t)) :
    (cc0_scratch1.slice (Rect.unit (s := S2) ![0] S1.size inb_S2_S1_0)).squeeze S_ squeezes_S1_S_ = cellA (Ring.sl 2 (t.val % 8)) :=
  congrArg (fun A : DmaSems sig S1 => A.squeeze S_ squeezes_S1_S_) (SemArray.slice_unit_congr _ (coff_first_cell t h0) _ _)
set_option synthInstance.maxSize 4096 in
theorem coff_first_src : ∀ t : Fin grid0.N, condFirst (grid0.coords t) → k0_off1 (grid0.coords t) = ![(bat t.val).val, 0, 8 * (Ring.bk 8 (t.val % 8)).val, 0, 0] := by decide +kernel
@[sl_canon] theorem canon_first_src (t : Fin grid0.N) (h0 : condFirst (grid0.coords t)) :
    (hbM.slice (Rect.unit (s := S2x32x66x66x128) (k0_off1 (grid0.coords t)) S1x32x10x66x128.size (k0_off1_inb (grid0.coords t) h0)) (fun _ => rfl)).squeeze S32x10x66x128 squeezes_S1x32x10x66x128_S32x10x66x128 = srcB (bat t.val) (Ring.bk 8 (t.val % 8)) :=
  congrArg (fun M : Memref sig .tc .hbm S1x32x10x66x128 .f32 => M.squeeze S32x10x66x128 squeezes_S1x32x10x66x128_S32x10x66x128) (Memref.slice_unit_congr _ (coff_first_src t h0) _ _ (fun _ => rfl) (fun _ => rfl))

set_option synthInstance.maxSize 4096 in
theorem coff_wait_cell : ∀ t : Fin grid0.N, k0_off2 (grid0.coords t) = ![(Ring.sl 2 (t.val % 8)).val] := by decide +kernel
@[sl_canon] theorem canon_wait_cell (t : Fin grid0.N) :
    (cc0_scratch1.slice (Rect.unit (s := S2) (k0_off2 (grid0.coords t)) S1.size (k0_off2_inb (grid0.coords t)))).squeeze S_ squeezes_S1_S_ = cellA (Ring.sl 2 (t.val % 8)) :=
  congrArg (fun A : DmaSems sig S1 => A.squeeze S_ squeezes_S1_S_) (SemArray.slice_unit_congr _ (coff_wait_cell t) _ _)
set_option synthInstance.maxSize 4096 in
theorem coff_wait_dst : ∀ t : Fin grid0.N, k0_off3 (grid0.coords t) = ![(Ring.sl 2 (t.val % 8)).val, 0, 0, 0, 0] := by decide +kernel
@[sl_canon] theorem canon_wait_dst (t : Fin grid0.N) :
    (scM.slice (Rect.unit (s := S2x32x10x66x128) (k0_off3 (grid0.coords t)) S1x32x10x66x128.size (k0_off3_inb (grid0.coords t))) (fun _ => rfl)).squeeze S32x10x66x128 squeezes_S1x32x10x66x128_S32x10x66x128 = rslot (Ring.sl 2 (t.val % 8)) :=
  congrArg (fun M : Memref sig .tc .vmem S1x32x10x66x128 .f32 => M.squeeze S32x10x66x128 squeezes_S1x32x10x66x128_S32x10x66x128) (Memref.slice_unit_congr _ (coff_wait_dst t) _ _ (fun _ => rfl) (fun _ => rfl))
set_option synthInstance.maxSize 4096 in
theorem coff_wait_src : ∀ t : Fin grid0.N, k0_off4 (grid0.coords t) = ![(bat t.val).val, 0, 8 * (Ring.bk 8 (t.val % 8)).val, 0, 0] := by decide +kernel
@[sl_canon] theorem canon_wait_src (t : Fin grid0.N) :
    (hbM.slice (Rect.unit (s := S2x32x66x66x128) (k0_off4 (grid0.coords t)) S1x32x10x66x128.size (k0_off4_inb (grid0.coords t))) (fun _ => rfl)).squeeze S32x10x66x128 squeezes_S1x32x10x66x128_S32x10x66x128 = srcB (bat t.val) (Ring.bk 8 (t.val % 8)) :=
  congrArg (fun M : Memref sig .tc .hbm S1x32x10x66x128 .f32 => M.squeeze S32x10x66x128 squeezes_S1x32x10x66x128_S32x10x66x128) (Memref.slice_unit_congr _ (coff_wait_src t) _ _ (fun _ => rfl) (fun _ => rfl))

set_option synthInstance.maxSize 4096 in
theorem coff_next_cell : ∀ t : Fin grid0.N, condMore (grid0.coords t) → k0_off5 (grid0.coords t) = ![(Ring.sl 2 (t.val % 8 + 1)).val] := by decide +kernel
@[sl_canon] theorem canon_next_cell (t : Fin grid0.N) (h1 : condMore (grid0.coords t)) :
    (cc0_scratch1.slice (Rect.unit (s := S2) (k0_off5 (grid0.coords t)) S1.size (k0_off5_inb (grid0.coords t) h1))).squeeze S_ squeezes_S1_S_ = cellA (Ring.sl 2 (t.val % 8 + 1)) :=
  congrArg (fun A : DmaSems sig S1 => A.squeeze S_ squeezes_S1_S_) (SemArray.slice_unit_congr _ (coff_next_cell t h1) _ _)
set_option synthInstance.maxSize 4096 in
theorem coff_next_dst : ∀ t : Fin grid0.N, condMore (grid0.coords t) → k0_off6 (grid0.coords t) = ![(Ring.sl 2 (t.val % 8 + 1)).val, 0, 0, 0, 0] := by decide +kernel
@[sl_canon] theorem canon_next_dst (t : Fin grid0.N) (h1 : condMore (grid0.coords t)) :
    (scM.slice (Rect.unit (s := S2x32x10x66x128) (k0_off6 (grid0.coords t)) S1x32x10x66x128.size (k0_off6_inb (grid0.coords t) h1)) (fun _ => rfl)).squeeze S32x10x66x128 squeezes_S1x32x10x66x128_S32x10x66x128 = rslot (Ring.sl 2 (t.val % 8 + 1)) :=
  congrArg (fun M : Memref sig .tc .vmem S1x32x10x66x128 .f32 => M.squeeze S32x10x66x128 squeezes_S1x32x10x66x128_S32x10x66x128) (Memref.slice_unit_congr _ (coff_next_dst t h1) _ _ (fun _ => rfl) (fun _ => rfl))
set_option synthInstance.maxSize 4096 in
theorem coff_next_src : ∀ t : Fin grid0.N, condMore (grid0.coords t) → k0_off7 (grid0.coords t) = ![(bat t.val).val, 0, 8 * (Ring.bk 8 (t.val % 8 + 1)).val, 0, 0] := by decide +kernel
@[sl_canon] theorem canon_next_src (t : Fin grid0.N) (h1 : condMore (grid0.coords t)) :
    (hbM.slice (Rect.unit (s := S2x32x66x66x128) (k0_off7 (grid0.coords t)) S1x32x10x66x128.size (k0_off7_inb (grid0.coords t) h1)) (fun _ => rfl)).squeeze S32x10x66x128 squeezes_S1x32x10x66x128_S32x10x66x128 = srcB (bat t.val) (Ring.bk 8 (t.val % 8 + 1)) :=
  congrArg (fun M : Memref sig .tc .hbm S1x32x10x66x128 .f32 => M.squeeze S32x10x66x128 squeezes_S1x32x10x66x128_S32x10x66x128) (Memref.slice_unit_congr _ (coff_next_src t h1) _ _ (fun _ => rfl) (fun _ => rfl))

set_option synthInstance.maxSize 4096 in
theorem coff_load : ∀ t : Fin grid0.N, k0_off8 (grid0.coords t) = ![(Ring.sl 2 (t.val % 8)).val, 0, 0, 0, 0] := by decide +kernel

/-- A load through the scratch's own memref at a box of one slot's extent whose leading offset is the slot's number reads
    elements of that slot. -/
theorem load_subset_at (s : Fin 2) (off : Fin 5 → ℕ) (p : ∀ a, off a + S1x32x10x66x128.size a ≤ S2x32x10x66x128.size a)
    (h : off = ![s.val, 0, 0, 0, 0]) :
    ((scM.access (Rect.unit (s := S2x32x10x66x128) off S1x32x10x66x128.size p)) : View sig .tc .vmem _ _).set ⊆ (rslot s).view.set := by
  subst h
  rw [slotSet_eq]
  show ((View.whole cc0_scratch0).slice _).set ⊆ _
  rw [View.set_slice_whole]

end Canon
/-- After a batch's last step both slots keep a landed block; forgetting what they keep, nothing is in flight. -/
theorem allFree_of_kept (c : Dev nD) (W : HbBuf (F := F) c hbM) (β : Fin 2) (k : ℕ) (hk : k + 1 = 8) :
    (iprop(Ring.kept (cellP c) (slotW c W) (landed c W β) (Ring.sl 2 (k + 1)) (Ring.bk 8 (k - 1)) ∗ Ring.kept (cellP c) (slotW c W) (landed c W β) (Ring.sl 2 k) (Ring.bk 8 k)) : sProp 𝕄)
      ⊢ allFree c W := by
  obtain rfl : k = 7 := by omega
  unfold allFree Ring.At₀
  rw [Ring.bigSep_fin2]
  iintro ⟨H0, H1⟩
  iapply Ring.with_homes₀
  isplitl [H0]
  · iapply (Ring.free_of_kept (cellP c) (slotW c W) (landed c W β) _ _); iexact H0
  · iapply (Ring.free_of_kept (cellP c) (slotW c W) (landed c W β) _ _); iexact H1

end Cert.Kernel.DB

end
-- ==== Proof.BitsRunA.lean ====
/-
  The body at the first depth tile of a batch.  Both slots are free.  The body starts the tile's own copy into slot 0,
  waits for it, starts the next tile's copy into slot 1, reads slot 0 and the tile's weight block, and writes the output
  block twenty-seven times over (zeros, then one neighbour's contribution added at a time).  Afterwards the next
  tile's copy is in flight and slot 0 keeps this tile's rows.  What the output block holds is the list of stores the
  symbolic run finds.
-/
import proofs.«416960_j11115375362872_4_alg».proof.Proof.BitsKit

set_option maxRecDepth 16384

noncomputable section

namespace Cert.Kernel.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRunA (c : Dev nD) (t : Fin cfg0.N) (arg3 : Memref sig .tc .vmem S1x26x8x4096 .f32) (harg3 : arg3.IsWhole) (arg4 : Memref sig .tc .vmem S1x32x8x4096 .f32) (harg4 : arg4.IsWhole) (hc0 : condFirst (grid0.coords t)) (hc1 : condMore (grid0.coords t))
    (x0 : Vec F S1x26x8x4096 .f32) (fh : HbBuf (F := F) c hbM) :
    { L : List (View.Piece (Elt F) S1x32x8x4096 .f32) //
      ∀ (W : Waits sig Unit) (K : PUnit → sProp 𝕄),
        iprop(owns (c : Thread nD τ) arg3 fullShare x0 ∗ (∃ d, owns (c : Thread nD τ) arg4 fullShare d) ∗ Ring.free (cellP c) (slotW c fh) (Ring.sl 2 (t.val % 8)) ∗ Ring.free (cellP c) (slotW c fh) (Ring.sl 2 (t.val % 8 + 1)) ∗ owes (c : Thread nD τ) 0 W
            ∗ (iprop(owns (c : Thread nD τ) arg3 fullShare x0 ∗ (∃ f, arg4.view.loc (c : Thread nD τ) ↦[arg4.view.set]{fullShare} arg4.view.writes (Elt F) f L) ∗ Ring.inflight (flightW c fh (bat t.val)) (Ring.sl 2 (t.val % 8 + 1)) (Ring.bk 8 (t.val % 8 + 1)) ∗ Ring.kept (cellP c) (slotW c fh) (landed c fh (bat t.val)) (Ring.sl 2 (t.val % 8)) (Ring.bk 8 (t.val % 8)) ∗ (∃ W', owes (c : Thread nD τ) 0 W')) -∗ K ⟨⟩))
          ⊢ wp frame (wpE (defs₀ (F := F)) Variants.none c none) Set.univ (cc0__stencil_kernel (grid0.coords t) hbM (Memref.isWhole_whole _) arg3 harg3 arg4 harg4 scM (Memref.isWhole_whole _) cc0_scratch1) K } := by
  refine ⟨?_, fun W K => ?run⟩
  case run =>
    haveI : Fact (condFirst (grid0.coords t)) := ⟨hc0⟩
    haveI : Fact (condMore (grid0.coords t)) := ⟨hc1⟩
    simp only [cc0__stencil_kernel_eq_skeleton]; unfold cc0__stencil_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hcanon0 := canon_first_dst t hc0
    have hcanon1 := canon_first_cell t hc0
    have hcanon2 := canon_first_src t hc0
    have hS := load_subset_at (Ring.sl 2 (t.val % 8)) (k0_off8 (grid0.coords t)) (k0_off8_inb (grid0.coords t)) (coff_load t)
    unfold owns Ring.free Ring.inflight Ring.kept
    iintro ⟨⟨%f0, %hf0, H0⟩, ⟨%d1, %f1, -, H1⟩, ⟨Hc_0, ⟨%fs_0, Hs_0, Hw_0⟩⟩, ⟨Hc_1, ⟨%fs_1, Hs_1, Hw_1⟩⟩, HW, Hk⟩
    ihave Hsp_0 := (src_split c fh (bat t.val) (Ring.sl 2 (t.val % 8)) (Ring.bk 8 (t.val % 8))).1 $$ Hw_0
    icases Hsp_0 with ⟨Hh_0, Hr_0⟩
    ihave Hsp_1 := (src_split c fh (bat t.val) (Ring.sl 2 (t.val % 8 + 1)) (Ring.bk 8 (t.val % 8 + 1))).1 $$ Hw_1
    icases Hsp_1 with ⟨Hh_1, Hr_1⟩
    obtain rfl := harg3.eq_unread hf0
    sl_exec (disch := first | exact hc0 | exact hc1)
    sl_step
    iapply Hk
    isplitl [H0]
    · iexists _; isplitr; · ipureintro; exact harg3.read_unread _
      iexact H0
    isplitl [H1]; · iexists _; iexact H1
    isplitl [Hc_1 Hr_1]
    · iexists _; isplitl [Hc_1]; · iexact Hc_1
      iexact Hr_1
    isplitl [Hc_0 Hs_0 Hh_0 Hr_0]
    · isplitl [Hc_0]; · iexact Hc_0
      iexists _; isplitl [Hs_0]; · iexact Hs_0
      iapply (src_split c fh (bat t.val) (Ring.sl 2 (t.val % 8)) (Ring.bk 8 (t.val % 8))).2; isplitl [Hh_0]; · iexact Hh_0
      iexact Hr_0
    iexists _; iexact HW

end Cert.Kernel.DB

end
-- ==== Proof.BitsRunB.lean ====
/-
  The body at a middle depth tile of a batch.  The tile's copy is in flight into its slot and the other slot keeps the
  tile before.  The body waits for its copy, starts the next tile's copy over the kept rows, reads its slot and the
  tile's weight block, and writes the output block twenty-seven times over.  Afterwards the next tile's copy is in
  flight and the tile's slot keeps its rows.
-/
import proofs.«416960_j11115375362872_4_alg».proof.Proof.BitsRunA

set_option maxRecDepth 16384

noncomputable section

namespace Cert.Kernel.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRunB (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : condMore (grid0.coords t))
    (x0 : Vec F S1x26x8x4096 .f32) (fh : HbBuf (F := F) c hbM) :
    { L : List (View.Piece (Elt F) S1x32x8x4096 .f32) //
      ∀ (W : Waits sig Unit) (K : PUnit → sProp 𝕄),
        iprop(owns (c : Thread nD τ) arg3 fullShare x0 ∗ (∃ d, owns (c : Thread nD τ) arg4 fullShare d) ∗ Ring.inflight (flightW c fh (bat t.val)) (Ring.sl 2 (t.val % 8)) (Ring.bk 8 (t.val % 8)) ∗ Ring.kept (cellP c) (slotW c fh) (landed c fh (bat t.val)) (Ring.sl 2 (t.val % 8 + 1)) (Ring.bk 8 (t.val % 8 - 1)) ∗ owes (c : Thread nD τ) 0 W
            ∗ (iprop(owns (c : Thread nD τ) arg3 fullShare x0 ∗ (∃ f, arg4.view.loc (c : Thread nD τ) ↦[arg4.view.set]{fullShare} arg4.view.writes (Elt F) f L) ∗ Ring.inflight (flightW c fh (bat t.val)) (Ring.sl 2 (t.val % 8 + 1)) (Ring.bk 8 (t.val % 8 + 1)) ∗ Ring.kept (cellP c) (slotW c fh) (landed c fh (bat t.val)) (Ring.sl 2 (t.val % 8)) (Ring.bk 8 (t.val % 8)) ∗ (∃ W', owes (c : Thread nD τ) 0 W')) -∗ K ⟨⟩))
          ⊢ wp frame (wpE (defs₀ (F := F)) Variants.none c none) Set.univ (cc0__stencil_kernel (grid0.coords t) hbM (Memref.isWhole_whole _) arg3 harg3 arg4 harg4 scM (Memref.isWhole_whole _) cc0_scratch1) K } := by
  refine ⟨?_, fun W K => ?run⟩
  case run =>
    haveI : Fact (¬condFirst (grid0.coords t)) := ⟨hc0⟩
    haveI : Fact (condMore (grid0.coords t)) := ⟨hc1⟩
    simp only [cc0__stencil_kernel_eq_skeleton]; unfold cc0__stencil_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hS := load_subset_at (Ring.sl 2 (t.val % 8)) (k0_off8 (grid0.coords t)) (k0_off8_inb (grid0.coords t)) (coff_load t)
    unfold owns Ring.inflight Ring.kept
    iintro ⟨⟨%f0, %hf0, H0⟩, ⟨%d1, %f1, -, H1⟩, ⟨%ff, Hf, Hrf⟩, ⟨Hc_1, ⟨%fs_1, Hs_1, Hw_1⟩⟩, HW, Hk⟩
    ihave Hsp_1 := (src_split c fh (bat t.val) (Ring.sl 2 (t.val % 8 + 1)) (Ring.bk 8 (t.val % 8 + 1))).1 $$ Hw_1
    icases Hsp_1 with ⟨Hh_1, Hr_1⟩
    obtain rfl := harg3.eq_unread hf0
    sl_exec (disch := first | exact hc0 | exact hc1)
    sl_step
    iapply Hk
    isplitl [H0]
    · iexists _; isplitr; · ipureintro; exact harg3.read_unread _
      iexact H0
    isplitl [H1]; · iexists _; iexact H1
    isplitl [Hc_1 Hr_1]
    · iexists _; isplitl [Hc_1]; · iexact Hc_1
      iexact Hr_1
    isplitl [Hf Hf_dst Hf_src Hrf]
    · isplitl [Hf]; · iexact Hf
      iexists _; isplitl [Hf_dst]; · iexact Hf_dst
      iapply (src_split c fh (bat t.val) (Ring.sl 2 (t.val % 8)) (Ring.bk 8 (t.val % 8))).2; isplitl [Hf_src]; · iexact Hf_src
      iexact Hrf
    iexists _; iexact HW

end Cert.Kernel.DB

end
-- ==== Proof.BitsRunC.lean ====
/-
  The body at the last depth tile of a batch.  The tile's copy is in flight into its slot; nothing is left to start.
  The body waits for its copy, reads its slot and the tile's weight block, and writes the output block twenty-seven times
  over.  Afterwards nothing is in flight and the tile's slot keeps its rows.
-/
import proofs.«416960_j11115375362872_4_alg».proof.Proof.BitsRunB

set_option maxRecDepth 16384

noncomputable section

namespace Cert.Kernel.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRunC (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : ¬condMore (grid0.coords t))
    (x0 : Vec F S1x26x8x4096 .f32) (fh : HbBuf (F := F) c hbM) :
    { L : List (View.Piece (Elt F) S1x32x8x4096 .f32) //
      ∀ (W : Waits sig Unit) (K : PUnit → sProp 𝕄),
        iprop(owns (c : Thread nD τ) arg3 fullShare x0 ∗ (∃ d, owns (c : Thread nD τ) arg4 fullShare d) ∗ Ring.inflight (flightW c fh (bat t.val)) (Ring.sl 2 (t.val % 8)) (Ring.bk 8 (t.val % 8)) ∗ owes (c : Thread nD τ) 0 W
            ∗ (iprop(owns (c : Thread nD τ) arg3 fullShare x0 ∗ (∃ f, arg4.view.loc (c : Thread nD τ) ↦[arg4.view.set]{fullShare} arg4.view.writes (Elt F) f L) ∗ Ring.kept (cellP c) (slotW c fh) (landed c fh (bat t.val)) (Ring.sl 2 (t.val % 8)) (Ring.bk 8 (t.val % 8)) ∗ (∃ W', owes (c : Thread nD τ) 0 W')) -∗ K ⟨⟩))
          ⊢ wp frame (wpE (defs₀ (F := F)) Variants.none c none) Set.univ (cc0__stencil_kernel (grid0.coords t) hbM (Memref.isWhole_whole _) arg3 harg3 arg4 harg4 scM (Memref.isWhole_whole _) cc0_scratch1) K } := by
  refine ⟨?_, fun W K => ?run⟩
  case run =>
    haveI : Fact (¬condFirst (grid0.coords t)) := ⟨hc0⟩
    haveI : Fact (¬condMore (grid0.coords t)) := ⟨hc1⟩
    simp only [cc0__stencil_kernel_eq_skeleton]; unfold cc0__stencil_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hS := load_subset_at (Ring.sl 2 (t.val % 8)) (k0_off8 (grid0.coords t)) (k0_off8_inb (grid0.coords t)) (coff_load t)
    unfold owns Ring.inflight Ring.kept
    iintro ⟨⟨%f0, %hf0, H0⟩, ⟨%d1, %f1, -, H1⟩, ⟨%ff, Hf, Hrf⟩, HW, Hk⟩
    obtain rfl := harg3.eq_unread hf0
    sl_exec (disch := first | exact hc0 | exact hc1)
    sl_step
    iapply Hk
    isplitl [H0]
    · iexists _; isplitr; · ipureintro; exact harg3.read_unread _
      iexact H0
    isplitl [H1]; · iexists _; iexact H1
    isplitl [Hf Hf_dst Hf_src Hrf]
    · isplitl [Hf]; · iexact Hf
      iexists _; isplitl [Hf_dst]; · iexact Hf_dst
      iapply (src_split c fh (bat t.val) (Ring.sl 2 (t.val % 8)) (Ring.bk 8 (t.val % 8))).2; isplitl [Hf_src]; · iexact Hf_src
      iexact Hrf
    iexists _; iexact HW

end Cert.Kernel.DB

end
-- ==== Proof.BitsFrame.lean ====
/-
  The kernel's frame: every weakly fair execution of the program runs to the end without a fault and leaves both
  arguments as they were.

  The three runs of the body (first, middle and last depth tile of a batch) are put under the pipeline: what the output
  block holds after a point is the stores the point's run found, read back; the region invariant before point p is the ring
  of p's batch before step p mod 8; each point's run takes the ring pieces its step needs and hands back the next
  step's; before the first point and after the last nothing is in flight, which is what the launch gives and takes.
-/
import proofs.«416960_j11115375362872_4_alg».proof.Proof.BitsRunC

set_option maxRecDepth 16384

noncomputable section

namespace Cert.Kernel.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each kind of point leaves in the output block -/

theorem coverA (c : Dev nD) (t : Fin cfg0.N) (arg3 : Memref sig .tc .vmem S1x26x8x4096 .f32) (harg3 : arg3.IsWhole) (arg4 : Memref sig .tc .vmem S1x32x8x4096 .f32) (harg4 : arg4.IsWhole) (hc0 : condFirst (grid0.coords t)) (hc1 : condMore (grid0.coords t))
    (x0 : Vec F S1x26x8x4096 .f32) (fh : HbBuf (F := F) c hbM) (y : S1x32x8x4096.Idx) :
    ∃ pc ∈ (kernelRunA c t arg3 harg3 arg4 harg4 hc0 hc1 x0 fh).1, y ∈ pc.1.set :=
  View.cover_of_tiledL (kernelRunA c t arg3 harg3 arg4 harg4 hc0 hc1 x0 fh).1 S1x32x8x4096.size (by sl_kernel_rfl) y
def outA (c : Dev nD) (t : Fin cfg0.N) (arg3 : Memref sig .tc .vmem S1x26x8x4096 .f32) (harg3 : arg3.IsWhole) (arg4 : Memref sig .tc .vmem S1x32x8x4096 .f32) (harg4 : arg4.IsWhole) (hc0 : condFirst (grid0.coords t)) (hc1 : condMore (grid0.coords t))
    (x0 : Vec F S1x26x8x4096 .f32) (fh : HbBuf (F := F) c hbM) : Vec F S1x32x8x4096 .f32 :=
  VO.read (Elt F) (VO.writes (Elt F) VO.junk (kernelRunA c t arg3 harg3 arg4 harg4 hc0 hc1 x0 fh).1)

theorem coverB (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : condMore (grid0.coords t))
    (x0 : Vec F S1x26x8x4096 .f32) (fh : HbBuf (F := F) c hbM) (y : S1x32x8x4096.Idx) :
    ∃ pc ∈ (kernelRunB c t arg3 harg3 arg4 harg4 hc0 hc1 x0 fh).1, y ∈ pc.1.set :=
  View.cover_of_tiledL (kernelRunB c t arg3 harg3 arg4 harg4 hc0 hc1 x0 fh).1 S1x32x8x4096.size (by sl_kernel_rfl) y
def outB (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : condMore (grid0.coords t))
    (x0 : Vec F S1x26x8x4096 .f32) (fh : HbBuf (F := F) c hbM) : Vec F S1x32x8x4096 .f32 :=
  VO.read (Elt F) (VO.writes (Elt F) VO.junk (kernelRunB c t arg3 harg3 arg4 harg4 hc0 hc1 x0 fh).1)

theorem coverC (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : ¬condMore (grid0.coords t))
    (x0 : Vec F S1x26x8x4096 .f32) (fh : HbBuf (F := F) c hbM) (y : S1x32x8x4096.Idx) :
    ∃ pc ∈ (kernelRunC c t arg3 harg3 arg4 harg4 hc0 hc1 x0 fh).1, y ∈ pc.1.set :=
  View.cover_of_tiledL (kernelRunC c t arg3 harg3 arg4 harg4 hc0 hc1 x0 fh).1 S1x32x8x4096.size (by sl_kernel_rfl) y
def outC (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : ¬condMore (grid0.coords t))
    (x0 : Vec F S1x26x8x4096 .f32) (fh : HbBuf (F := F) c hbM) : Vec F S1x32x8x4096 .f32 :=
  VO.read (Elt F) (VO.writes (Elt F) VO.junk (kernelRunC c t arg3 harg3 arg4 harg4 hc0 hc1 x0 fh).1)

/-- What the output block holds after the body at point `t`: the kind of the point is read off its depth tile, and no kind
    uses what an earlier point left there. -/
def outsAt (c : Dev nD) (t : Fin cfg0.N) : Vec F S1x32x8x4096 .f32 :=
  if h0 : t.val % 8 = 0 then
    outA c t (msA t) (hsA t) (msO t) (hsO t) ((hcondFirst t).mpr h0) ((hcondMore t).mpr (by omega)) (iblk m c 0 t) (V m c main_v0)
  else if h1 : t.val % 8 < 7 then
    outB c t (msA t) (hsA t) (msO t) (hsO t) (fun h => h0 ((hcondFirst t).mp h)) ((hcondMore t).mpr h1) (iblk m c 0 t) (V m c main_v0)
  else
    outC c t (msA t) (hsA t) (msO t) (hsO t) (fun h => h0 ((hcondFirst t).mp h)) (fun h => h1 ((hcondMore t).mp h)) (iblk m c 0 t) (V m c main_v0)

theorem outsAt_A (c : Dev nD) (t : Fin cfg0.N) (h0 : t.val % 8 = 0) :
    outsAt m c t = outA c t (msA t) (hsA t) (msO t) (hsO t) ((hcondFirst t).mpr h0) ((hcondMore t).mpr (by omega)) (iblk m c 0 t) (V m c main_v0) := by
  unfold outsAt; rw [dif_pos h0]
theorem outsAt_B (c : Dev nD) (t : Fin cfg0.N) (h0 : ¬t.val % 8 = 0) (h1 : t.val % 8 < 7) :
    outsAt m c t = outB c t (msA t) (hsA t) (msO t) (hsO t) (fun h => h0 ((hcondFirst t).mp h)) ((hcondMore t).mpr h1) (iblk m c 0 t) (V m c main_v0) := by
  unfold outsAt; rw [dif_neg h0, dif_pos h1]
theorem outsAt_C (c : Dev nD) (t : Fin cfg0.N) (h0 : ¬t.val % 8 = 0) (h1 : ¬t.val % 8 < 7) :
    outsAt m c t = outC c t (msA t) (hsA t) (msO t) (hsO t) (fun h => h0 ((hcondFirst t).mp h)) (fun h => h1 ((hcondMore t).mp h)) (iblk m c 0 t) (V m c main_v0) := by
  unfold outsAt; rw [dif_neg h0, dif_neg h1]

/-! ## The pipeline's proof data -/

/-- The arrays as the region finds them; after the body the weight window's buffer at its block and the output's at
    `outsAt`; the ring invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt m c t)
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = (outsAt m c t) := by dsimp only [dats]
theorem before0_0 (c : Dev nD) (t : Fin cfg0.N) (d) : (dats m 0 c).before 0 t d = iblk m c 0 t :=
  before0_0_ofD m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msO t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (msA t) fullShare ((dats m 0 c).after 0 t)
    ∗ owns (c : Thread nD τ) (msO t) fullShare ((dats m 0 c).after 1 t))

set_option maxHeartbeats 1600000 in
/-- The body at any point: the point's depth tile says which run applies; the ring invariant is rewritten to the pieces
    the step takes and reassembled from what the run hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1]
  rw [PhiR_castSucc m c t, PhiR_succ m c t]
  unfold Dat.owesAt Pipeline.owesWithin
  rw [show (dats m 0 c).owed t.castSucc = 0 from rfl, show (dats m 0 c).owed t.succ = 0 from rfl]
  unfold PhiR
  have hN : t.val < 16 := lt_of_lt_of_eq t.isLt (show cfg0.N = 16 from N_0)
  by_cases h0 : t.val % 8 = 0
  · have h1 : t.val % 8 < 7 := by omega
    rw [outsAt_A m c t h0]
    unfold outA
    have e1 : (t.val + 1) % 8 = t.val % 8 + 1 := by omega
    have eb : bat (t.val + 1) = bat t.val := by unfold bat; congr 1; omega
    rw [e1, eb]
    unfold ringAt
    rw [if_pos h0, if_neg (show ¬t.val % 8 + 1 = 0 by omega)]
    rw [Ring.At₀_eq2' _ _ _ (t.val % 8) h0 (by decide : 2 ≤ 8), Ring.AtK2_one' _ _ _ _ _ (t.val % 8) h0 (by decide : 1 < 8)]
    iintro ⟨⟨Hg, ⟨-, Hfr0, Hfr1⟩⟩, ⟨%W, -, HW⟩, ⟨%d0, H0⟩, ⟨%d1, H1⟩⟩
    iapply ((kernelRunA c t _ _ _ _ ((hcondFirst t).mpr h0) ((hcondMore t).mpr h1) (iblk m c 0 t) (V m c main_v0)).2 W _)
    isplitl [H0]; · iexact H0
    isplitl [H1]; · iexists _; iexact H1
    isplitl [Hfr0]; · iexact Hfr0
    isplitl [Hfr1]; · iexact Hfr1
    isplitl [HW]; · iexact HW
    iintro ⟨H0, ⟨%e1, H1⟩, Hfl', Hkp', ⟨%W', HW'⟩⟩
    isplitl [Hg Hfl' Hkp']
    · isplitl [Hg]; · iexact Hg
      iapply Ring.with_homes₀
      isplitl [Hfl']; · iexact Hfl'
      iexact Hkp'
    isplitl [HW']
    · iexists W'; isplitr; · ipureintro; exact fun _ _ => Or.inl trivial
      iexact HW'
    isplitl [H0]; · iexact H0
    unfold owns; iexists _; isplitr
    swap; · iexact H1
    ipureintro; exact View.read_writes_of_cover _ _ _ _ _ (coverA c _ _ _ _ _ _ _ _ _)
  · by_cases h1 : t.val % 8 < 7
    · rw [outsAt_B m c t h0 h1]
      unfold outB
      have e1 : (t.val + 1) % 8 = t.val % 8 + 1 := by omega
      have eb : bat (t.val + 1) = bat t.val := by unfold bat; congr 1; omega
      rw [e1, eb]
      unfold ringAt
      rw [if_neg h0, if_neg (show ¬t.val % 8 + 1 = 0 by omega)]
      rw [Ring.AtK2_here _ _ _ _ _ (t.val % 8) (by omega) (by omega), Ring.AtK2_next _ _ _ _ _ (t.val % 8) (by omega) (by omega)]
      iintro ⟨⟨Hg, ⟨-, Hfl, Hkp⟩⟩, ⟨%W, -, HW⟩, ⟨%d0, H0⟩, ⟨%d1, H1⟩⟩
      iapply ((kernelRunB c t _ _ _ _ (fun h => h0 ((hcondFirst t).mp h)) ((hcondMore t).mpr h1) (iblk m c 0 t) (V m c main_v0)).2 W _)
      isplitl [H0]; · iexact H0
      isplitl [H1]; · iexists _; iexact H1
      isplitl [Hfl]; · iexact Hfl
      isplitl [Hkp]; · iexact Hkp
      isplitl [HW]; · iexact HW
      iintro ⟨H0, ⟨%e1, H1⟩, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverB c _ _ _ _ _ _ _ _ _)
    · rw [outsAt_C m c t h0 h1]
      unfold outC
      have e1 : (t.val + 1) % 8 = 0 := by omega
      rw [e1, ringAt_zero]
      unfold ringAt
      rw [if_neg h0]
      rw [Ring.AtK2_here_last _ _ _ _ _ (t.val % 8) (by omega) (by omega)]
      iintro ⟨⟨Hg, ⟨-, Hfl, Hkp⟩⟩, ⟨%W, -, HW⟩, ⟨%d0, H0⟩, ⟨%d1, H1⟩⟩
      iapply ((kernelRunC c t _ _ _ _ (fun h => h0 ((hcondFirst t).mp h)) (fun h => h1 ((hcondMore t).mp h)) (iblk m c 0 t) (V m c main_v0)).2 W _)
      isplitl [H0]; · iexact H0
      isplitl [H1]; · iexists _; iexact H1
      isplitl [Hfl]; · iexact Hfl
      isplitl [HW]; · iexact HW
      iintro ⟨H0, ⟨%e1, H1⟩, Hkp', ⟨%W', HW'⟩⟩
      isplitl [Hg Hkp Hkp']
      · isplitl [Hg]; · iexact Hg
        iapply (allFree_of_kept c (V m c main_v0) (bat t.val) (t.val % 8) (by omega))
        isplitl [Hkp]; · iexact Hkp
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverC c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Into and out of the ring -/

theorem hin (c : Dev nD) : Pipeline.ΦD osem spec0 H0 (V m) c ⊢ (dats m 0 c).Φ 0 := by
  rw [PhiD_eq, show (dats m 0 c).Φ 0 = PhiR m c 0 from rfl]
  unfold PhiR
  rw [show (0 : ℕ) % 8 = 0 from rfl, ringAt_zero]
  iintro ⟨HR, Hg, ⟨Hq0, Hq1⟩, Hh⟩
  isplitl [Hg]; · iexact Hg
  iapply (ring_in (F := F) c (V m c main_v0))
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 H0 (V m) c := by
  rw [PhiD_eq, show (dats m 0 c).Φ (Fin.last cfg0.N) = PhiR m c grid0.N from rfl]
  unfold PhiR
  rw [show grid0.N = 16 by rw [N_0], show (16 : ℕ) % 8 = 0 from rfl, ringAt_zero]
  iintro ⟨Hg, HR⟩
  ihave HX := (ring_out (F := F) c (V m c main_v0)) $$ HR
  icases HX with ⟨HR, ⟨Hq0, Hq1⟩, Hh⟩
  isplitl [HR]
  · iexact HR
  isplitl [Hg]
  · iexact Hg
  isplitl [Hq0 Hq1]
  · isplitl [Hq0]; · iexact Hq0
    iexact Hq1
  iexact Hh

/-! ## The run and the frame -/

set_option backward.isDefEq.respectTransparency.types false in
/-- Every weakly fair execution of the program terminates, and every final state has each array of the pipeline at what the
    library computes from the proof data and every other buffer the region does not move as the host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m) (hin := hin m) (hout := hout m)

/-- The frame: the program runs to the end, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (run_main m ρ)

end Cert.Kernel.DB

end
-- ==== Proof.IdealKit.lean ====
/-
  The double-buffered stencil kernel's frame, first part: what every grid point's run is stated over.

  The kernel leaves the padded feature array in slow memory and streams it through a scratch buffer of two slots by
  copies of its own: at depth tile i of batch β it waits for the copy of depth rows [8 i, 8 i + 10) of batch β into
  slot i mod 2, and, unless i is the last tile, starts the copy of rows [8 (i + 1), 8 (i + 1) + 10) into the other
  slot; the first tile of a batch also starts its own copy.  So within a batch the eight copies form a ring of two slots
  running one block ahead, and between batches nothing is in flight.  The windows of consecutive tiles overlap by two
  rows, so a copy borrows its source rows from a read share of the whole array (one half share per slot) rather than
  from a partition into blocks.

  This module restates the launch facts at the resource algebra that carries the transfers' counters, decides the two
  branch conditions over the sixteen grid points, names the slots, source windows and semaphore cells as the body spells
  them, and states the ring before each step with its entry and exit.
-/
import proofs.«416960_j11115375362872_4_alg».proof.Proof.Gen.KernelIdeal.Frame
import proofs.«416960_j11115375362872_4_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its one region, with the transfers' counters in the algebra -/

/-- The program is the host lines before the region, the region, and the one host line after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The array the kernel copies from by itself: the padded feature array after the host's widening of its last axis. -/
def H0 : Finset (Ref sig .tc) := {main_v0}
theorem H0_sub : H0 ⊆ Pipeline.restRefs sig spec0 := by decide

/-- The line after the region (a reshape of the result) touches neither a prefetched table (there is none) nor that array. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  rcases hop with rfl
  intro b hb
  simp only [H0, Finset.mem_singleton] at hb
  subst hb
  simp only [StableHlo.reshape_bufs, Finset.mem_insert, Finset.mem_singleton, not_or]
  exact ⟨StableHlo.devRef_ne_of_ne (by decide), StableHlo.devRef_ne_of_ne (by decide)⟩

/-- No host line after the region writes an argument: each ends as launched. -/
theorem W_main_arg0D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The weight window's staging buffer holds its block at every point, for any proof data whose array is the region-entry
    contents and whose body leaves the block in place. -/
theorem before0_0_ofD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's post: both arguments are buffers no window stages and no host line
    writes. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by decide))).trans (W_main_arg0D m dats c)),
      (((h c).2 main_arg1 (Pipeline.mem_restRefs_of main_arg1 (by decide) (by decide))).trans (W_main_arg1D m dats c))⟩) h

/-! ## The body's two branches, decided over the grid -/

/-- "This is the first depth tile of its batch": the body then starts the tile's own copy. -/
abbrev condFirst (i : grid0.Coords) : Prop := k0_cond1 i = 1#1
theorem hcondFirst : ∀ t : Fin cfg0.N, condFirst (grid0.coords t) ↔ t.val % 8 = 0 :=
  (by decide +kernel : ∀ t : Fin grid0.N, condFirst (grid0.coords t) ↔ t.val % 8 = 0)

/-- "A depth tile follows in this batch": the body then starts the next tile's copy. -/
abbrev condMore (i : grid0.Coords) : Prop := k0_cond2 i = 1#1
theorem hcondMore : ∀ t : Fin cfg0.N, condMore (grid0.coords t) ↔ t.val % 8 < 7 :=
  (by decide +kernel : ∀ t : Fin grid0.N, condMore (grid0.coords t) ↔ t.val % 8 < 7)

/-! ## The memrefs the body is called with -/

/-- One staging buffer of the output window, through which its contents are stated. -/
abbrev VO : View sig .tc .vmem S1x32x8x4096 .f32 := (Memref.whole cc0_stg1_0 : Memref sig .tc .vmem S1x32x8x4096 .f32).view
/-- Each window's current staging memref at a point, as the pipeline passes it. -/
abbrev msA (t : Fin cfg0.N) : Memref sig .tc .vmem S1x26x8x4096 .f32 := win0_0.stage (cfg0.slots t 0)
abbrev hsA (t : Fin cfg0.N) : (msA t).IsWhole := hstage0_0 ((cfg0.slots t 0).cast nbuf0_0)
abbrev msO (t : Fin cfg0.N) : Memref sig .tc .vmem S1x32x8x4096 .f32 := win0_1.stage (cfg0.slots t 1)
abbrev hsO (t : Fin cfg0.N) : (msO t).IsWhole := hstage0_1 ((cfg0.slots t 1).cast nbuf0_1)
/-- The scratch of two slots, and the array left in slow memory, whole. -/
abbrev scM : Memref sig .tc .vmem S2x32x10x66x128 .f32 := Memref.whole cc0_scratch0
abbrev hbM : Memref sig .tc .hbm S2x32x66x66x128 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two semaphore cells. -/
abbrev osem : Fin 2 → SemLoc sig := fun j => (![SemLoc.dma 4, SemLoc.dma 5] : Fin 2 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0) := by
  rw [Pipeline.ownSems0_eq_of_list c osem [0, 1] (by decide) (by decide)]; rfl
theorem hbmPts_eq (c : Dev nD) :
    (bigSep H0 (fun b => ((c : Thread nD τ).loc b) ↦{fullShare} V m c b) : sProp 𝕄) = iprop(hbPt c hbM (V m c main_v0)) := by
  rw [BI.bigSep_eq_bigSepL_of_eq [main_v0] (by decide) (by decide)]; rfl

/-- What the launch hands the region and takes back: the scratch at some contents, the generator register, the two cells at
    zero, the padded array at its region-entry contents. -/
theorem PhiD_eq (c : Dev nD) :
    (Pipeline.ΦD osem spec0 H0 (V m) c : sProp 𝕄)
      = iprop(iprop((∃ d, owns (c : Thread nD τ) scM fullShare d)) ∗ (∃ r, prngReg c r) ∗ iprop(semVal ((c : Thread nD τ), SemLoc.dma 4) 0 ∗ semVal ((c : Thread nD τ), SemLoc.dma 5) 0) ∗ iprop(hbPt c hbM (V m c main_v0))) := by
  rw [Pipeline.ΦD_eq, scopedRest0_eq, ownSems0_eq, hbmPts_eq]; simp only [scM, owns_whole]; try rfl

/-! ## The ring of one batch: two slots, eight source windows, one copy ahead -/

theorem inb_slot (s : Fin 2) : ∀ a, (![s.val, 0, 0, 0, 0] : Fin 5 → Nat) a + S1x32x10x66x128.size a ≤ S2x32x10x66x128.size a := by
  have := s.isLt; intro a; fin_cases a <;> simp <;> omega
theorem inb_src (β : Fin 2) (b : Fin 8) : ∀ a, (![β.val, 0, 8 * b.val, 0, 0] : Fin 5 → Nat) a + S1x32x10x66x128.size a ≤ S2x32x66x66x128.size a := by
  have := β.isLt; have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch, spelt as the body's copies spell their destination. -/
def rslot (s : Fin 2) : Memref sig .tc .vmem S32x10x66x128 .f32 :=
  (scM.slice (Rect.unit (s := S2x32x10x66x128) ![s.val, 0, 0, 0, 0] S1x32x10x66x128.size (inb_slot s)) (fun _ => rfl)).squeeze S32x10x66x128 squeezes_S1x32x10x66x128_S32x10x66x128
/-- Depth rows [8 b, 8 b + 10) of batch `β` of the padded array, spelt as the copies spell their source. -/
def srcB (β : Fin 2) (b : Fin 8) : Memref sig .tc .hbm S32x10x66x128 .f32 :=
  (hbM.slice (Rect.unit (s := S2x32x66x66x128) ![β.val, 0, 8 * b.val, 0, 0] S1x32x10x66x128.size (inb_src β b)) (fun _ => rfl)).squeeze S32x10x66x128 squeezes_S1x32x10x66x128_S32x10x66x128
/-- Semaphore cell `s`, spelt as the body spells a cell; its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 4 := by decide
theorem cellR_1 : cellR 1 = SemLoc.dma 5 := by decide

section RingFamilies
variable (c : Dev nD) (W : HbBuf (F := F) c hbM) (β : Fin 2)
/-- The array is lent by share, one read share per slot: consecutive windows overlap, and each copy borrows its rows from
    its own slot's share of the whole array. -/
abbrev qs (s : Fin 2) : PosShare TreeShare := if s.val = 0 then fullShare.left else fullShare.right
/-- Slot `s` held at `f`; cell `s` at zero; window `b`'s rows of slot `s`'s share, the rest of that share, and the share whole;
    the slot once window `b` has landed in it; the copy of window `b` into slot `s` in flight. -/
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 8) : sProp 𝕄 := (srcB β b).view.loc (c : Thread nD τ) ↦[(srcB β b).view.set]{qs s} W
def restP (s : Fin 2) (b : Fin 8) : sProp 𝕄 := ((c : Thread nD τ).loc main_v0) ↦[Finset.univ \ (srcB β b).view.set]{qs s} W
abbrev wholeP (s : Fin 2) : sProp 𝕄 := ((c : Thread nD τ).loc main_v0) ↦[Finset.univ]{qs s} W
abbrev landed (s : Fin 2) (b : Fin 8) (f : HbBuf (F := F) c (rslot s)) : HbBuf (F := F) c (rslot s) :=
  (rslot s).view.writes (Elt F) f [⟨Rect.whole S32x10x66x128, ReadAs.same.apply ((srcB β b).view.read (Elt F) W)⟩]
abbrev flightP (s : Fin 2) (b : Fin 8) (f : HbBuf (F := F) c (rslot s)) : sProp 𝕄 :=
  Transfers.Flight countersEmb (c : Thread nD τ) (cellR s) default ((rslot s).view.amount (cellR s))
    iprop(slotP c s (landed c W β s b f) ∗ srcP c W β s b)
/-- A slot not in flight carries its share of the array whole; a flight, the rest of the share it borrowed from. No window is
    held apart. -/
abbrev slotW (s : Fin 2) (f : HbBuf (F := F) c (rslot s)) : sProp 𝕄 := iprop(slotP c s f ∗ wholeP c W s)
abbrev flightW (s : Fin 2) (b : Fin 8) (f : HbBuf (F := F) c (rslot s)) : sProp 𝕄 := iprop(flightP c W β s b f ∗ restP c W β s b)
abbrev noHome (b : Fin 8) : sProp 𝕄 := iprop(emp)
/-- The ring of batch `β` before its step `k`: every slot free before the first; from then on window `k` in flight into slot
    `k`, the other slot keeping window `k - 1`. -/
def ringAt (k : ℕ) : sProp 𝕄 :=
  if k = 0 then Ring.At₀ (cellP c) (slotW c W) noHome
  else Ring.AtK 1 (cellP c) (slotW c W) noHome (flightW c W β) (landed c W β) k
omit [FloatOps F] in
theorem cellP_0 : cellP (F := F) c 0 = semVal ((c : Thread nD τ), SemLoc.dma 4) 0 := congrArg (fun x => (semVal ((c : Thread nD τ), x) 0 : sProp 𝕄)) cellR_0
omit [FloatOps F] in
theorem cellP_1 : cellP (F := F) c 1 = semVal ((c : Thread nD τ), SemLoc.dma 5) 0 := congrArg (fun x => (semVal ((c : Thread nD τ), x) 0 : sProp 𝕄)) cellR_1
end RingFamilies

/-! ### The slots, disjoint and covering the scratch -/

abbrev slotSet (s : Fin 2) : Finset S2x32x10x66x128.Idx := (Rect.unit (s := S2x32x10x66x128) ![s.val, 0, 0, 0, 0] S1x32x10x66x128.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x32x10x66x128) (0 : Fin 5) 1 (fun s : Fin 2 => (![s.val, 0, 0, 0, 0] : Fin 5 → Nat)) S1x32x10x66x128.size inb_slot (fun s => by simp) rfl s s' h
theorem slots_cover : Finset.univ.biUnion slotSet = Finset.univ :=
  Ring.lead_cover (s := S2x32x10x66x128) (0 : Fin 5) 1 (fun s : Fin 2 => (![s.val, 0, 0, 0, 0] : Fin 5 → Nat)) S1x32x10x66x128.size inb_slot (fun s => by simp)
    (fun s a ha => by fin_cases a <;> first | exact absurd rfl ha | rfl) rfl (fun a ha => by fin_cases a <;> first | exact absurd rfl ha | rfl) rfl

/-! ### What the launch hands the ring, and takes back -/

section InOut
variable (c : Dev nD) (W : HbBuf (F := F) c hbM) (β : Fin 2)
theorem slotP_eq (s : Fin 2) (f) : slotP (F := F) c s f = (((c : Thread nD τ).loc cc0_scratch0) ↦[slotSet s]{fullShare} f : sProp 𝕄) := by
  unfold slotP; rw [slotSet_eq]; rfl
/-- A slot's share of the array, whole, is window `b`'s rows and the rest, for any window. -/
theorem src_split (s : Fin 2) (b : Fin 8) : wholeP (F := F) c W s ⊣⊢ iprop(srcP c W β s b ∗ restP c W β s b) := by
  unfold restP; exact pointsTo_split_subset (Finset.subset_univ _)
/-- The array whole at the full share is the two slots' shares. -/
theorem whole_split : (hbPt c hbM W : sProp 𝕄) ⊣⊢ iprop(wholeP c W 0 ∗ wholeP c W 1) :=
  pointsTo_share (PosShare.mem_left_op_right fullShare)
set_option maxHeartbeats 1000000 in
/-- The scratch whole at anything is its two slots at something each, and back. -/
theorem slots_in : iprop(∃ d, owns (c : Thread nD τ) scM fullShare d) ⊢ (iprop((∃ f, slotP (F := F) c 0 f) ∗ ∃ f, slotP (F := F) c 1 f) : sProp 𝕄) := by
  simp only [scM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- Nothing in flight: both slots free with their shares of the array, the form the ring has before a batch's first step.
    It does not depend on the batch. -/
def allFree (c : Dev nD) (W : HbBuf (F := F) c hbM) : sProp 𝕄 := Ring.At₀ (cellP c) (slotW c W) noHome

/-- Into the ring: the scratch whole, the cells at zero and the array whole are the ring with nothing in flight; -/
theorem ring_in (c : Dev nD) (W : HbBuf (F := F) c hbM) :
    iprop((∃ d, owns (c : Thread nD τ) scM fullShare d) ∗ (semVal ((c : Thread nD τ), SemLoc.dma 4) 0 ∗ semVal ((c : Thread nD τ), SemLoc.dma 5) 0) ∗ hbPt c hbM W)
      ⊢ allFree c W := by
  unfold allFree Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and out of it: with nothing in flight those pieces again. -/
theorem ring_out (c : Dev nD) (W : HbBuf (F := F) c hbM) :
    allFree c W
      ⊢ iprop((∃ d, owns (c : Thread nD τ) scM fullShare d) ∗ (semVal ((c : Thread nD τ), SemLoc.dma 4) 0 ∗ semVal ((c : Thread nD τ), SemLoc.dma 5) 0) ∗ hbPt c hbM W) := by
  unfold allFree Ring.At₀
  rw [Ring.bigSep_fin2]
  simp only [Ring.free, cellP_0, cellP_1]
  iintro ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c W).2; isplitl [HW0]; · iexact HW0
    iexact HW1

/-! ## The region invariant at a point -/

/-- The batch of a point, and of the position just after the last point. -/
def bat (p : ℕ) : Fin 2 := Fin.ofNat 2 (p / 8)

/-- Before point `p`: the generator register at some state, and the ring of the point's batch before step `p mod 8`. -/
def PhiR (c : Dev nD) (p : ℕ) : sProp 𝕄 := iprop((∃ r, prngReg c r) ∗ ringAt c (V m c main_v0) (bat p) (p % 8))

theorem ringAt_zero (c : Dev nD) (W : HbBuf (F := F) c hbM) (β : Fin 2) : ringAt c W β 0 = allFree c W := by
  unfold ringAt allFree; rw [if_pos rfl]

/-! ## The ring's step at each kind of point, and the body's operands there as the ring's slots, windows and cells -/

section Canon
omit [FloatOps F]
theorem stepA (t : Fin grid0.N) (h0 : condFirst (grid0.coords t)) (h1 : condMore (grid0.coords t)) : t.val % 8 = 0 := (hcondFirst t).mp h0
theorem stepB (t : Fin grid0.N) (h0 : ¬condFirst (grid0.coords t)) (h1 : condMore (grid0.coords t)) : 1 ≤ t.val % 8 ∧ t.val % 8 + 1 < 8 := by
  have a := (hcondFirst t).not.mp h0; have b := (hcondMore t).mp h1; omega
theorem stepC (t : Fin grid0.N) (h0 : ¬condFirst (grid0.coords t)) (h1 : ¬condMore (grid0.coords t)) : 1 ≤ t.val % 8 ∧ t.val % 8 + 1 = 8 := by
  have a := (hcondFirst t).not.mp h0; have b := (hcondMore t).not.mp h1; omega

set_option synthInstance.maxSize 4096 in
theorem coff_first_dst : ∀ t : Fin grid0.N, condFirst (grid0.coords t) → (![0, 0, 0, 0, 0] : Fin 5 → Nat) = ![(Ring.sl 2 (t.val % 8)).val, 0, 0, 0, 0] := by decide +kernel
@[sl_canon] theorem canon_first_dst (t : Fin grid0.N) (h0 : condFirst (grid0.coords t)) :
    (scM.slice (Rect.unit (s := S2x32x10x66x128) ![0, 0, 0, 0, 0] S1x32x10x66x128.size inb_S2x32x10x66x128_S1x32x10x66x128_0_0_0_0_0) (fun _ => rfl)).squeeze S32x10x66x128 squeezes_S1x32x10x66x128_S32x10x66x128 = rslot (Ring.sl 2 (t.val % 8)) :=
  congrArg (fun M : Memref sig .tc .vmem S1x32x10x66x128 .f32 => M.squeeze S32x10x66x128 squeezes_S1x32x10x66x128_S32x10x66x128) (Memref.slice_unit_congr _ (coff_first_dst t h0) _ _ (fun _ => rfl) (fun _ => rfl))
set_option synthInstance.maxSize 4096 in
theorem coff_first_cell : ∀ t : Fin grid0.N, condFirst (grid0.coords t) → (![0] : Fin 1 → Nat) = ![(Ring.sl 2 (t.val % 8)).val] := by decide +kernel
@[sl_canon] theorem canon_first_cell (t : Fin grid0.N) (h0 : condFirst (grid0.coords t)) :
    (cc0_scratch1.slice (Rect.unit (s := S2) ![0] S1.size inb_S2_S1_0)).squeeze S_ squeezes_S1_S_ = cellA (Ring.sl 2 (t.val % 8)) :=
  congrArg (fun A : DmaSems sig S1 => A.squeeze S_ squeezes_S1_S_) (SemArray.slice_unit_congr _ (coff_first_cell t h0) _ _)
set_option synthInstance.maxSize 4096 in
theorem coff_first_src : ∀ t : Fin grid0.N, condFirst (grid0.coords t) → k0_off1 (grid0.coords t) = ![(bat t.val).val, 0, 8 * (Ring.bk 8 (t.val % 8)).val, 0, 0] := by decide +kernel
@[sl_canon] theorem canon_first_src (t : Fin grid0.N) (h0 : condFirst (grid0.coords t)) :
    (hbM.slice (Rect.unit (s := S2x32x66x66x128) (k0_off1 (grid0.coords t)) S1x32x10x66x128.size (k0_off1_inb (grid0.coords t) h0)) (fun _ => rfl)).squeeze S32x10x66x128 squeezes_S1x32x10x66x128_S32x10x66x128 = srcB (bat t.val) (Ring.bk 8 (t.val % 8)) :=
  congrArg (fun M : Memref sig .tc .hbm S1x32x10x66x128 .f32 => M.squeeze S32x10x66x128 squeezes_S1x32x10x66x128_S32x10x66x128) (Memref.slice_unit_congr _ (coff_first_src t h0) _ _ (fun _ => rfl) (fun _ => rfl))

set_option synthInstance.maxSize 4096 in
theorem coff_wait_cell : ∀ t : Fin grid0.N, k0_off2 (grid0.coords t) = ![(Ring.sl 2 (t.val % 8)).val] := by decide +kernel
@[sl_canon] theorem canon_wait_cell (t : Fin grid0.N) :
    (cc0_scratch1.slice (Rect.unit (s := S2) (k0_off2 (grid0.coords t)) S1.size (k0_off2_inb (grid0.coords t)))).squeeze S_ squeezes_S1_S_ = cellA (Ring.sl 2 (t.val % 8)) :=
  congrArg (fun A : DmaSems sig S1 => A.squeeze S_ squeezes_S1_S_) (SemArray.slice_unit_congr _ (coff_wait_cell t) _ _)
set_option synthInstance.maxSize 4096 in
theorem coff_wait_dst : ∀ t : Fin grid0.N, k0_off3 (grid0.coords t) = ![(Ring.sl 2 (t.val % 8)).val, 0, 0, 0, 0] := by decide +kernel
@[sl_canon] theorem canon_wait_dst (t : Fin grid0.N) :
    (scM.slice (Rect.unit (s := S2x32x10x66x128) (k0_off3 (grid0.coords t)) S1x32x10x66x128.size (k0_off3_inb (grid0.coords t))) (fun _ => rfl)).squeeze S32x10x66x128 squeezes_S1x32x10x66x128_S32x10x66x128 = rslot (Ring.sl 2 (t.val % 8)) :=
  congrArg (fun M : Memref sig .tc .vmem S1x32x10x66x128 .f32 => M.squeeze S32x10x66x128 squeezes_S1x32x10x66x128_S32x10x66x128) (Memref.slice_unit_congr _ (coff_wait_dst t) _ _ (fun _ => rfl) (fun _ => rfl))
set_option synthInstance.maxSize 4096 in
theorem coff_wait_src : ∀ t : Fin grid0.N, k0_off4 (grid0.coords t) = ![(bat t.val).val, 0, 8 * (Ring.bk 8 (t.val % 8)).val, 0, 0] := by decide +kernel
@[sl_canon] theorem canon_wait_src (t : Fin grid0.N) :
    (hbM.slice (Rect.unit (s := S2x32x66x66x128) (k0_off4 (grid0.coords t)) S1x32x10x66x128.size (k0_off4_inb (grid0.coords t))) (fun _ => rfl)).squeeze S32x10x66x128 squeezes_S1x32x10x66x128_S32x10x66x128 = srcB (bat t.val) (Ring.bk 8 (t.val % 8)) :=
  congrArg (fun M : Memref sig .tc .hbm S1x32x10x66x128 .f32 => M.squeeze S32x10x66x128 squeezes_S1x32x10x66x128_S32x10x66x128) (Memref.slice_unit_congr _ (coff_wait_src t) _ _ (fun _ => rfl) (fun _ => rfl))

set_option synthInstance.maxSize 4096 in
theorem coff_next_cell : ∀ t : Fin grid0.N, condMore (grid0.coords t) → k0_off5 (grid0.coords t) = ![(Ring.sl 2 (t.val % 8 + 1)).val] := by decide +kernel
@[sl_canon] theorem canon_next_cell (t : Fin grid0.N) (h1 : condMore (grid0.coords t)) :
    (cc0_scratch1.slice (Rect.unit (s := S2) (k0_off5 (grid0.coords t)) S1.size (k0_off5_inb (grid0.coords t) h1))).squeeze S_ squeezes_S1_S_ = cellA (Ring.sl 2 (t.val % 8 + 1)) :=
  congrArg (fun A : DmaSems sig S1 => A.squeeze S_ squeezes_S1_S_) (SemArray.slice_unit_congr _ (coff_next_cell t h1) _ _)
set_option synthInstance.maxSize 4096 in
theorem coff_next_dst : ∀ t : Fin grid0.N, condMore (grid0.coords t) → k0_off6 (grid0.coords t) = ![(Ring.sl 2 (t.val % 8 + 1)).val, 0, 0, 0, 0] := by decide +kernel
@[sl_canon] theorem canon_next_dst (t : Fin grid0.N) (h1 : condMore (grid0.coords t)) :
    (scM.slice (Rect.unit (s := S2x32x10x66x128) (k0_off6 (grid0.coords t)) S1x32x10x66x128.size (k0_off6_inb (grid0.coords t) h1)) (fun _ => rfl)).squeeze S32x10x66x128 squeezes_S1x32x10x66x128_S32x10x66x128 = rslot (Ring.sl 2 (t.val % 8 + 1)) :=
  congrArg (fun M : Memref sig .tc .vmem S1x32x10x66x128 .f32 => M.squeeze S32x10x66x128 squeezes_S1x32x10x66x128_S32x10x66x128) (Memref.slice_unit_congr _ (coff_next_dst t h1) _ _ (fun _ => rfl) (fun _ => rfl))
set_option synthInstance.maxSize 4096 in
theorem coff_next_src : ∀ t : Fin grid0.N, condMore (grid0.coords t) → k0_off7 (grid0.coords t) = ![(bat t.val).val, 0, 8 * (Ring.bk 8 (t.val % 8 + 1)).val, 0, 0] := by decide +kernel
@[sl_canon] theorem canon_next_src (t : Fin grid0.N) (h1 : condMore (grid0.coords t)) :
    (hbM.slice (Rect.unit (s := S2x32x66x66x128) (k0_off7 (grid0.coords t)) S1x32x10x66x128.size (k0_off7_inb (grid0.coords t) h1)) (fun _ => rfl)).squeeze S32x10x66x128 squeezes_S1x32x10x66x128_S32x10x66x128 = srcB (bat t.val) (Ring.bk 8 (t.val % 8 + 1)) :=
  congrArg (fun M : Memref sig .tc .hbm S1x32x10x66x128 .f32 => M.squeeze S32x10x66x128 squeezes_S1x32x10x66x128_S32x10x66x128) (Memref.slice_unit_congr _ (coff_next_src t h1) _ _ (fun _ => rfl) (fun _ => rfl))

set_option synthInstance.maxSize 4096 in
theorem coff_load : ∀ t : Fin grid0.N, k0_off8 (grid0.coords t) = ![(Ring.sl 2 (t.val % 8)).val, 0, 0, 0, 0] := by decide +kernel

/-- A load through the scratch's own memref at a box of one slot's extent whose leading offset is the slot's number reads
    elements of that slot. -/
theorem load_subset_at (s : Fin 2) (off : Fin 5 → ℕ) (p : ∀ a, off a + S1x32x10x66x128.size a ≤ S2x32x10x66x128.size a)
    (h : off = ![s.val, 0, 0, 0, 0]) :
    ((scM.access (Rect.unit (s := S2x32x10x66x128) off S1x32x10x66x128.size p)) : View sig .tc .vmem _ _).set ⊆ (rslot s).view.set := by
  subst h
  rw [slotSet_eq]
  show ((View.whole cc0_scratch0).slice _).set ⊆ _
  rw [View.set_slice_whole]

end Canon
/-- After a batch's last step both slots keep a landed block; forgetting what they keep, nothing is in flight. -/
theorem allFree_of_kept (c : Dev nD) (W : HbBuf (F := F) c hbM) (β : Fin 2) (k : ℕ) (hk : k + 1 = 8) :
    (iprop(Ring.kept (cellP c) (slotW c W) (landed c W β) (Ring.sl 2 (k + 1)) (Ring.bk 8 (k - 1)) ∗ Ring.kept (cellP c) (slotW c W) (landed c W β) (Ring.sl 2 k) (Ring.bk 8 k)) : sProp 𝕄)
      ⊢ allFree c W := by
  obtain rfl : k = 7 := by omega
  unfold allFree Ring.At₀
  rw [Ring.bigSep_fin2]
  iintro ⟨H0, H1⟩
  iapply Ring.with_homes₀
  isplitl [H0]
  · iapply (Ring.free_of_kept (cellP c) (slotW c W) (landed c W β) _ _); iexact H0
  · iapply (Ring.free_of_kept (cellP c) (slotW c W) (landed c W β) _ _); iexact H1

end Cert.KernelIdeal.DB

end
-- ==== Proof.IdealRunA.lean ====
/-
  The body at the first depth tile of a batch.  Both slots are free.  The body starts the tile's own copy into slot 0,
  waits for it, starts the next tile's copy into slot 1, reads slot 0 and the tile's weight block, and writes the output
  block twenty-seven times over (zeros, then one neighbour's contribution added at a time).  Afterwards the next
  tile's copy is in flight and slot 0 keeps this tile's rows.  What the output block holds is the list of stores the
  symbolic run finds.
-/
import proofs.«416960_j11115375362872_4_alg».proof.Proof.IdealKit

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRunA (c : Dev nD) (t : Fin cfg0.N) (arg3 : Memref sig .tc .vmem S1x26x8x4096 .f32) (harg3 : arg3.IsWhole) (arg4 : Memref sig .tc .vmem S1x32x8x4096 .f32) (harg4 : arg4.IsWhole) (hc0 : condFirst (grid0.coords t)) (hc1 : condMore (grid0.coords t))
    (x0 : Vec F S1x26x8x4096 .f32) (fh : HbBuf (F := F) c hbM) :
    { L : List (View.Piece (Elt F) S1x32x8x4096 .f32) //
      ∀ (W : Waits sig Unit) (K : PUnit → sProp 𝕄),
        iprop(owns (c : Thread nD τ) arg3 fullShare x0 ∗ (∃ d, owns (c : Thread nD τ) arg4 fullShare d) ∗ Ring.free (cellP c) (slotW c fh) (Ring.sl 2 (t.val % 8)) ∗ Ring.free (cellP c) (slotW c fh) (Ring.sl 2 (t.val % 8 + 1)) ∗ owes (c : Thread nD τ) 0 W
            ∗ (iprop(owns (c : Thread nD τ) arg3 fullShare x0 ∗ (∃ f, arg4.view.loc (c : Thread nD τ) ↦[arg4.view.set]{fullShare} arg4.view.writes (Elt F) f L) ∗ Ring.inflight (flightW c fh (bat t.val)) (Ring.sl 2 (t.val % 8 + 1)) (Ring.bk 8 (t.val % 8 + 1)) ∗ Ring.kept (cellP c) (slotW c fh) (landed c fh (bat t.val)) (Ring.sl 2 (t.val % 8)) (Ring.bk 8 (t.val % 8)) ∗ (∃ W', owes (c : Thread nD τ) 0 W')) -∗ K ⟨⟩))
          ⊢ wp frame (wpE (defs₀ (F := F)) Variants.none c none) Set.univ (cc0__stencil_kernel (grid0.coords t) hbM (Memref.isWhole_whole _) arg3 harg3 arg4 harg4 scM (Memref.isWhole_whole _) cc0_scratch1) K } := by
  refine ⟨?_, fun W K => ?run⟩
  case run =>
    haveI : Fact (condFirst (grid0.coords t)) := ⟨hc0⟩
    haveI : Fact (condMore (grid0.coords t)) := ⟨hc1⟩
    simp only [cc0__stencil_kernel_eq_skeleton]; unfold cc0__stencil_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hcanon0 := canon_first_dst t hc0
    have hcanon1 := canon_first_cell t hc0
    have hcanon2 := canon_first_src t hc0
    have hS := load_subset_at (Ring.sl 2 (t.val % 8)) (k0_off8 (grid0.coords t)) (k0_off8_inb (grid0.coords t)) (coff_load t)
    unfold owns Ring.free Ring.inflight Ring.kept
    iintro ⟨⟨%f0, %hf0, H0⟩, ⟨%d1, %f1, -, H1⟩, ⟨Hc_0, ⟨%fs_0, Hs_0, Hw_0⟩⟩, ⟨Hc_1, ⟨%fs_1, Hs_1, Hw_1⟩⟩, HW, Hk⟩
    ihave Hsp_0 := (src_split c fh (bat t.val) (Ring.sl 2 (t.val % 8)) (Ring.bk 8 (t.val % 8))).1 $$ Hw_0
    icases Hsp_0 with ⟨Hh_0, Hr_0⟩
    ihave Hsp_1 := (src_split c fh (bat t.val) (Ring.sl 2 (t.val % 8 + 1)) (Ring.bk 8 (t.val % 8 + 1))).1 $$ Hw_1
    icases Hsp_1 with ⟨Hh_1, Hr_1⟩
    obtain rfl := harg3.eq_unread hf0
    sl_exec (disch := first | exact hc0 | exact hc1)
    sl_step
    iapply Hk
    isplitl [H0]
    · iexists _; isplitr; · ipureintro; exact harg3.read_unread _
      iexact H0
    isplitl [H1]; · iexists _; iexact H1
    isplitl [Hc_1 Hr_1]
    · iexists _; isplitl [Hc_1]; · iexact Hc_1
      iexact Hr_1
    isplitl [Hc_0 Hs_0 Hh_0 Hr_0]
    · isplitl [Hc_0]; · iexact Hc_0
      iexists _; isplitl [Hs_0]; · iexact Hs_0
      iapply (src_split c fh (bat t.val) (Ring.sl 2 (t.val % 8)) (Ring.bk 8 (t.val % 8))).2; isplitl [Hh_0]; · iexact Hh_0
      iexact Hr_0
    iexists _; iexact HW

end Cert.KernelIdeal.DB

end
-- ==== Proof.IdealRunB.lean ====
/-
  The body at a middle depth tile of a batch.  The tile's copy is in flight into its slot and the other slot keeps the
  tile before.  The body waits for its copy, starts the next tile's copy over the kept rows, reads its slot and the
  tile's weight block, and writes the output block twenty-seven times over.  Afterwards the next tile's copy is in
  flight and the tile's slot keeps its rows.
-/
import proofs.«416960_j11115375362872_4_alg».proof.Proof.IdealRunA

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRunB (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : condMore (grid0.coords t))
    (x0 : Vec F S1x26x8x4096 .f32) (fh : HbBuf (F := F) c hbM) :
    { L : List (View.Piece (Elt F) S1x32x8x4096 .f32) //
      ∀ (W : Waits sig Unit) (K : PUnit → sProp 𝕄),
        iprop(owns (c : Thread nD τ) arg3 fullShare x0 ∗ (∃ d, owns (c : Thread nD τ) arg4 fullShare d) ∗ Ring.inflight (flightW c fh (bat t.val)) (Ring.sl 2 (t.val % 8)) (Ring.bk 8 (t.val % 8)) ∗ Ring.kept (cellP c) (slotW c fh) (landed c fh (bat t.val)) (Ring.sl 2 (t.val % 8 + 1)) (Ring.bk 8 (t.val % 8 - 1)) ∗ owes (c : Thread nD τ) 0 W
            ∗ (iprop(owns (c : Thread nD τ) arg3 fullShare x0 ∗ (∃ f, arg4.view.loc (c : Thread nD τ) ↦[arg4.view.set]{fullShare} arg4.view.writes (Elt F) f L) ∗ Ring.inflight (flightW c fh (bat t.val)) (Ring.sl 2 (t.val % 8 + 1)) (Ring.bk 8 (t.val % 8 + 1)) ∗ Ring.kept (cellP c) (slotW c fh) (landed c fh (bat t.val)) (Ring.sl 2 (t.val % 8)) (Ring.bk 8 (t.val % 8)) ∗ (∃ W', owes (c : Thread nD τ) 0 W')) -∗ K ⟨⟩))
          ⊢ wp frame (wpE (defs₀ (F := F)) Variants.none c none) Set.univ (cc0__stencil_kernel (grid0.coords t) hbM (Memref.isWhole_whole _) arg3 harg3 arg4 harg4 scM (Memref.isWhole_whole _) cc0_scratch1) K } := by
  refine ⟨?_, fun W K => ?run⟩
  case run =>
    haveI : Fact (¬condFirst (grid0.coords t)) := ⟨hc0⟩
    haveI : Fact (condMore (grid0.coords t)) := ⟨hc1⟩
    simp only [cc0__stencil_kernel_eq_skeleton]; unfold cc0__stencil_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hS := load_subset_at (Ring.sl 2 (t.val % 8)) (k0_off8 (grid0.coords t)) (k0_off8_inb (grid0.coords t)) (coff_load t)
    unfold owns Ring.inflight Ring.kept
    iintro ⟨⟨%f0, %hf0, H0⟩, ⟨%d1, %f1, -, H1⟩, ⟨%ff, Hf, Hrf⟩, ⟨Hc_1, ⟨%fs_1, Hs_1, Hw_1⟩⟩, HW, Hk⟩
    ihave Hsp_1 := (src_split c fh (bat t.val) (Ring.sl 2 (t.val % 8 + 1)) (Ring.bk 8 (t.val % 8 + 1))).1 $$ Hw_1
    icases Hsp_1 with ⟨Hh_1, Hr_1⟩
    obtain rfl := harg3.eq_unread hf0
    sl_exec (disch := first | exact hc0 | exact hc1)
    sl_step
    iapply Hk
    isplitl [H0]
    · iexists _; isplitr; · ipureintro; exact harg3.read_unread _
      iexact H0
    isplitl [H1]; · iexists _; iexact H1
    isplitl [Hc_1 Hr_1]
    · iexists _; isplitl [Hc_1]; · iexact Hc_1
      iexact Hr_1
    isplitl [Hf Hf_dst Hf_src Hrf]
    · isplitl [Hf]; · iexact Hf
      iexists _; isplitl [Hf_dst]; · iexact Hf_dst
      iapply (src_split c fh (bat t.val) (Ring.sl 2 (t.val % 8)) (Ring.bk 8 (t.val % 8))).2; isplitl [Hf_src]; · iexact Hf_src
      iexact Hrf
    iexists _; iexact HW

end Cert.KernelIdeal.DB

end
-- ==== Proof.IdealRunC.lean ====
/-
  The body at the last depth tile of a batch.  The tile's copy is in flight into its slot; nothing is left to start.
  The body waits for its copy, reads its slot and the tile's weight block, and writes the output block twenty-seven times
  over.  Afterwards nothing is in flight and the tile's slot keeps its rows.
-/
import proofs.«416960_j11115375362872_4_alg».proof.Proof.IdealRunB

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRunC (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : ¬condMore (grid0.coords t))
    (x0 : Vec F S1x26x8x4096 .f32) (fh : HbBuf (F := F) c hbM) :
    { L : List (View.Piece (Elt F) S1x32x8x4096 .f32) //
      ∀ (W : Waits sig Unit) (K : PUnit → sProp 𝕄),
        iprop(owns (c : Thread nD τ) arg3 fullShare x0 ∗ (∃ d, owns (c : Thread nD τ) arg4 fullShare d) ∗ Ring.inflight (flightW c fh (bat t.val)) (Ring.sl 2 (t.val % 8)) (Ring.bk 8 (t.val % 8)) ∗ owes (c : Thread nD τ) 0 W
            ∗ (iprop(owns (c : Thread nD τ) arg3 fullShare x0 ∗ (∃ f, arg4.view.loc (c : Thread nD τ) ↦[arg4.view.set]{fullShare} arg4.view.writes (Elt F) f L) ∗ Ring.kept (cellP c) (slotW c fh) (landed c fh (bat t.val)) (Ring.sl 2 (t.val % 8)) (Ring.bk 8 (t.val % 8)) ∗ (∃ W', owes (c : Thread nD τ) 0 W')) -∗ K ⟨⟩))
          ⊢ wp frame (wpE (defs₀ (F := F)) Variants.none c none) Set.univ (cc0__stencil_kernel (grid0.coords t) hbM (Memref.isWhole_whole _) arg3 harg3 arg4 harg4 scM (Memref.isWhole_whole _) cc0_scratch1) K } := by
  refine ⟨?_, fun W K => ?run⟩
  case run =>
    haveI : Fact (¬condFirst (grid0.coords t)) := ⟨hc0⟩
    haveI : Fact (¬condMore (grid0.coords t)) := ⟨hc1⟩
    simp only [cc0__stencil_kernel_eq_skeleton]; unfold cc0__stencil_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hS := load_subset_at (Ring.sl 2 (t.val % 8)) (k0_off8 (grid0.coords t)) (k0_off8_inb (grid0.coords t)) (coff_load t)
    unfold owns Ring.inflight Ring.kept
    iintro ⟨⟨%f0, %hf0, H0⟩, ⟨%d1, %f1, -, H1⟩, ⟨%ff, Hf, Hrf⟩, HW, Hk⟩
    obtain rfl := harg3.eq_unread hf0
    sl_exec (disch := first | exact hc0 | exact hc1)
    sl_step
    iapply Hk
    isplitl [H0]
    · iexists _; isplitr; · ipureintro; exact harg3.read_unread _
      iexact H0
    isplitl [H1]; · iexists _; iexact H1
    isplitl [Hf Hf_dst Hf_src Hrf]
    · isplitl [Hf]; · iexact Hf
      iexists _; isplitl [Hf_dst]; · iexact Hf_dst
      iapply (src_split c fh (bat t.val) (Ring.sl 2 (t.val % 8)) (Ring.bk 8 (t.val % 8))).2; isplitl [Hf_src]; · iexact Hf_src
      iexact Hrf
    iexists _; iexact HW

end Cert.KernelIdeal.DB

end
-- ==== Proof.IdealFrame.lean ====
/-
  The kernel's frame: every weakly fair execution of the program runs to the end without a fault and leaves both
  arguments as they were.

  The three runs of the body (first, middle and last depth tile of a batch) are put under the pipeline: what the output
  block holds after a point is the stores the point's run found, read back; the region invariant before point p is the ring
  of p's batch before step p mod 8; each point's run takes the ring pieces its step needs and hands back the next
  step's; before the first point and after the last nothing is in flight, which is what the launch gives and takes.
-/
import proofs.«416960_j11115375362872_4_alg».proof.Proof.IdealRunC

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each kind of point leaves in the output block -/

theorem coverA (c : Dev nD) (t : Fin cfg0.N) (arg3 : Memref sig .tc .vmem S1x26x8x4096 .f32) (harg3 : arg3.IsWhole) (arg4 : Memref sig .tc .vmem S1x32x8x4096 .f32) (harg4 : arg4.IsWhole) (hc0 : condFirst (grid0.coords t)) (hc1 : condMore (grid0.coords t))
    (x0 : Vec F S1x26x8x4096 .f32) (fh : HbBuf (F := F) c hbM) (y : S1x32x8x4096.Idx) :
    ∃ pc ∈ (kernelRunA c t arg3 harg3 arg4 harg4 hc0 hc1 x0 fh).1, y ∈ pc.1.set :=
  View.cover_of_tiledL (kernelRunA c t arg3 harg3 arg4 harg4 hc0 hc1 x0 fh).1 S1x32x8x4096.size (by sl_kernel_rfl) y
def outA (c : Dev nD) (t : Fin cfg0.N) (arg3 : Memref sig .tc .vmem S1x26x8x4096 .f32) (harg3 : arg3.IsWhole) (arg4 : Memref sig .tc .vmem S1x32x8x4096 .f32) (harg4 : arg4.IsWhole) (hc0 : condFirst (grid0.coords t)) (hc1 : condMore (grid0.coords t))
    (x0 : Vec F S1x26x8x4096 .f32) (fh : HbBuf (F := F) c hbM) : Vec F S1x32x8x4096 .f32 :=
  VO.read (Elt F) (VO.writes (Elt F) VO.junk (kernelRunA c t arg3 harg3 arg4 harg4 hc0 hc1 x0 fh).1)

theorem coverB (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : condMore (grid0.coords t))
    (x0 : Vec F S1x26x8x4096 .f32) (fh : HbBuf (F := F) c hbM) (y : S1x32x8x4096.Idx) :
    ∃ pc ∈ (kernelRunB c t arg3 harg3 arg4 harg4 hc0 hc1 x0 fh).1, y ∈ pc.1.set :=
  View.cover_of_tiledL (kernelRunB c t arg3 harg3 arg4 harg4 hc0 hc1 x0 fh).1 S1x32x8x4096.size (by sl_kernel_rfl) y
def outB (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : condMore (grid0.coords t))
    (x0 : Vec F S1x26x8x4096 .f32) (fh : HbBuf (F := F) c hbM) : Vec F S1x32x8x4096 .f32 :=
  VO.read (Elt F) (VO.writes (Elt F) VO.junk (kernelRunB c t arg3 harg3 arg4 harg4 hc0 hc1 x0 fh).1)

theorem coverC (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : ¬condMore (grid0.coords t))
    (x0 : Vec F S1x26x8x4096 .f32) (fh : HbBuf (F := F) c hbM) (y : S1x32x8x4096.Idx) :
    ∃ pc ∈ (kernelRunC c t arg3 harg3 arg4 harg4 hc0 hc1 x0 fh).1, y ∈ pc.1.set :=
  View.cover_of_tiledL (kernelRunC c t arg3 harg3 arg4 harg4 hc0 hc1 x0 fh).1 S1x32x8x4096.size (by sl_kernel_rfl) y
def outC (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : ¬condMore (grid0.coords t))
    (x0 : Vec F S1x26x8x4096 .f32) (fh : HbBuf (F := F) c hbM) : Vec F S1x32x8x4096 .f32 :=
  VO.read (Elt F) (VO.writes (Elt F) VO.junk (kernelRunC c t arg3 harg3 arg4 harg4 hc0 hc1 x0 fh).1)

/-- What the output block holds after the body at point `t`: the kind of the point is read off its depth tile, and no kind
    uses what an earlier point left there. -/
def outsAt (c : Dev nD) (t : Fin cfg0.N) : Vec F S1x32x8x4096 .f32 :=
  if h0 : t.val % 8 = 0 then
    outA c t (msA t) (hsA t) (msO t) (hsO t) ((hcondFirst t).mpr h0) ((hcondMore t).mpr (by omega)) (iblk m c 0 t) (V m c main_v0)
  else if h1 : t.val % 8 < 7 then
    outB c t (msA t) (hsA t) (msO t) (hsO t) (fun h => h0 ((hcondFirst t).mp h)) ((hcondMore t).mpr h1) (iblk m c 0 t) (V m c main_v0)
  else
    outC c t (msA t) (hsA t) (msO t) (hsO t) (fun h => h0 ((hcondFirst t).mp h)) (fun h => h1 ((hcondMore t).mp h)) (iblk m c 0 t) (V m c main_v0)

theorem outsAt_A (c : Dev nD) (t : Fin cfg0.N) (h0 : t.val % 8 = 0) :
    outsAt m c t = outA c t (msA t) (hsA t) (msO t) (hsO t) ((hcondFirst t).mpr h0) ((hcondMore t).mpr (by omega)) (iblk m c 0 t) (V m c main_v0) := by
  unfold outsAt; rw [dif_pos h0]
theorem outsAt_B (c : Dev nD) (t : Fin cfg0.N) (h0 : ¬t.val % 8 = 0) (h1 : t.val % 8 < 7) :
    outsAt m c t = outB c t (msA t) (hsA t) (msO t) (hsO t) (fun h => h0 ((hcondFirst t).mp h)) ((hcondMore t).mpr h1) (iblk m c 0 t) (V m c main_v0) := by
  unfold outsAt; rw [dif_neg h0, dif_pos h1]
theorem outsAt_C (c : Dev nD) (t : Fin cfg0.N) (h0 : ¬t.val % 8 = 0) (h1 : ¬t.val % 8 < 7) :
    outsAt m c t = outC c t (msA t) (hsA t) (msO t) (hsO t) (fun h => h0 ((hcondFirst t).mp h)) (fun h => h1 ((hcondMore t).mp h)) (iblk m c 0 t) (V m c main_v0) := by
  unfold outsAt; rw [dif_neg h0, dif_neg h1]

/-! ## The pipeline's proof data -/

/-- The arrays as the region finds them; after the body the weight window's buffer at its block and the output's at
    `outsAt`; the ring invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt m c t)
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = (outsAt m c t) := by dsimp only [dats]
theorem before0_0 (c : Dev nD) (t : Fin cfg0.N) (d) : (dats m 0 c).before 0 t d = iblk m c 0 t :=
  before0_0_ofD m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msO t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (msA t) fullShare ((dats m 0 c).after 0 t)
    ∗ owns (c : Thread nD τ) (msO t) fullShare ((dats m 0 c).after 1 t))

set_option maxHeartbeats 1600000 in
/-- The body at any point: the point's depth tile says which run applies; the ring invariant is rewritten to the pieces
    the step takes and reassembled from what the run hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1]
  rw [PhiR_castSucc m c t, PhiR_succ m c t]
  unfold Dat.owesAt Pipeline.owesWithin
  rw [show (dats m 0 c).owed t.castSucc = 0 from rfl, show (dats m 0 c).owed t.succ = 0 from rfl]
  unfold PhiR
  have hN : t.val < 16 := lt_of_lt_of_eq t.isLt (show cfg0.N = 16 from N_0)
  by_cases h0 : t.val % 8 = 0
  · have h1 : t.val % 8 < 7 := by omega
    rw [outsAt_A m c t h0]
    unfold outA
    have e1 : (t.val + 1) % 8 = t.val % 8 + 1 := by omega
    have eb : bat (t.val + 1) = bat t.val := by unfold bat; congr 1; omega
    rw [e1, eb]
    unfold ringAt
    rw [if_pos h0, if_neg (show ¬t.val % 8 + 1 = 0 by omega)]
    rw [Ring.At₀_eq2' _ _ _ (t.val % 8) h0 (by decide : 2 ≤ 8), Ring.AtK2_one' _ _ _ _ _ (t.val % 8) h0 (by decide : 1 < 8)]
    iintro ⟨⟨Hg, ⟨-, Hfr0, Hfr1⟩⟩, ⟨%W, -, HW⟩, ⟨%d0, H0⟩, ⟨%d1, H1⟩⟩
    iapply ((kernelRunA c t _ _ _ _ ((hcondFirst t).mpr h0) ((hcondMore t).mpr h1) (iblk m c 0 t) (V m c main_v0)).2 W _)
    isplitl [H0]; · iexact H0
    isplitl [H1]; · iexists _; iexact H1
    isplitl [Hfr0]; · iexact Hfr0
    isplitl [Hfr1]; · iexact Hfr1
    isplitl [HW]; · iexact HW
    iintro ⟨H0, ⟨%e1, H1⟩, Hfl', Hkp', ⟨%W', HW'⟩⟩
    isplitl [Hg Hfl' Hkp']
    · isplitl [Hg]; · iexact Hg
      iapply Ring.with_homes₀
      isplitl [Hfl']; · iexact Hfl'
      iexact Hkp'
    isplitl [HW']
    · iexists W'; isplitr; · ipureintro; exact fun _ _ => Or.inl trivial
      iexact HW'
    isplitl [H0]; · iexact H0
    unfold owns; iexists _; isplitr
    swap; · iexact H1
    ipureintro; exact View.read_writes_of_cover _ _ _ _ _ (coverA c _ _ _ _ _ _ _ _ _)
  · by_cases h1 : t.val % 8 < 7
    · rw [outsAt_B m c t h0 h1]
      unfold outB
      have e1 : (t.val + 1) % 8 = t.val % 8 + 1 := by omega
      have eb : bat (t.val + 1) = bat t.val := by unfold bat; congr 1; omega
      rw [e1, eb]
      unfold ringAt
      rw [if_neg h0, if_neg (show ¬t.val % 8 + 1 = 0 by omega)]
      rw [Ring.AtK2_here _ _ _ _ _ (t.val % 8) (by omega) (by omega), Ring.AtK2_next _ _ _ _ _ (t.val % 8) (by omega) (by omega)]
      iintro ⟨⟨Hg, ⟨-, Hfl, Hkp⟩⟩, ⟨%W, -, HW⟩, ⟨%d0, H0⟩, ⟨%d1, H1⟩⟩
      iapply ((kernelRunB c t _ _ _ _ (fun h => h0 ((hcondFirst t).mp h)) ((hcondMore t).mpr h1) (iblk m c 0 t) (V m c main_v0)).2 W _)
      isplitl [H0]; · iexact H0
      isplitl [H1]; · iexists _; iexact H1
      isplitl [Hfl]; · iexact Hfl
      isplitl [Hkp]; · iexact Hkp
      isplitl [HW]; · iexact HW
      iintro ⟨H0, ⟨%e1, H1⟩, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverB c _ _ _ _ _ _ _ _ _)
    · rw [outsAt_C m c t h0 h1]
      unfold outC
      have e1 : (t.val + 1) % 8 = 0 := by omega
      rw [e1, ringAt_zero]
      unfold ringAt
      rw [if_neg h0]
      rw [Ring.AtK2_here_last _ _ _ _ _ (t.val % 8) (by omega) (by omega)]
      iintro ⟨⟨Hg, ⟨-, Hfl, Hkp⟩⟩, ⟨%W, -, HW⟩, ⟨%d0, H0⟩, ⟨%d1, H1⟩⟩
      iapply ((kernelRunC c t _ _ _ _ (fun h => h0 ((hcondFirst t).mp h)) (fun h => h1 ((hcondMore t).mp h)) (iblk m c 0 t) (V m c main_v0)).2 W _)
      isplitl [H0]; · iexact H0
      isplitl [H1]; · iexists _; iexact H1
      isplitl [Hfl]; · iexact Hfl
      isplitl [HW]; · iexact HW
      iintro ⟨H0, ⟨%e1, H1⟩, Hkp', ⟨%W', HW'⟩⟩
      isplitl [Hg Hkp Hkp']
      · isplitl [Hg]; · iexact Hg
        iapply (allFree_of_kept c (V m c main_v0) (bat t.val) (t.val % 8) (by omega))
        isplitl [Hkp]; · iexact Hkp
        iexact Hkp'
      isplitl [HW']
      · iexists W'; isplitr; · ipureintro; exact fun _ _ => Or.inl trivial
        iexact HW'
      isplitl [H0]; · iexact H0
      unfold owns; iexists _; isplitr
      swap; · iexact H1
      ipureintro; exact View.read_writes_of_cover _ _ _ _ _ (coverC c _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Into and out of the ring -/

theorem hin (c : Dev nD) : Pipeline.ΦD osem spec0 H0 (V m) c ⊢ (dats m 0 c).Φ 0 := by
  rw [PhiD_eq, show (dats m 0 c).Φ 0 = PhiR m c 0 from rfl]
  unfold PhiR
  rw [show (0 : ℕ) % 8 = 0 from rfl, ringAt_zero]
  iintro ⟨HR, Hg, ⟨Hq0, Hq1⟩, Hh⟩
  isplitl [Hg]; · iexact Hg
  iapply (ring_in (F := F) c (V m c main_v0))
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 H0 (V m) c := by
  rw [PhiD_eq, show (dats m 0 c).Φ (Fin.last cfg0.N) = PhiR m c grid0.N from rfl]
  unfold PhiR
  rw [show grid0.N = 16 by rw [N_0], show (16 : ℕ) % 8 = 0 from rfl, ringAt_zero]
  iintro ⟨Hg, HR⟩
  ihave HX := (ring_out (F := F) c (V m c main_v0)) $$ HR
  icases HX with ⟨HR, ⟨Hq0, Hq1⟩, Hh⟩
  isplitl [HR]
  · iexact HR
  isplitl [Hg]
  · iexact Hg
  isplitl [Hq0 Hq1]
  · isplitl [Hq0]; · iexact Hq0
    iexact Hq1
  iexact Hh

/-! ## The run and the frame -/

set_option backward.isDefEq.respectTransparency.types false in
/-- Every weakly fair execution of the program terminates, and every final state has each array of the pipeline at what the
    library computes from the proof data and every other buffer the region does not move as the host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m Variants.none) (hA := A_eq m) (hin := hin m) (hout := hout m)

/-- The frame: the program runs to the end, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_ofD m ρ (dats m) (run_main m ρ)

end Cert.KernelIdeal.DB

end
-- ==== Proof.Spec.lean ====
/-
  The stencil that both programs compute, written once as a function of the two argument arrays.

  The output voxel (b, c, d, h, w) of a 64-cube receives, from each of the 26 neighbours of the voxel in the padded
  66-cube `x`, the neighbour's value times a per-voxel weight from `a`.  A neighbour is an offset (dz, dy, dx) in
  {0, 1, 2}^3 other than the centre (1, 1, 1); it is numbered k = 9 dz + 3 dy + dx, less one past the centre, and its
  weight is a[b, k, d, h, w].  The result is zero plus the 26 terms
      x[b, c, d + dz, h + dy, w + dx] * a[b, k, d, h, w],
  added one after another in some order of k.  One program adds them in increasing k, the other lets dz vary
  fastest; addition of extended reals is commutative and associative, also at the infinities, so the two sums agree.
-/
import Idealize.ShloMosaic.PureOps.Ideal
import Idealize.ShloMosaic.Lib.ValueIdx

noncomputable section

namespace Cert.Stencil

open Idealize.ShloMosaic Idealize.ShloMosaic.ValueIdx

/-- The padded feature array, the weight array and the result array. -/
abbrev SX : Shape := ⟨5, ![2, 32, 66, 66, 66]⟩
abbrev SA : Shape := ⟨5, ![2, 26, 64, 64, 64]⟩
abbrev SO : Shape := ⟨5, ![2, 32, 64, 64, 64]⟩

/-- Neighbour `k`'s position in the 27-point cube: the centre, position 13, is skipped. -/
def pos (k : Fin 26) : ℕ := if k.val < 13 then k.val else k.val + 1
/-- Its offsets along depth, height and width, each 0, 1 or 2. -/
def dz (k : Fin 26) : ℕ := pos k / 9
def dy (k : Fin 26) : ℕ := pos k / 3 % 3
def dx (k : Fin 26) : ℕ := pos k % 3

theorem pos_le (k : Fin 26) : pos k ≤ 26 := by unfold pos; split <;> omega
theorem dz_le (k : Fin 26) : dz k ≤ 2 := by have := pos_le k; unfold dz; omega
theorem dy_le (k : Fin 26) : dy k ≤ 2 := by unfold dy; omega
theorem dx_le (k : Fin 26) : dx k ≤ 2 := by unfold dx; omega

/-- A coordinate of the 64-cube moved by an offset of at most 2 into the padded 66-cube. -/
def shift (j : Fin 64) (o : ℕ) (ho : o ≤ 2) : Fin 66 := ⟨j.val + o, by have := j.isLt; omega⟩

/-- Neighbour `k`'s contribution to output voxel `i`. -/
def term (x : SX.Idx → EReal) (a : SA.Idx → EReal) (k : Fin 26) (i : SO.Idx) : EReal :=
  x (ix5 (i 0) (i 1) (shift (i 2) (dz k) (dz_le k)) (shift (i 3) (dy k) (dy_le k)) (shift (i 4) (dx k) (dx_le k)))
    * a (ix5 (i 0) k (i 2) (i 3) (i 4))

/-- Zero plus the contributions of the neighbours in `l`, added left to right. -/
def sumIn (l : List (Fin 26)) (x : SX.Idx → EReal) (a : SA.Idx → EReal) (i : SO.Idx) : EReal :=
  l.foldl (fun acc k => acc + term x a k i) 0

/-- Increasing neighbour number: depth offset slowest. -/
def byNumber : List (Fin 26) :=
  [0, 1, 2, 3, 4, 5, 6, 7, 8, 9, 10, 11, 12, 13, 14, 15, 16, 17, 18, 19, 20, 21, 22, 23, 24, 25]
/-- Height offset slowest, then width, depth fastest. -/
def depthFastest : List (Fin 26) :=
  [0, 9, 17, 1, 10, 18, 2, 11, 19, 3, 12, 20, 4, 21, 5, 13, 22, 6, 14, 23, 7, 15, 24, 8, 16, 25]

/-- The result with the neighbours added in increasing number, and with depth varying fastest. -/
def byNumberSum (x : SX.Idx → EReal) (a : SA.Idx → EReal) : SO.Idx → EReal := sumIn byNumber x a
def depthFastestSum (x : SX.Idx → EReal) (a : SA.Idx → EReal) : SO.Idx → EReal := sumIn depthFastest x a

end Cert.Stencil

end
-- ==== Proof.Terms.lean ====
/-
  Each neighbour's term by coordinates, and the sum in increasing neighbour number written out.

  The term of neighbour `k` at output voxel `i` is the product of one entry of `x` and one entry of `a`.  Which
  entries is a matter of coordinates only: the entry of `x` has `i`'s batch and channel, and `i`'s depth, height and
  width each moved by the neighbour's offset; the entry of `a` has `i`'s batch and position and the neighbour's
  number in place of the channel.  `term_of_coords` says this with every coordinate compared as a natural number,
  so that it applies to an index however it is written down.
-/
import proofs.«416960_j11115375362872_4_alg».proof.Proof.Spec

noncomputable section

namespace Cert.Stencil

open Idealize.ShloMosaic Idealize.ShloMosaic.ValueIdx

/-- Two indices of a five-axis array with the same five coordinates are the same index. -/
theorem idx_ext {n0 n1 n2 n3 n4 : ℕ} (j j' : (⟨5, ![n0, n1, n2, n3, n4]⟩ : Shape).Idx)
    (h0 : (j 0).val = (j' 0).val) (h1 : (j 1).val = (j' 1).val) (h2 : (j 2).val = (j' 2).val)
    (h3 : (j 3).val = (j' 3).val) (h4 : (j 4).val = (j' 4).val) : j = j' := by
  funext c
  match c with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

/-- An offset of zero leaves a coordinate where it is. -/
theorem at_zero (n : ℕ) : n = 0 + n := (Nat.zero_add n).symm

/-- Neighbour `k`'s term at `i` is `x` at the index whose batch and channel are `i`'s and whose depth, height and
    width are the offsets `oz`, `oy`, `ox` of `k` added to `i`'s, times `a` at the index whose channel is `k` and
    whose other coordinates are `i`'s. -/
theorem term_of_coords (x : SX.Idx → EReal) (a : SA.Idx → EReal) (k : Fin 26) (oz oy ox : ℕ)
    (hz : dz k = oz) (hy : dy k = oy) (hx : dx k = ox) (i : SO.Idx) (jx : SX.Idx) (ja : SA.Idx)
    (h0 : (jx 0).val = (i 0).val) (h1 : (jx 1).val = (i 1).val) (h2 : (jx 2).val = oz + (i 2).val)
    (h3 : (jx 3).val = oy + (i 3).val) (h4 : (jx 4).val = ox + (i 4).val)
    (g0 : (ja 0).val = (i 0).val) (g1 : (ja 1).val = k.val) (g2 : (ja 2).val = (i 2).val)
    (g3 : (ja 3).val = (i 3).val) (g4 : (ja 4).val = (i 4).val) :
    x jx * a ja = term x a k i := by
  subst hz hy hx
  unfold term
  congr 2
  · exact idx_ext _ _ h0 h1 (h2.trans (Nat.add_comm _ _)) (h3.trans (Nat.add_comm _ _)) (h4.trans (Nat.add_comm _ _))
  · exact idx_ext _ _ g0 g1 g2 g3 g4

/-- The same with the product added to a running sum `p`. -/
theorem add_term_of_coords (p : EReal) (x : SX.Idx → EReal) (a : SA.Idx → EReal) (k : Fin 26) (oz oy ox : ℕ)
    (hz : dz k = oz) (hy : dy k = oy) (hx : dx k = ox) (i : SO.Idx) (jx : SX.Idx) (ja : SA.Idx)
    (h0 : (jx 0).val = (i 0).val) (h1 : (jx 1).val = (i 1).val) (h2 : (jx 2).val = oz + (i 2).val)
    (h3 : (jx 3).val = oy + (i 3).val) (h4 : (jx 4).val = ox + (i 4).val)
    (g0 : (ja 0).val = (i 0).val) (g1 : (ja 1).val = k.val) (g2 : (ja 2).val = (i 2).val)
    (g3 : (ja 3).val = (i 3).val) (g4 : (ja 4).val = (i 4).val) :
    p + x jx * a ja = p + term x a k i :=
  congrArg (p + ·) (term_of_coords x a k oz oy ox hz hy hx i jx ja h0 h1 h2 h3 h4 g0 g1 g2 g3 g4)

/-- The sum in increasing neighbour number: zero, then the 26 terms added one after another. -/
theorem byNumberSum_apply (x : SX.Idx → EReal) (a : SA.Idx → EReal) (i : SO.Idx) :
    byNumberSum x a i =
      0 + term x a 0 i + term x a 1 i + term x a 2 i + term x a 3 i + term x a 4 i + term x a 5 i
        + term x a 6 i + term x a 7 i + term x a 8 i + term x a 9 i + term x a 10 i + term x a 11 i
        + term x a 12 i + term x a 13 i + term x a 14 i + term x a 15 i + term x a 16 i + term x a 17 i
        + term x a 18 i + term x a 19 i + term x a 20 i + term x a 21 i + term x a 22 i + term x a 23 i
        + term x a 24 i + term x a 25 i := rfl

end Cert.Stencil

end
-- ==== Proof.IdealArray.lean ====
/-
  From the output blocks to the result array, and through the host's reshape.

  The kernel writes its result as a flat array over (batch, channel, depth, position), a position being 64 times the
  height plus the width.  The grid has 16 points; point t handles batch t / 8 and depth tile t mod 8, and writes back
  one block: the 8 depth rows 8 (t mod 8) ... 8 (t mod 8) + 7 of batch t / 8, all 32 channels and all 4096 positions.
  Given that every point's block holds the stencil at the voxels it stands for (`PointFact`, taken as a hypothesis
  here), block t is block t of ONE function of the argument arrays, `flat`: the stencil read at (batch, channel,
  depth, position / 64, position mod 64).  The 16 blocks cover the array (depth row D of batch b lies in the block of
  point 8 b + D / 8), so the array ends holding `flat`.  The one host operation after the region reshapes the flat
  array to five axes; an entry (b, ch, D, h, w) of the reshaped array is the flat array's entry at position 64 h + w,
  because both have the same place in row-major order.  So the result is the stencil itself.
-/
import proofs.«416960_j11115375362872_4_alg».proof.Proof.IdealFrame
import proofs.«416960_j11115375362872_4_alg».proof.Proof.Spec
import proofs.«416960_j11115375362872_4_alg».proof.Proof.Terms
import Idealize.ShloMosaic.Lib.Pipeline.Value

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Stencil

variable (m : (ℓ : Loc nD τ sig) → Buf (Elt Ideal) ℓ) (ρ : Dev nD → PrngReg)

/-! ## The flat result array -/

/-- The stencil with height and width flattened into one position axis: position q stands for height q / 64 and
    width q mod 64. -/
def flat (x : SX.Idx → EReal) (a : SA.Idx → EReal) : S2x32x64x4096.Idx → EReal := fun j =>
  depthFastestSum x a (ix5 (j 0) (j 1) (j 2)
    (⟨(j 3).val / 64, by have h3 : (j 3).val < 4096 := (j 3).isLt; omega⟩ : Fin 64)
    (⟨(j 3).val % 64, by omega⟩ : Fin 64))

/-- At position 64 h + w the flat array is the stencil at height h and width w. -/
theorem flat_apply (x : SX.Idx → EReal) (a : SA.Idx → EReal) (b : Fin 2) (ch : Fin 32) (D : Fin 64) (h w : Fin 64)
    (hq : h.val * 64 + w.val < 4096) :
    flat x a (ix4 b ch D (⟨h.val * 64 + w.val, hq⟩ : Fin 4096)) = depthFastestSum x a (ix5 b ch D h w) := by
  have hw : w.val < 64 := w.isLt
  unfold flat
  exact congrArg (depthFastestSum x a) (idx_ext _ _ rfl rfl rfl
    (by show (h.val * 64 + w.val) / 64 = h.val; omega) (by show (h.val * 64 + w.val) % 64 = w.val; omega))

/-- What every point's output block holds after the body: at channel ch, depth row d of the tile and position
    64 h + w, the stencil at the point's batch, channel ch, depth 8 (t mod 8) + d, height h and width w. -/
def PointFact : Prop :=
  ∀ (c : Dev nD) (t : Fin cfg0.N) (ch : Fin 32) (d : Fin 8) (h w : Fin 64),
    outsAt m c t (ix4 (0 : Fin 1) ch d
        (⟨h.val * 64 + w.val, by have := h.isLt; have := w.isLt; omega⟩ : Fin 4096))
      = depthFastestSum (m ((c.tc : Thread nD τ).loc main_arg0)) (m ((c.tc : Thread nD τ).loc main_arg1))
          (ix5 (bat t.val) ch (⟨8 * (t.val % 8) + d.val, by have := d.isLt; omega⟩ : Fin 64) h w)

/-! ## The output window's blocks -/

/-- The block of point t begins at batch t / 8 and depth tile t mod 8, channel 0 and position 0. -/
theorem idx_facts : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

/-- The batch of point t, as a number. -/
theorem bat_val : ∀ t : Fin cfg0.N, (bat t.val).val = t.val / 8 :=
  (by decide +kernel : ∀ t : Fin grid0.N, _)

/-- Where an entry of point t's block lies in the array: batch t / 8, the same channel and position, and depth row
    8 (t mod 8) + d. -/
theorem emb_blk (t : Fin cfg0.N) (ch : Fin 32) (d : Fin 8) (q : Fin 4096) (hD : 8 * (t.val % 8) + d.val < 64) :
    ((cfg0.win 1).blk t).view.emb (ix4 (0 : Fin 1) ch d q)
      = ix4 (bat t.val) ch (⟨8 * (t.val % 8) + d.val, hD⟩ : Fin 64) q := by
  obtain ⟨e0, e1, e2, e3⟩ := idx_facts t
  have eb := bat_val t
  funext a; apply Fin.ext
  match a with
  | ⟨0, _⟩ => show win0_1.index t (0 : Fin 4) * 1 + 1 * 0 = (bat t.val).val; rw [e0, eb]; omega
  | ⟨1, _⟩ => show win0_1.index t (1 : Fin 4) * 32 + 1 * ch.val = ch.val; rw [e1]; omega
  | ⟨2, _⟩ => show win0_1.index t (2 : Fin 4) * 8 + 1 * d.val = 8 * (t.val % 8) + d.val; rw [e2]; omega
  | ⟨3, _⟩ => show win0_1.index t (3 : Fin 4) * 4096 + 1 * q.val = q.val; rw [e3]; omega

/-- An entry of point t's block, at position 64 h + w, is the flat array's entry where the block puts it. -/
theorem blk_at (hpt : PointFact m) (c : Dev nD) (t : Fin cfg0.N) (ch : Fin 32) (d : Fin 8) (h w : Fin 64)
    (hq : h.val * 64 + w.val < 4096) :
    outsAt m c t (ix4 (0 : Fin 1) ch d (⟨h.val * 64 + w.val, hq⟩ : Fin 4096))
      = flat (m ((c.tc : Thread nD τ).loc main_arg0)) (m ((c.tc : Thread nD τ).loc main_arg1))
          (((cfg0.win 1).blk t).view.emb (ix4 (0 : Fin 1) ch d (⟨h.val * 64 + w.val, hq⟩ : Fin 4096))) := by
  have hD : 8 * (t.val % 8) + d.val < 64 := by have := d.isLt; omega
  rw [emb_blk t ch d _ hD, flat_apply]
  exact hpt c t ch d h w

/-- What point t writes back is block t of the flat array. -/
theorem flushed_eq (hpt : PointFact m) (c : Dev nD) (t : Fin cfg0.N) :
    (dats m 0 c).flushed 1 t
      = ((cfg0.win 1).blk t).view.read (Elt Ideal) (flat (m ((c.tc : Thread nD τ).loc main_arg0)) (m ((c.tc : Thread nD τ).loc main_arg1))) := by
  show (cfg0.win 1).cut (grid0.coords t) ((dats m 0 c).after 1 t) = _
  rw [after0_1]
  refine funext fun (j : S1x32x8x4096.Idx) => ?_
  obtain ⟨z, ch, d, q, rfl⟩ : ∃ (z : Fin 1) (ch : Fin 32) (d : Fin 8) (q : Fin 4096), j = ix4 z ch d q :=
    ⟨j 0, j 1, j 2, j 3, eq_ix4 j⟩
  obtain rfl : z = 0 := Subsingleton.elim _ _
  have hq4 : q.val < 4096 := q.isLt
  have hh : q.val / 64 < 64 := by omega
  have hw : q.val % 64 < 64 := by omega
  have hq : (⟨q.val / 64, hh⟩ : Fin 64).val * 64 + (⟨q.val % 64, hw⟩ : Fin 64).val < 4096 := by
    show q.val / 64 * 64 + q.val % 64 < 4096; omega
  have key := blk_at m hpt c t ch d ⟨q.val / 64, hh⟩ ⟨q.val % 64, hw⟩ hq
  have hqe : (⟨(⟨q.val / 64, hh⟩ : Fin 64).val * 64 + (⟨q.val % 64, hw⟩ : Fin 64).val, hq⟩ : Fin 4096) = q :=
    Fin.ext (Nat.div_add_mod' q.val 64)
  rw [hqe] at key
  exact key

/-- An index of the array is in point t's block iff each coordinate is in the block's range on its axis. -/
theorem mem_blk (t : Fin cfg0.N) (i : S2x32x64x4096.Idx) :
    i ∈ ((cfg0.win 1).blk t).view.set ↔ ∀ a : Fin 4, win0_1.index t a * S1x32x8x4096.size a ≤ (i a).val
      ∧ (i a).val < win0_1.index t a * S1x32x8x4096.size a + S1x32x8x4096.size a := by
  show i ∈ ((View.whole main_v2).slice (win0_1.rect t)).set ↔ _
  rw [View.set_slice_whole, Rect.mem_set_unit]
  exact Iff.rfl

/-- Every index of the array lies in the block of a point that writes back: depth row D of batch b in the block of
    point 8 b + D / 8. -/
theorem covered (i : S2x32x64x4096.Idx) :
    ∃ t : Fin cfg0.N, (cfg0.win 1).flush t = true ∧ i ∈ ((cfg0.win 1).blk t).view.set := by
  have h0 : (i 0).val < 2 := (i 0).isLt
  have h1 : (i 1).val < 32 := (i 1).isLt
  have h2 : (i 2).val < 64 := (i 2).isLt
  have h3 : (i 3).val < 4096 := (i 3).isLt
  have hN : cfg0.N = 16 := N_0
  obtain ⟨t, tv⟩ : ∃ t : Fin cfg0.N, t.val = 8 * (i 0).val + (i 2).val / 8 :=
    ⟨⟨8 * (i 0).val + (i 2).val / 8, by rw [hN]; omega⟩, rfl⟩
  obtain ⟨e0, e1, e2, e3⟩ := idx_facts t
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    rw [e0, tv]; omega
  | ⟨1, _⟩ =>
    show win0_1.index t (1 : Fin 4) * 32 ≤ (i 1).val ∧ (i 1).val < win0_1.index t (1 : Fin 4) * 32 + 32
    rw [e1]; omega
  | ⟨2, _⟩ =>
    show win0_1.index t (2 : Fin 4) * 8 ≤ (i 2).val ∧ (i 2).val < win0_1.index t (2 : Fin 4) * 8 + 8
    rw [e2, tv]; omega
  | ⟨3, _⟩ =>
    show win0_1.index t (3 : Fin 4) * 4096 ≤ (i 3).val ∧ (i 3).val < win0_1.index t (3 : Fin 4) * 4096 + 4096
    rw [e3]; omega

/-- The array after the run is the flat array. -/
theorem final (hpt : PointFact m) (c : Dev nD) :
    (dats m 0 c).arrAt 1 cfg0.N = flat (m ((c.tc : Thread nD τ).loc main_arg0)) (m ((c.tc : Thread nD τ).loc main_arg1)) :=
  (dats m 0 c).arrAt_eq_of_cover 1 (flat (m ((c.tc : Thread nD τ).loc main_arg0)) (m ((c.tc : Thread nD τ).loc main_arg1)))
    (fun t _ => flushed_eq m hpt c t) covered

/-! ## Through the host's reshape -/

/-- The flat array reshaped to five axes is the stencil: entry (b, ch, D, h, w) and the flat entry at position
    64 h + w have the same place in row-major order. -/
theorem reshape_flat (x : SX.Idx → EReal) (a : SA.Idx → EReal)
    (hc : S2x32x64x4096.ShapeCasts S2x32x64x64x64) :
    shapeCast S2x32x64x64x64 (flat x a) hc = depthFastestSum x a := by
  refine funext fun (i : S2x32x64x64x64.Idx) => ?_
  obtain ⟨b, ch, D, h, w, rfl⟩ : ∃ (b : Fin 2) (ch : Fin 32) (D : Fin 64) (h w : Fin 64), i = ix5 b ch D h w :=
    ⟨i 0, i 1, i 2, i 3, i 4, eq_ix5 i⟩
  have hh : h.val < 64 := h.isLt
  have hw : w.val < 64 := w.isLt
  have hq : h.val * 64 + w.val < 4096 := by omega
  refine (shapeCast_apply (flat x a) hc (ix5 b ch D h w) (ix4 b ch D (⟨h.val * 64 + w.val, hq⟩ : Fin 4096)) ?_).trans
    (flat_apply x a b ch D h w hq)
  rw [Shape.rowMajor_val_four, Shape.rowMajor_val_five]
  show ((b.val * 32 + ch.val) * 64 + D.val) * 4096 + (h.val * 64 + w.val)
    = (((b.val * 32 + ch.val) * 64 + D.val) * 64 + h.val) * 64 + w.val
  omega

/-- The result array after the host's reshape is the stencil of the two arguments. -/
theorem tail_result (hpt : PointFact m) (c : Dev nD) :
    Pipeline.afterTail₀ cfgs (dats m) 0 (V0 m) [hostOps1] c main_v3
      = depthFastestSum (m ((c.tc : Thread nD τ).loc main_arg0)) (m ((c.tc : Thread nD τ).loc main_arg1)) := by
  unfold Pipeline.afterTail₀
  show StableHlo.after hostOps1 _ (Proc.devRef .tc main_v3) = _
  after_results
  show shapeCast S2x32x64x64x64
      (Pipeline.withArrays spec0 c (V0 m c) (fun w => (dats m 0 c).arrAt w cfg0.N) (Proc.devRef .tc (Pipeline.arrRef spec0 1)))
      shapeCasts_S2x32x64x4096_S2x32x64x64x64 = _
  rw [Pipeline.withArrays_arr spec0 launch0.win.arr_inj, final m hpt c]
  exact reshape_flat _ _ _

/-! ## The run -/

/-- Given what every point's block holds, every weakly fair execution of the kernel program ends with the result
    array at the stencil of the two argument arrays, depth varying fastest, and both arguments as launched. -/
theorem run_of_points (hpt : PointFact m) :
    θ_run defs (onTc (τ := τ) (main (F := Ideal))) ⟨m, fun _ => 0, ρ⟩ (fun r => ∀ c : Dev nD,
      r.2.mem ((c.tc : Thread nD τ).loc main_v3) = depthFastestSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (tail_result m hpt c),
       ((h c).2 main_arg0 (Pipeline.mem_restRefs_of main_arg0 (by decide) (by decide))).trans (W_main_arg0D m (dats m) c),
       ((h c).2 main_arg1 (Pipeline.mem_restRefs_of main_arg1 (by decide) (by decide))).trans (W_main_arg1D m (dats m) c)⟩)
    (run_main m ρ)

end Cert.KernelIdeal.DB

end
-- ==== Proof.IdealLoads.lean ====
/-
  The two kinds of value the body loads, named once for all three kinds of point: the waited slot read through the
  scratch's own memref after the copy's one whole write of the source window's rows, and one weight row of the tile's
  weight block.
-/
import proofs.«416960_j11115375362872_4_alg».proof.Proof.IdealFrame

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- What the body reads of the waited slot at point `t`: the scratch read at the slot's box, the slot holding the rows
    [8 i, 8 i + 10) of the point's batch of the padded array, written whole by the copy. -/
def slotLoad (c : Dev nD) (t : Fin cfg0.N) (fh : HbBuf (F := F) c hbM) : Vec F S1x32x10x66x128 .f32 :=
  View.readAt (Elt F) scM.view (Rect.unit (s := S2x32x10x66x128) (k0_off8 (grid0.coords t)) S1x32x10x66x128.size (k0_off8_inb (grid0.coords t))).toLoadRect
    ((rslot (Ring.sl 2 (t.val % 8))).view.writes (Elt F) (rslot (Ring.sl 2 (t.val % 8))).view.junk
      [⟨Rect.whole S32x10x66x128, ReadAs.same.apply (View.read (Elt F) (srcB (bat t.val) (Ring.bk 8 (t.val % 8))).view fh)⟩])

theorem inb_row (k : Fin 26) : ∀ a, (![0, k.val, 0, 0] : Fin 4 → Nat) a + S1x1x8x4096.size a ≤ S1x26x8x4096.size a := by
  have := k.isLt; intro a; fin_cases a <;> simp <;> omega
/-- Weight row `k` of the tile's weight block `x0`, as the body loads it from the block's staging buffer. -/
def weightRow (arg3 : Memref sig .tc .vmem S1x26x8x4096 .f32) (harg3 : arg3.IsWhole) (x0 : Vec F S1x26x8x4096 .f32) (k : Fin 26) : Vec F S1x1x8x4096 .f32 :=
  View.readAt (Elt F) arg3.view (Rect.unit (s := S1x26x8x4096) ![0, k.val, 0, 0] S1x1x8x4096.size (inb_row k)).toLoadRect (harg3.unread x0)

end Cert.KernelIdeal.DB

end
-- ==== Proof.IdealPayload1.lean ====
/-
  The values the kernel body stores into the output block, one after another, as pure functions.

  A grid point holds the feature rows of its tile, x[c, r, y, z] for channel c < 32, depth row r < 10, height y < 66 and
  width z < 128, and 26 weight rows a_k[d, h * 64 + w] for depth row d < 8 and h, w < 64.  The body first stores a block
  of zeros, indexed (c, d, h * 64 + w).  Then, for each neighbour k in the order in which the height offset varies
  slowest, the width offset next and the depth offset fastest, it reads the block back and stores
      old[c, d, h * 64 + w] + x[c, d + dz k, h + dy k, w + dx k] * a_k[d, h * 64 + w].
  The moved feature rows are cut out in two steps: a 64 x 64 window of the height and width axes at (dy k, dx k),
  flattened to 4096 columns, and then eight of its ten depth rows starting at dz k.

  Here each of the 27 stored values is named as a function of the tile's feature rows, the weight row it uses and the
  block read back, composed from the generated payload terms exactly as the body passes them along; `chain` is the last
  stored value as a function of the feature rows and the 26 weight rows.
-/
import proofs.«416960_j11115375362872_4_alg».proof.Proof.Gen.KernelIdeal.Skeleton
import proofs.«416960_j11115375362872_4_alg».proof.Proof.Spec

noncomputable section

namespace Cert.KernelIdeal.Pay

open Idealize.ShloMosaic
open Cert.KernelIdeal Cert.KernelIdeal.Gen

variable {F : FTy → Type} [FloatOps F]

/-- Store 1 of 27: the block of zeros. -/
def acc0 : FVec F S1x32x8x4096 .f32 := k0_pay5 (k0_pay4 (F := F))

/-- Store 2 of 27: the previous block plus neighbour 0 (depth offset 0, height offset 0, width offset 0):
    the feature rows moved by that offset, times weight row 0. -/
def acc1 (v26 : Vec F S1x32x10x66x128 .f32) (a : Vec F S1x1x8x4096 .f32) (prev : Vec F S1x32x8x4096 .f32) :
    FVec F S1x32x8x4096 .f32 :=
  k0_pay7 (k0_pay3 v26) a prev

/-- Store 3 of 27: the previous block plus neighbour 9 (depth offset 1, height offset 0, width offset 0):
    the feature rows moved by that offset, times weight row 9. -/
def acc2 (v26 : Vec F S1x32x10x66x128 .f32) (a : Vec F S1x1x8x4096 .f32) (prev : Vec F S1x32x8x4096 .f32) :
    FVec F S1x32x8x4096 .f32 :=
  k0_pay8 (k0_pay3 v26) a prev

/-- Store 4 of 27: the previous block plus neighbour 17 (depth offset 2, height offset 0, width offset 0):
    the feature rows moved by that offset, times weight row 17. -/
def acc3 (v26 : Vec F S1x32x10x66x128 .f32) (a : Vec F S1x1x8x4096 .f32) (prev : Vec F S1x32x8x4096 .f32) :
    FVec F S1x32x8x4096 .f32 :=
  k0_pay10 (k0_pay9 (k0_pay3 v26)) a prev

/-- Store 5 of 27: the previous block plus neighbour 1 (depth offset 0, height offset 0, width offset 1):
    the feature rows moved by that offset, times weight row 1. -/
def acc4 (v26 : Vec F S1x32x10x66x128 .f32) (a : Vec F S1x1x8x4096 .f32) (prev : Vec F S1x32x8x4096 .f32) :
    FVec F S1x32x8x4096 .f32 :=
  k0_pay12 (k0_pay3 v26) a prev

/-- Store 6 of 27: the previous block plus neighbour 10 (depth offset 1, height offset 0, width offset 1):
    the feature rows moved by that offset, times weight row 10. -/
def acc5 (v26 : Vec F S1x32x10x66x128 .f32) (a : Vec F S1x1x8x4096 .f32) (prev : Vec F S1x32x8x4096 .f32) :
    FVec F S1x32x8x4096 .f32 :=
  k0_pay16 (k0_pay13 (k0_pay3 v26)) (k0_pay14 prev) (k0_pay15 a)

/-- Store 7 of 27: the previous block plus neighbour 18 (depth offset 2, height offset 0, width offset 1):
    the feature rows moved by that offset, times weight row 18. -/
def acc6 (v26 : Vec F S1x32x10x66x128 .f32) (a : Vec F S1x1x8x4096 .f32) (prev : Vec F S1x32x8x4096 .f32) :
    FVec F S1x32x8x4096 .f32 :=
  k0_pay17 (k0_pay11 (k0_pay3 v26)) a prev

/-- Store 8 of 27: the previous block plus neighbour 2 (depth offset 0, height offset 0, width offset 2):
    the feature rows moved by that offset, times weight row 2. -/
def acc7 (v26 : Vec F S1x32x10x66x128 .f32) (a : Vec F S1x1x8x4096 .f32) (prev : Vec F S1x32x8x4096 .f32) :
    FVec F S1x32x8x4096 .f32 :=
  k0_pay19 (k0_pay3 v26) a prev

/-- Store 9 of 27: the previous block plus neighbour 11 (depth offset 1, height offset 0, width offset 2):
    the feature rows moved by that offset, times weight row 11. -/
def acc8 (v26 : Vec F S1x32x10x66x128 .f32) (a : Vec F S1x1x8x4096 .f32) (prev : Vec F S1x32x8x4096 .f32) :
    FVec F S1x32x8x4096 .f32 :=
  k0_pay20 (k0_pay18 (k0_pay3 v26)) a prev

/-- Store 10 of 27: the previous block plus neighbour 19 (depth offset 2, height offset 0, width offset 2):
    the feature rows moved by that offset, times weight row 19. -/
def acc9 (v26 : Vec F S1x32x10x66x128 .f32) (a : Vec F S1x1x8x4096 .f32) (prev : Vec F S1x32x8x4096 .f32) :
    FVec F S1x32x8x4096 .f32 :=
  k0_pay21 (k0_pay18 (k0_pay3 v26)) a prev

/-- Store 11 of 27: the previous block plus neighbour 3 (depth offset 0, height offset 1, width offset 0):
    the feature rows moved by that offset, times weight row 3. -/
def acc10 (v26 : Vec F S1x32x10x66x128 .f32) (a : Vec F S1x1x8x4096 .f32) (prev : Vec F S1x32x8x4096 .f32) :
    FVec F S1x32x8x4096 .f32 :=
  k0_pay25 (k0_pay23 (k0_pay3 v26)) (k0_pay24 a) prev

/-- Store 12 of 27: the previous block plus neighbour 12 (depth offset 1, height offset 1, width offset 0):
    the feature rows moved by that offset, times weight row 12. -/
def acc11 (v26 : Vec F S1x32x10x66x128 .f32) (a : Vec F S1x1x8x4096 .f32) (prev : Vec F S1x32x8x4096 .f32) :
    FVec F S1x32x8x4096 .f32 :=
  k0_pay26 (k0_pay22 (k0_pay3 v26)) a prev

/-- Store 13 of 27: the previous block plus neighbour 20 (depth offset 2, height offset 1, width offset 0):
    the feature rows moved by that offset, times weight row 20. -/
def acc12 (v26 : Vec F S1x32x10x66x128 .f32) (a : Vec F S1x1x8x4096 .f32) (prev : Vec F S1x32x8x4096 .f32) :
    FVec F S1x32x8x4096 .f32 :=
  k0_pay28 (k0_pay27 (k0_pay22 (k0_pay3 v26)) a prev)

/-- Store 14 of 27: the previous block plus neighbour 4 (depth offset 0, height offset 1, width offset 1):
    the feature rows moved by that offset, times weight row 4. -/
def acc13 (v26 : Vec F S1x32x10x66x128 .f32) (a : Vec F S1x1x8x4096 .f32) (prev : Vec F S1x32x8x4096 .f32) :
    FVec F S1x32x8x4096 .f32 :=
  k0_pay30 (k0_pay3 v26) a prev

/-- Store 15 of 27: the previous block plus neighbour 21 (depth offset 2, height offset 1, width offset 1):
    the feature rows moved by that offset, times weight row 21. -/
def acc14 (v26 : Vec F S1x32x10x66x128 .f32) (a : Vec F S1x1x8x4096 .f32) (prev : Vec F S1x32x8x4096 .f32) :
    FVec F S1x32x8x4096 .f32 :=
  k0_pay31 (k0_pay3 v26) a prev

/-- Store 16 of 27: the previous block plus neighbour 5 (depth offset 0, height offset 1, width offset 2):
    the feature rows moved by that offset, times weight row 5. -/
def acc15 (v26 : Vec F S1x32x10x66x128 .f32) (a : Vec F S1x1x8x4096 .f32) (prev : Vec F S1x32x8x4096 .f32) :
    FVec F S1x32x8x4096 .f32 :=
  k0_pay34 (k0_pay33 (k0_pay3 v26)) a prev

/-- Store 17 of 27: the previous block plus neighbour 13 (depth offset 1, height offset 1, width offset 2):
    the feature rows moved by that offset, times weight row 13. -/
def acc16 (v26 : Vec F S1x32x10x66x128 .f32) (a : Vec F S1x1x8x4096 .f32) (prev : Vec F S1x32x8x4096 .f32) :
    FVec F S1x32x8x4096 .f32 :=
  k0_pay35 (k0_pay32 (k0_pay3 v26)) a prev

/-- Store 18 of 27: the previous block plus neighbour 22 (depth offset 2, height offset 1, width offset 2):
    the feature rows moved by that offset, times weight row 22. -/
def acc17 (v26 : Vec F S1x32x10x66x128 .f32) (a : Vec F S1x1x8x4096 .f32) (prev : Vec F S1x32x8x4096 .f32) :
    FVec F S1x32x8x4096 .f32 :=
  k0_pay37 (k0_pay36 (k0_pay32 (k0_pay3 v26)) a prev)

/-- Store 19 of 27: the previous block plus neighbour 6 (depth offset 0, height offset 2, width offset 0):
    the feature rows moved by that offset, times weight row 6. -/
def acc18 (v26 : Vec F S1x32x10x66x128 .f32) (a : Vec F S1x1x8x4096 .f32) (prev : Vec F S1x32x8x4096 .f32) :
    FVec F S1x32x8x4096 .f32 :=
  k0_pay39 (k0_pay3 v26) a prev

/-- Store 20 of 27: the previous block plus neighbour 14 (depth offset 1, height offset 2, width offset 0):
    the feature rows moved by that offset, times weight row 14. -/
def acc19 (v26 : Vec F S1x32x10x66x128 .f32) (a : Vec F S1x1x8x4096 .f32) (prev : Vec F S1x32x8x4096 .f32) :
    FVec F S1x32x8x4096 .f32 :=
  k0_pay40 (k0_pay3 v26) a prev

/-- Store 21 of 27: the previous block plus neighbour 23 (depth offset 2, height offset 2, width offset 0):
    the feature rows moved by that offset, times weight row 23. -/
def acc20 (v26 : Vec F S1x32x10x66x128 .f32) (a : Vec F S1x1x8x4096 .f32) (prev : Vec F S1x32x8x4096 .f32) :
    FVec F S1x32x8x4096 .f32 :=
  k0_pay42 (k0_pay41 (k0_pay3 v26)) a prev

/-- Store 22 of 27: the previous block plus neighbour 7 (depth offset 0, height offset 2, width offset 1):
    the feature rows moved by that offset, times weight row 7. -/
def acc21 (v26 : Vec F S1x32x10x66x128 .f32) (a : Vec F S1x1x8x4096 .f32) (prev : Vec F S1x32x8x4096 .f32) :
    FVec F S1x32x8x4096 .f32 :=
  k0_pay44 (k0_pay3 v26) a prev

/-- Store 23 of 27: the previous block plus neighbour 15 (depth offset 1, height offset 2, width offset 1):
    the feature rows moved by that offset, times weight row 15. -/
def acc22 (v26 : Vec F S1x32x10x66x128 .f32) (a : Vec F S1x1x8x4096 .f32) (prev : Vec F S1x32x8x4096 .f32) :
    FVec F S1x32x8x4096 .f32 :=
  k0_pay48 (k0_pay45 (k0_pay3 v26)) (k0_pay46 prev) (k0_pay47 a)

/-- Store 24 of 27: the previous block plus neighbour 24 (depth offset 2, height offset 2, width offset 1):
    the feature rows moved by that offset, times weight row 24. -/
def acc23 (v26 : Vec F S1x32x10x66x128 .f32) (a : Vec F S1x1x8x4096 .f32) (prev : Vec F S1x32x8x4096 .f32) :
    FVec F S1x32x8x4096 .f32 :=
  k0_pay49 (k0_pay43 (k0_pay3 v26)) a prev

/-- Store 25 of 27: the previous block plus neighbour 8 (depth offset 0, height offset 2, width offset 2):
    the feature rows moved by that offset, times weight row 8. -/
def acc24 (v26 : Vec F S1x32x10x66x128 .f32) (a : Vec F S1x1x8x4096 .f32) (prev : Vec F S1x32x8x4096 .f32) :
    FVec F S1x32x8x4096 .f32 :=
  k0_pay51 (k0_pay3 v26) a prev

/-- Store 26 of 27: the previous block plus neighbour 16 (depth offset 1, height offset 2, width offset 2):
    the feature rows moved by that offset, times weight row 16. -/
def acc25 (v26 : Vec F S1x32x10x66x128 .f32) (a : Vec F S1x1x8x4096 .f32) (prev : Vec F S1x32x8x4096 .f32) :
    FVec F S1x32x8x4096 .f32 :=
  k0_pay1 (k0_pay50 (k0_pay3 v26)) a prev

/-- Store 27 of 27: the previous block plus neighbour 25 (depth offset 2, height offset 2, width offset 2):
    the feature rows moved by that offset, times weight row 25. -/
def acc26 (v26 : Vec F S1x32x10x66x128 .f32) (a : Vec F S1x1x8x4096 .f32) (prev : Vec F S1x32x8x4096 .f32) :
    FVec F S1x32x8x4096 .f32 :=
  k0_pay2 (k0_pay50 (k0_pay3 v26)) a prev

/-- The last stored value: the 26 neighbours added to the zero block in the body's order.  The weight rows are indexed by
    neighbour number. -/
def chain (v26 : Vec F S1x32x10x66x128 .f32) (a : Fin 26 → Vec F S1x1x8x4096 .f32) : FVec F S1x32x8x4096 .f32 :=
  acc26 v26 (a 25) (acc25 v26 (a 16) (acc24 v26 (a 8) (acc23 v26 (a 24) (acc22 v26 (a 15) (acc21 v26 (a 7) (acc20 v26 (a 23) (acc19 v26 (a 14) (acc18 v26 (a 6) (acc17 v26 (a 22) (acc16 v26 (a 13) (acc15 v26 (a 5) (acc14 v26 (a 21) (acc13 v26 (a 4) (acc12 v26 (a 20) (acc11 v26 (a 12) (acc10 v26 (a 3) (acc9 v26 (a 19) (acc8 v26 (a 11) (acc7 v26 (a 2) (acc6 v26 (a 18) (acc5 v26 (a 10) (acc4 v26 (a 1) (acc3 v26 (a 17) (acc2 v26 (a 9) (acc1 v26 (a 0) (acc0))))))))))))))))))))))))))

end Cert.KernelIdeal.Pay

end
-- ==== Proof.IdealPieces.lean ====
/-
  What each kind of point leaves in the output block is the body's chain of twenty-seven stored values at the point's
  loaded slot and weight rows.  The stores all write the whole block, so the block's final contents are the last stored
  value, and each read-back between two stores returns the value stored just before.
-/
import proofs.«416960_j11115375362872_4_alg».proof.Proof.IdealLoads
import proofs.«416960_j11115375362872_4_alg».proof.Proof.IdealPayload1
import Idealize.ShloMosaic.Lib.Pipeline.Value

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The box of every store and read-back of the output block starts at the origin. -/
theorem origin4 : (![0, 0, 0, 0] : Fin 4 → ℕ) = fun _ => 0 := by
  funext a; fin_cases a <;> rfl

/-- A read of the whole block after a list of stores whose last one wrote the whole block returns that store's value. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 4000000 in
theorem outA_eq (c : Dev nD) (t : Fin cfg0.N) (arg3 : Memref sig .tc .vmem S1x26x8x4096 .f32) (harg3 : arg3.IsWhole) (arg4 : Memref sig .tc .vmem S1x32x8x4096 .f32) (harg4 : arg4.IsWhole) (hc0 : condFirst (grid0.coords t)) (hc1 : condMore (grid0.coords t))
    (x0 : Vec F S1x26x8x4096 .f32) (fh : HbBuf (F := F) c hbM) :
    outA c t arg3 harg3 arg4 harg4 hc0 hc1 x0 fh = Pay.chain (slotLoad c t fh) (weightRow arg3 harg3 x0) := by
  unfold outA
  rw [View.read_writes_eq_canon _ _ _ (coverA c t arg3 harg3 arg4 harg4 hc0 hc1 x0 fh)]
  unfold kernelRunA
  dsimp only
  sl_unfold_run_names
  simp only [View.canon_cons_unit_zero (S := S1x32x8x4096) origin4, readCov_cons_whole (S := S1x32x8x4096) _ origin4,
    View.readCov_unit_zero (S := S1x32x8x4096) _ origin4]
  rfl

set_option maxHeartbeats 4000000 in
theorem outB_eq (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : condMore (grid0.coords t))
    (x0 : Vec F S1x26x8x4096 .f32) (fh : HbBuf (F := F) c hbM) :
    outB c t arg3 harg3 arg4 harg4 hc0 hc1 x0 fh = Pay.chain (slotLoad c t fh) (weightRow arg3 harg3 x0) := by
  unfold outB
  rw [View.read_writes_eq_canon _ _ _ (coverB c t arg3 harg3 arg4 harg4 hc0 hc1 x0 fh)]
  unfold kernelRunB
  dsimp only
  sl_unfold_run_names
  simp only [View.canon_cons_unit_zero (S := S1x32x8x4096) origin4, readCov_cons_whole (S := S1x32x8x4096) _ origin4,
    View.readCov_unit_zero (S := S1x32x8x4096) _ origin4]
  rfl

set_option maxHeartbeats 4000000 in
theorem outC_eq (c : Dev nD) (t : Fin cfg0.N) (arg3 : Memref sig .tc .vmem S1x26x8x4096 .f32) (harg3 : arg3.IsWhole) (arg4 : Memref sig .tc .vmem S1x32x8x4096 .f32) (harg4 : arg4.IsWhole) (hc0 : ¬condFirst (grid0.coords t)) (hc1 : ¬condMore (grid0.coords t))
    (x0 : Vec F S1x26x8x4096 .f32) (fh : HbBuf (F := F) c hbM) :
    outC c t arg3 harg3 arg4 harg4 hc0 hc1 x0 fh = Pay.chain (slotLoad c t fh) (weightRow arg3 harg3 x0) := by
  unfold outC
  rw [View.read_writes_eq_canon _ _ _ (coverC c t arg3 harg3 arg4 harg4 hc0 hc1 x0 fh)]
  unfold kernelRunC
  dsimp only
  sl_unfold_run_names
  simp only [View.canon_cons_unit_zero (S := S1x32x8x4096) origin4, readCov_cons_whole (S := S1x32x8x4096) _ origin4,
    View.readCov_unit_zero (S := S1x32x8x4096) _ origin4]
  rfl

end Cert.KernelIdeal.DB

end
-- ==== Proof.IdealPayload2.lean ====
/-
  One store of the kernel body read at an output position.

  Every store after the first has the same form.  With x the tile's feature rows (channel, depth row 0..9, height 0..65,
  width 0..127), a one weight row (depth row 0..7, flattened position 0..4095) and old the block read back, the stored
  block is
      old + window * row,
  where `window` is x cut to the 64 x 64 height-width window at (oy, ox), flattened so that position h * 64 + w stands
  for (h, w), and then cut to the eight depth rows from oz on, and `row` is the weight row repeated over the 32
  channels.  Read at channel c, depth row d and position h * 64 + w this is
      old[c, d, h * 64 + w] + x[c, d + oz, h + oy, w + ox] * a[d, h * 64 + w].
  The only arithmetic is the flattening: ((c * 10 + r) * 64 + h) * 64 + w = (c * 10 + r) * 4096 + (h * 64 + w).
-/
import proofs.«416960_j11115375362872_4_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal Cert.KernelIdeal.Gen

/-- Position h * 64 + w of the flattened 64 x 64 plane. -/
def flat (h w : Fin 64) : Fin 4096 := ⟨h.val * 64 + w.val, by have := h.isLt; have := w.isLt; omega⟩

/-- A depth row of the output block moved by an offset of at most 2 into the tile's ten rows, and a height or width
    coordinate moved by such an offset into the tile's 66 rows and 128 columns. -/
def rowAt (d : Fin 8) (o : ℕ) (ho : o ≤ 2) : Fin 10 := ⟨d.val + o, by have := d.isLt; omega⟩
def heightAt (h : Fin 64) (o : ℕ) (ho : o ≤ 2) : Fin 66 := ⟨h.val + o, by have := h.isLt; omega⟩
def widthAt (w : Fin 64) (o : ℕ) (ho : o ≤ 2) : Fin 128 := ⟨w.val + o, by have := w.isLt; omega⟩

section Generic

variable {F : FTy → Type} [FloatOps F]

/-- The block stored for a neighbour at offsets (oz, oy, ox): the block read back plus the moved window of the feature
    rows times the weight row. -/
def step (oz oy ox : ℕ) (hz : S32x10x4096.Slices ![0, oz, 0] S32x8x4096)
    (hyx : S32x10x66x128.Slices ![0, 0, oy, ox] S32x10x64x64)
    (v26 : Vec F S1x32x10x66x128 .f32) (a : Vec F S1x1x8x4096 .f32) (prev : Vec F S1x32x8x4096 .f32) :
    FVec F S1x32x8x4096 .f32 :=
  shapeCast S1x32x8x4096
    (addf (shapeCast S32x8x4096 prev shapeCasts_S1x32x8x4096_S32x8x4096)
      (mulf
        (extractStridedSlice S32x8x4096 ![0, oz, 0]
          (shapeCast S32x10x4096
            (extractStridedSlice S32x10x64x64 ![0, 0, oy, ox]
              (shapeCast S32x10x66x128 v26 shapeCasts_S1x32x10x66x128_S32x10x66x128) hyx)
            shapeCasts_S32x10x64x64_S32x10x4096) hz)
        (broadcastTo S32x8x4096 (shapeCast S1x8x4096 a shapeCasts_S1x1x8x4096_S1x8x4096)
          broadcasts_S1x8x4096_S32x8x4096)))
    shapeCasts_S32x8x4096_S1x32x8x4096

end Generic

/-! ## The layout operations of a store, each read at coordinates -/

/-- The tile's feature rows without their leading unit axis. -/
theorem rows_apply (v26 : Vec Ideal S1x32x10x66x128 .f32) (c : Fin 32) (r : Fin 10) (y : Fin 66) (z : Fin 128) :
    shapeCast S32x10x66x128 v26 shapeCasts_S1x32x10x66x128_S32x10x66x128 (ix4 c r y z)
      = v26 (ix5 (0 : Fin 1) c r y z) :=
  shapeCast_apply v26 _ _ _ (by
    rw [Shape.rowMajor_val_five, Shape.rowMajor_val_four]
    show ((((0 * 32 + c.val) * 10 + r.val) * 66 + y.val) * 128 + z.val) = ((c.val * 10 + r.val) * 66 + y.val) * 128 + z.val
    rw [Nat.zero_mul, Nat.zero_add])

/-- The 64 x 64 window at (oy, ox) of the height and width axes. -/
theorem window_apply (oy ox : ℕ) (hyx : S32x10x66x128.Slices ![0, 0, oy, ox] S32x10x64x64) (hy : oy ≤ 2) (hx : ox ≤ 2)
    (X : FVec Ideal S32x10x66x128 .f32) (c : Fin 32) (r : Fin 10) (h w : Fin 64) :
    extractStridedSlice S32x10x64x64 ![0, 0, oy, ox] X hyx (ix4 c r h w) = X (ix4 c r (heightAt h oy hy) (widthAt w ox hx)) :=
  extractStridedSlice_apply _ _ _ _ _ (fun ax => by
    match ax with
    | ⟨0, _⟩ => exact (Nat.zero_add _).symm
    | ⟨1, _⟩ => exact (Nat.zero_add _).symm
    | ⟨2, _⟩ => exact Nat.add_comm _ _
    | ⟨3, _⟩ => exact Nat.add_comm _ _)

/-- The window's plane flattened: position h * 64 + w stands for (h, w). -/
theorem flatten_apply (Y : FVec Ideal S32x10x64x64 .f32) (c : Fin 32) (r : Fin 10) (h w : Fin 64) :
    shapeCast S32x10x4096 Y shapeCasts_S32x10x64x64_S32x10x4096 (ix3 c r (flat h w)) = Y (ix4 c r h w) :=
  shapeCast_apply Y _ _ _ (by
    rw [Shape.rowMajor_val_four, Shape.rowMajor_val_three]
    show ((c.val * 10 + r.val) * 64 + h.val) * 64 + w.val = (c.val * 10 + r.val) * 4096 + (h.val * 64 + w.val)
    omega)

/-- Eight depth rows from oz on. -/
theorem depth_apply (oz : ℕ) (hz : S32x10x4096.Slices ![0, oz, 0] S32x8x4096) (ho : oz ≤ 2)
    (Z : FVec Ideal S32x10x4096 .f32) (c : Fin 32) (d : Fin 8) (p : Fin 4096) :
    extractStridedSlice S32x8x4096 ![0, oz, 0] Z hz (ix3 c d p) = Z (ix3 c (rowAt d oz ho) p) :=
  slice3_axis1_apply oz Z hz c d p (rowAt d oz ho) (Nat.add_comm _ _)

/-- The weight row repeated over the channels. -/
theorem row_apply (a : Vec Ideal S1x1x8x4096 .f32) (c : Fin 32) (d : Fin 8) (p : Fin 4096) :
    broadcastTo S32x8x4096 (shapeCast S1x8x4096 a shapeCasts_S1x1x8x4096_S1x8x4096) broadcasts_S1x8x4096_S32x8x4096
      (ix3 c d p) = a (ix4 (0 : Fin 1) (0 : Fin 1) d p) := by
  refine (broadcastTo_apply _ _ (ix3 c d p) (ix3 (0 : Fin 1) d p) (fun ax => ?_)).trans ?_
  · match ax with
    | ⟨0, _⟩ => rfl
    | ⟨1, _⟩ => rfl
    | ⟨2, _⟩ => rfl
  · exact shapeCast_1abc_abc_apply a _ (0 : Fin 1) d p

/-- One store at an output position: the old value plus the moved feature value times the weight. -/
theorem step_apply (oz oy ox : ℕ) (hz : S32x10x4096.Slices ![0, oz, 0] S32x8x4096)
    (hyx : S32x10x66x128.Slices ![0, 0, oy, ox] S32x10x64x64) (ho : oz ≤ 2) (hy : oy ≤ 2) (hx : ox ≤ 2)
    (v26 : Vec Ideal S1x32x10x66x128 .f32) (a : Vec Ideal S1x1x8x4096 .f32) (prev : Vec Ideal S1x32x8x4096 .f32)
    (c : Fin 32) (d : Fin 8) (h w : Fin 64) :
    step (F := Ideal) oz oy ox hz hyx v26 a prev (ix4 (0 : Fin 1) c d (flat h w))
      = prev (ix4 (0 : Fin 1) c d (flat h w))
        + v26 (ix5 (0 : Fin 1) c (rowAt d oz ho) (heightAt h oy hy) (widthAt w ox hx))
          * a (ix4 (0 : Fin 1) (0 : Fin 1) d (flat h w)) := by
  unfold step
  rw [shapeCast_abc_1abc_apply, addf_apply, mulf_apply, shapeCast_1abc_abc_apply, row_apply,
    depth_apply oz hz ho, flatten_apply, window_apply oy ox hyx hy hx, rows_apply]

/-- The first store: the zero word everywhere. -/
theorem zeroBlock_apply (c : Fin 32) (d : Fin 8) (p : Fin 4096) :
    k0_pay5 (k0_pay4 (F := Ideal)) (ix4 (0 : Fin 1) c d p) = 0 := by
  unfold k0_pay5 k0_pay4
  rw [shapeCast_abc_1abc_apply]
  exact Ideal.ofBits_zero_f32

end Cert.KernelIdeal.Pay

end
-- ==== Proof.IdealPayload.lean ====
/-
  The kernel body's last stored block, read at an output position, is the sum of the 26 neighbour terms.

  Store J + 1 of the body adds neighbour k_J's term to the block stored before it, where k_1, ..., k_26 is the order in
  which the height offset varies slowest, the width offset next and the depth offset fastest.  Read at channel c, depth
  row d and position h * 64 + w, the first store gives 0 and each later one gives
      old + x[c, d + dz k, h + dy k, w + dx k] * a_k[d, h * 64 + w],
  so the last block is the left fold of these additions over the list of neighbours in that order, starting from 0.
-/
import proofs.«416960_j11115375362872_4_alg».proof.Proof.IdealPayload1
import proofs.«416960_j11115375362872_4_alg».proof.Proof.IdealPayload2

noncomputable section

namespace Cert.KernelIdeal.Pay

open Idealize.ShloMosaic Idealize.ShloMosaic.ValueIdx
open Cert.KernelIdeal Cert.KernelIdeal.Gen
open Cert.Stencil (dz dy dx dz_le dy_le dx_le depthFastest)

/-- The feature value that neighbour k contributes at channel c, depth row d, height h and width w of the output block:
    the tile's feature rows at the position moved by k's offsets. -/
def feat (v26 : Vec Ideal S1x32x10x66x128 .f32) (c : Fin 32) (d : Fin 8) (h w : Fin 64) (k : Fin 26) : EReal :=
  v26 (ix5 (0 : Fin 1) c (rowAt d (dz k) (dz_le k)) (heightAt h (dy k) (dy_le k)) (widthAt w (dx k) (dx_le k)))

/-- Store 1: zero at every position. -/
theorem acc0_apply (c : Fin 32) (d : Fin 8) (p : Fin 4096) : acc0 (F := Ideal) (ix4 (0 : Fin 1) c d p) = 0 :=
  zeroBlock_apply c d p

/-- Store 2: neighbour 0, offsets (0, 0, 0). -/
theorem acc1_apply (v26 : Vec Ideal S1x32x10x66x128 .f32) (a : Vec Ideal S1x1x8x4096 .f32)
    (prev : Vec Ideal S1x32x8x4096 .f32) (c : Fin 32) (d : Fin 8) (h w : Fin 64) :
    acc1 (F := Ideal) v26 a prev (ix4 (0 : Fin 1) c d (flat h w))
      = prev (ix4 (0 : Fin 1) c d (flat h w)) + feat v26 c d h w 0 * a (ix4 (0 : Fin 1) (0 : Fin 1) d (flat h w)) :=
  step_apply 0 0 0 slices_S32x10x4096_o0_0_0_S32x8x4096 slices_S32x10x66x128_o0_0_0_0_S32x10x64x64
    (by omega) (by omega) (by omega) v26 a prev c d h w

/-- Store 3: neighbour 9, offsets (1, 0, 0). -/
theorem acc2_apply (v26 : Vec Ideal S1x32x10x66x128 .f32) (a : Vec Ideal S1x1x8x4096 .f32)
    (prev : Vec Ideal S1x32x8x4096 .f32) (c : Fin 32) (d : Fin 8) (h w : Fin 64) :
    acc2 (F := Ideal) v26 a prev (ix4 (0 : Fin 1) c d (flat h w))
      = prev (ix4 (0 : Fin 1) c d (flat h w)) + feat v26 c d h w 9 * a (ix4 (0 : Fin 1) (0 : Fin 1) d (flat h w)) :=
  step_apply 1 0 0 slices_S32x10x4096_o0_1_0_S32x8x4096 slices_S32x10x66x128_o0_0_0_0_S32x10x64x64
    (by omega) (by omega) (by omega) v26 a prev c d h w

/-- Store 4: neighbour 17, offsets (2, 0, 0). -/
theorem acc3_apply (v26 : Vec Ideal S1x32x10x66x128 .f32) (a : Vec Ideal S1x1x8x4096 .f32)
    (prev : Vec Ideal S1x32x8x4096 .f32) (c : Fin 32) (d : Fin 8) (h w : Fin 64) :
    acc3 (F := Ideal) v26 a prev (ix4 (0 : Fin 1) c d (flat h w))
      = prev (ix4 (0 : Fin 1) c d (flat h w)) + feat v26 c d h w 17 * a (ix4 (0 : Fin 1) (0 : Fin 1) d (flat h w)) :=
  step_apply 2 0 0 slices_S32x10x4096_o0_2_0_S32x8x4096 slices_S32x10x66x128_o0_0_0_0_S32x10x64x64
    (by omega) (by omega) (by omega) v26 a prev c d h w

/-- Store 5: neighbour 1, offsets (0, 0, 1). -/
theorem acc4_apply (v26 : Vec Ideal S1x32x10x66x128 .f32) (a : Vec Ideal S1x1x8x4096 .f32)
    (prev : Vec Ideal S1x32x8x4096 .f32) (c : Fin 32) (d : Fin 8) (h w : Fin 64) :
    acc4 (F := Ideal) v26 a prev (ix4 (0 : Fin 1) c d (flat h w))
      = prev (ix4 (0 : Fin 1) c d (flat h w)) + feat v26 c d h w 1 * a (ix4 (0 : Fin 1) (0 : Fin 1) d (flat h w)) :=
  step_apply 0 0 1 slices_S32x10x4096_o0_0_0_S32x8x4096 slices_S32x10x66x128_o0_0_0_1_S32x10x64x64
    (by omega) (by omega) (by omega) v26 a prev c d h w

/-- Store 6: neighbour 10, offsets (1, 0, 1). -/
theorem acc5_apply (v26 : Vec Ideal S1x32x10x66x128 .f32) (a : Vec Ideal S1x1x8x4096 .f32)
    (prev : Vec Ideal S1x32x8x4096 .f32) (c : Fin 32) (d : Fin 8) (h w : Fin 64) :
    acc5 (F := Ideal) v26 a prev (ix4 (0 : Fin 1) c d (flat h w))
      = prev (ix4 (0 : Fin 1) c d (flat h w)) + feat v26 c d h w 10 * a (ix4 (0 : Fin 1) (0 : Fin 1) d (flat h w)) :=
  step_apply 1 0 1 slices_S32x10x4096_o0_1_0_S32x8x4096 slices_S32x10x66x128_o0_0_0_1_S32x10x64x64
    (by omega) (by omega) (by omega) v26 a prev c d h w

/-- Store 7: neighbour 18, offsets (2, 0, 1). -/
theorem acc6_apply (v26 : Vec Ideal S1x32x10x66x128 .f32) (a : Vec Ideal S1x1x8x4096 .f32)
    (prev : Vec Ideal S1x32x8x4096 .f32) (c : Fin 32) (d : Fin 8) (h w : Fin 64) :
    acc6 (F := Ideal) v26 a prev (ix4 (0 : Fin 1) c d (flat h w))
      = prev (ix4 (0 : Fin 1) c d (flat h w)) + feat v26 c d h w 18 * a (ix4 (0 : Fin 1) (0 : Fin 1) d (flat h w)) :=
  step_apply 2 0 1 slices_S32x10x4096_o0_2_0_S32x8x4096 slices_S32x10x66x128_o0_0_0_1_S32x10x64x64
    (by omega) (by omega) (by omega) v26 a prev c d h w

/-- Store 8: neighbour 2, offsets (0, 0, 2). -/
theorem acc7_apply (v26 : Vec Ideal S1x32x10x66x128 .f32) (a : Vec Ideal S1x1x8x4096 .f32)
    (prev : Vec Ideal S1x32x8x4096 .f32) (c : Fin 32) (d : Fin 8) (h w : Fin 64) :
    acc7 (F := Ideal) v26 a prev (ix4 (0 : Fin 1) c d (flat h w))
      = prev (ix4 (0 : Fin 1) c d (flat h w)) + feat v26 c d h w 2 * a (ix4 (0 : Fin 1) (0 : Fin 1) d (flat h w)) :=
  step_apply 0 0 2 slices_S32x10x4096_o0_0_0_S32x8x4096 slices_S32x10x66x128_o0_0_0_2_S32x10x64x64
    (by omega) (by omega) (by omega) v26 a prev c d h w

/-- Store 9: neighbour 11, offsets (1, 0, 2). -/
theorem acc8_apply (v26 : Vec Ideal S1x32x10x66x128 .f32) (a : Vec Ideal S1x1x8x4096 .f32)
    (prev : Vec Ideal S1x32x8x4096 .f32) (c : Fin 32) (d : Fin 8) (h w : Fin 64) :
    acc8 (F := Ideal) v26 a prev (ix4 (0 : Fin 1) c d (flat h w))
      = prev (ix4 (0 : Fin 1) c d (flat h w)) + feat v26 c d h w 11 * a (ix4 (0 : Fin 1) (0 : Fin 1) d (flat h w)) :=
  step_apply 1 0 2 slices_S32x10x4096_o0_1_0_S32x8x4096 slices_S32x10x66x128_o0_0_0_2_S32x10x64x64
    (by omega) (by omega) (by omega) v26 a prev c d h w

/-- Store 10: neighbour 19, offsets (2, 0, 2). -/
theorem acc9_apply (v26 : Vec Ideal S1x32x10x66x128 .f32) (a : Vec Ideal S1x1x8x4096 .f32)
    (prev : Vec Ideal S1x32x8x4096 .f32) (c : Fin 32) (d : Fin 8) (h w : Fin 64) :
    acc9 (F := Ideal) v26 a prev (ix4 (0 : Fin 1) c d (flat h w))
      = prev (ix4 (0 : Fin 1) c d (flat h w)) + feat v26 c d h w 19 * a (ix4 (0 : Fin 1) (0 : Fin 1) d (flat h w)) :=
  step_apply 2 0 2 slices_S32x10x4096_o0_2_0_S32x8x4096 slices_S32x10x66x128_o0_0_0_2_S32x10x64x64
    (by omega) (by omega) (by omega) v26 a prev c d h w

/-- Store 11: neighbour 3, offsets (0, 1, 0). -/
theorem acc10_apply (v26 : Vec Ideal S1x32x10x66x128 .f32) (a : Vec Ideal S1x1x8x4096 .f32)
    (prev : Vec Ideal S1x32x8x4096 .f32) (c : Fin 32) (d : Fin 8) (h w : Fin 64) :
    acc10 (F := Ideal) v26 a prev (ix4 (0 : Fin 1) c d (flat h w))
      = prev (ix4 (0 : Fin 1) c d (flat h w)) + feat v26 c d h w 3 * a (ix4 (0 : Fin 1) (0 : Fin 1) d (flat h w)) :=
  step_apply 0 1 0 slices_S32x10x4096_o0_0_0_S32x8x4096 slices_S32x10x66x128_o0_0_1_0_S32x10x64x64
    (by omega) (by omega) (by omega) v26 a prev c d h w

/-- Store 12: neighbour 12, offsets (1, 1, 0). -/
theorem acc11_apply (v26 : Vec Ideal S1x32x10x66x128 .f32) (a : Vec Ideal S1x1x8x4096 .f32)
    (prev : Vec Ideal S1x32x8x4096 .f32) (c : Fin 32) (d : Fin 8) (h w : Fin 64) :
    acc11 (F := Ideal) v26 a prev (ix4 (0 : Fin 1) c d (flat h w))
      = prev (ix4 (0 : Fin 1) c d (flat h w)) + feat v26 c d h w 12 * a (ix4 (0 : Fin 1) (0 : Fin 1) d (flat h w)) :=
  step_apply 1 1 0 slices_S32x10x4096_o0_1_0_S32x8x4096 slices_S32x10x66x128_o0_0_1_0_S32x10x64x64
    (by omega) (by omega) (by omega) v26 a prev c d h w

/-- Store 13: neighbour 20, offsets (2, 1, 0). -/
theorem acc12_apply (v26 : Vec Ideal S1x32x10x66x128 .f32) (a : Vec Ideal S1x1x8x4096 .f32)
    (prev : Vec Ideal S1x32x8x4096 .f32) (c : Fin 32) (d : Fin 8) (h w : Fin 64) :
    acc12 (F := Ideal) v26 a prev (ix4 (0 : Fin 1) c d (flat h w))
      = prev (ix4 (0 : Fin 1) c d (flat h w)) + feat v26 c d h w 20 * a (ix4 (0 : Fin 1) (0 : Fin 1) d (flat h w)) :=
  step_apply 2 1 0 slices_S32x10x4096_o0_2_0_S32x8x4096 slices_S32x10x66x128_o0_0_1_0_S32x10x64x64
    (by omega) (by omega) (by omega) v26 a prev c d h w

/-- Store 14: neighbour 4, offsets (0, 1, 1). -/
theorem acc13_apply (v26 : Vec Ideal S1x32x10x66x128 .f32) (a : Vec Ideal S1x1x8x4096 .f32)
    (prev : Vec Ideal S1x32x8x4096 .f32) (c : Fin 32) (d : Fin 8) (h w : Fin 64) :
    acc13 (F := Ideal) v26 a prev (ix4 (0 : Fin 1) c d (flat h w))
      = prev (ix4 (0 : Fin 1) c d (flat h w)) + feat v26 c d h w 4 * a (ix4 (0 : Fin 1) (0 : Fin 1) d (flat h w)) :=
  step_apply 0 1 1 slices_S32x10x4096_o0_0_0_S32x8x4096 slices_S32x10x66x128_o0_0_1_1_S32x10x64x64
    (by omega) (by omega) (by omega) v26 a prev c d h w

/-- Store 15: neighbour 21, offsets (2, 1, 1). -/
theorem acc14_apply (v26 : Vec Ideal S1x32x10x66x128 .f32) (a : Vec Ideal S1x1x8x4096 .f32)
    (prev : Vec Ideal S1x32x8x4096 .f32) (c : Fin 32) (d : Fin 8) (h w : Fin 64) :
    acc14 (F := Ideal) v26 a prev (ix4 (0 : Fin 1) c d (flat h w))
      = prev (ix4 (0 : Fin 1) c d (flat h w)) + feat v26 c d h w 21 * a (ix4 (0 : Fin 1) (0 : Fin 1) d (flat h w)) :=
  step_apply 2 1 1 slices_S32x10x4096_o0_2_0_S32x8x4096 slices_S32x10x66x128_o0_0_1_1_S32x10x64x64
    (by omega) (by omega) (by omega) v26 a prev c d h w

/-- Store 16: neighbour 5, offsets (0, 1, 2). -/
theorem acc15_apply (v26 : Vec Ideal S1x32x10x66x128 .f32) (a : Vec Ideal S1x1x8x4096 .f32)
    (prev : Vec Ideal S1x32x8x4096 .f32) (c : Fin 32) (d : Fin 8) (h w : Fin 64) :
    acc15 (F := Ideal) v26 a prev (ix4 (0 : Fin 1) c d (flat h w))
      = prev (ix4 (0 : Fin 1) c d (flat h w)) + feat v26 c d h w 5 * a (ix4 (0 : Fin 1) (0 : Fin 1) d (flat h w)) :=
  step_apply 0 1 2 slices_S32x10x4096_o0_0_0_S32x8x4096 slices_S32x10x66x128_o0_0_1_2_S32x10x64x64
    (by omega) (by omega) (by omega) v26 a prev c d h w

/-- Store 17: neighbour 13, offsets (1, 1, 2). -/
theorem acc16_apply (v26 : Vec Ideal S1x32x10x66x128 .f32) (a : Vec Ideal S1x1x8x4096 .f32)
    (prev : Vec Ideal S1x32x8x4096 .f32) (c : Fin 32) (d : Fin 8) (h w : Fin 64) :
    acc16 (F := Ideal) v26 a prev (ix4 (0 : Fin 1) c d (flat h w))
      = prev (ix4 (0 : Fin 1) c d (flat h w)) + feat v26 c d h w 13 * a (ix4 (0 : Fin 1) (0 : Fin 1) d (flat h w)) :=
  step_apply 1 1 2 slices_S32x10x4096_o0_1_0_S32x8x4096 slices_S32x10x66x128_o0_0_1_2_S32x10x64x64
    (by omega) (by omega) (by omega) v26 a prev c d h w

/-- Store 18: neighbour 22, offsets (2, 1, 2). -/
theorem acc17_apply (v26 : Vec Ideal S1x32x10x66x128 .f32) (a : Vec Ideal S1x1x8x4096 .f32)
    (prev : Vec Ideal S1x32x8x4096 .f32) (c : Fin 32) (d : Fin 8) (h w : Fin 64) :
    acc17 (F := Ideal) v26 a prev (ix4 (0 : Fin 1) c d (flat h w))
      = prev (ix4 (0 : Fin 1) c d (flat h w)) + feat v26 c d h w 22 * a (ix4 (0 : Fin 1) (0 : Fin 1) d (flat h w)) :=
  step_apply 2 1 2 slices_S32x10x4096_o0_2_0_S32x8x4096 slices_S32x10x66x128_o0_0_1_2_S32x10x64x64
    (by omega) (by omega) (by omega) v26 a prev c d h w

/-- Store 19: neighbour 6, offsets (0, 2, 0). -/
theorem acc18_apply (v26 : Vec Ideal S1x32x10x66x128 .f32) (a : Vec Ideal S1x1x8x4096 .f32)
    (prev : Vec Ideal S1x32x8x4096 .f32) (c : Fin 32) (d : Fin 8) (h w : Fin 64) :
    acc18 (F := Ideal) v26 a prev (ix4 (0 : Fin 1) c d (flat h w))
      = prev (ix4 (0 : Fin 1) c d (flat h w)) + feat v26 c d h w 6 * a (ix4 (0 : Fin 1) (0 : Fin 1) d (flat h w)) :=
  step_apply 0 2 0 slices_S32x10x4096_o0_0_0_S32x8x4096 slices_S32x10x66x128_o0_0_2_0_S32x10x64x64
    (by omega) (by omega) (by omega) v26 a prev c d h w

/-- Store 20: neighbour 14, offsets (1, 2, 0). -/
theorem acc19_apply (v26 : Vec Ideal S1x32x10x66x128 .f32) (a : Vec Ideal S1x1x8x4096 .f32)
    (prev : Vec Ideal S1x32x8x4096 .f32) (c : Fin 32) (d : Fin 8) (h w : Fin 64) :
    acc19 (F := Ideal) v26 a prev (ix4 (0 : Fin 1) c d (flat h w))
      = prev (ix4 (0 : Fin 1) c d (flat h w)) + feat v26 c d h w 14 * a (ix4 (0 : Fin 1) (0 : Fin 1) d (flat h w)) :=
  step_apply 1 2 0 slices_S32x10x4096_o0_1_0_S32x8x4096 slices_S32x10x66x128_o0_0_2_0_S32x10x64x64
    (by omega) (by omega) (by omega) v26 a prev c d h w

/-- Store 21: neighbour 23, offsets (2, 2, 0). -/
theorem acc20_apply (v26 : Vec Ideal S1x32x10x66x128 .f32) (a : Vec Ideal S1x1x8x4096 .f32)
    (prev : Vec Ideal S1x32x8x4096 .f32) (c : Fin 32) (d : Fin 8) (h w : Fin 64) :
    acc20 (F := Ideal) v26 a prev (ix4 (0 : Fin 1) c d (flat h w))
      = prev (ix4 (0 : Fin 1) c d (flat h w)) + feat v26 c d h w 23 * a (ix4 (0 : Fin 1) (0 : Fin 1) d (flat h w)) :=
  step_apply 2 2 0 slices_S32x10x4096_o0_2_0_S32x8x4096 slices_S32x10x66x128_o0_0_2_0_S32x10x64x64
    (by omega) (by omega) (by omega) v26 a prev c d h w

/-- Store 22: neighbour 7, offsets (0, 2, 1). -/
theorem acc21_apply (v26 : Vec Ideal S1x32x10x66x128 .f32) (a : Vec Ideal S1x1x8x4096 .f32)
    (prev : Vec Ideal S1x32x8x4096 .f32) (c : Fin 32) (d : Fin 8) (h w : Fin 64) :
    acc21 (F := Ideal) v26 a prev (ix4 (0 : Fin 1) c d (flat h w))
      = prev (ix4 (0 : Fin 1) c d (flat h w)) + feat v26 c d h w 7 * a (ix4 (0 : Fin 1) (0 : Fin 1) d (flat h w)) :=
  step_apply 0 2 1 slices_S32x10x4096_o0_0_0_S32x8x4096 slices_S32x10x66x128_o0_0_2_1_S32x10x64x64
    (by omega) (by omega) (by omega) v26 a prev c d h w

/-- Store 23: neighbour 15, offsets (1, 2, 1). -/
theorem acc22_apply (v26 : Vec Ideal S1x32x10x66x128 .f32) (a : Vec Ideal S1x1x8x4096 .f32)
    (prev : Vec Ideal S1x32x8x4096 .f32) (c : Fin 32) (d : Fin 8) (h w : Fin 64) :
    acc22 (F := Ideal) v26 a prev (ix4 (0 : Fin 1) c d (flat h w))
      = prev (ix4 (0 : Fin 1) c d (flat h w)) + feat v26 c d h w 15 * a (ix4 (0 : Fin 1) (0 : Fin 1) d (flat h w)) :=
  step_apply 1 2 1 slices_S32x10x4096_o0_1_0_S32x8x4096 slices_S32x10x66x128_o0_0_2_1_S32x10x64x64
    (by omega) (by omega) (by omega) v26 a prev c d h w

/-- Store 24: neighbour 24, offsets (2, 2, 1). -/
theorem acc23_apply (v26 : Vec Ideal S1x32x10x66x128 .f32) (a : Vec Ideal S1x1x8x4096 .f32)
    (prev : Vec Ideal S1x32x8x4096 .f32) (c : Fin 32) (d : Fin 8) (h w : Fin 64) :
    acc23 (F := Ideal) v26 a prev (ix4 (0 : Fin 1) c d (flat h w))
      = prev (ix4 (0 : Fin 1) c d (flat h w)) + feat v26 c d h w 24 * a (ix4 (0 : Fin 1) (0 : Fin 1) d (flat h w)) :=
  step_apply 2 2 1 slices_S32x10x4096_o0_2_0_S32x8x4096 slices_S32x10x66x128_o0_0_2_1_S32x10x64x64
    (by omega) (by omega) (by omega) v26 a prev c d h w

/-- Store 25: neighbour 8, offsets (0, 2, 2). -/
theorem acc24_apply (v26 : Vec Ideal S1x32x10x66x128 .f32) (a : Vec Ideal S1x1x8x4096 .f32)
    (prev : Vec Ideal S1x32x8x4096 .f32) (c : Fin 32) (d : Fin 8) (h w : Fin 64) :
    acc24 (F := Ideal) v26 a prev (ix4 (0 : Fin 1) c d (flat h w))
      = prev (ix4 (0 : Fin 1) c d (flat h w)) + feat v26 c d h w 8 * a (ix4 (0 : Fin 1) (0 : Fin 1) d (flat h w)) :=
  step_apply 0 2 2 slices_S32x10x4096_o0_0_0_S32x8x4096 slices_S32x10x66x128_o0_0_2_2_S32x10x64x64
    (by omega) (by omega) (by omega) v26 a prev c d h w

/-- Store 26: neighbour 16, offsets (1, 2, 2). -/
theorem acc25_apply (v26 : Vec Ideal S1x32x10x66x128 .f32) (a : Vec Ideal S1x1x8x4096 .f32)
    (prev : Vec Ideal S1x32x8x4096 .f32) (c : Fin 32) (d : Fin 8) (h w : Fin 64) :
    acc25 (F := Ideal) v26 a prev (ix4 (0 : Fin 1) c d (flat h w))
      = prev (ix4 (0 : Fin 1) c d (flat h w)) + feat v26 c d h w 16 * a (ix4 (0 : Fin 1) (0 : Fin 1) d (flat h w)) :=
  step_apply 1 2 2 slices_S32x10x4096_o0_1_0_S32x8x4096 slices_S32x10x66x128_o0_0_2_2_S32x10x64x64
    (by omega) (by omega) (by omega) v26 a prev c d h w

/-- Store 27: neighbour 25, offsets (2, 2, 2). -/
theorem acc26_apply (v26 : Vec Ideal S1x32x10x66x128 .f32) (a : Vec Ideal S1x1x8x4096 .f32)
    (prev : Vec Ideal S1x32x8x4096 .f32) (c : Fin 32) (d : Fin 8) (h w : Fin 64) :
    acc26 (F := Ideal) v26 a prev (ix4 (0 : Fin 1) c d (flat h w))
      = prev (ix4 (0 : Fin 1) c d (flat h w)) + feat v26 c d h w 25 * a (ix4 (0 : Fin 1) (0 : Fin 1) d (flat h w)) :=
  step_apply 2 2 2 slices_S32x10x4096_o0_2_0_S32x8x4096 slices_S32x10x66x128_o0_0_2_2_S32x10x64x64
    (by omega) (by omega) (by omega) v26 a prev c d h w

/-- The last stored block at an output position: zero plus the neighbour terms, added in the body's order. -/
theorem chain_apply (v26 : Vec Ideal S1x32x10x66x128 .f32) (a : Fin 26 → Vec Ideal S1x1x8x4096 .f32)
    (c : Fin 32) (d : Fin 8) (h w : Fin 64) :
    chain (F := Ideal) v26 a (ix4 (0 : Fin 1) c d (flat h w))
      = depthFastest.foldl
          (fun acc k => acc + feat v26 c d h w k * a k (ix4 (0 : Fin 1) (0 : Fin 1) d (flat h w))) 0 := by
  unfold chain
  rw [acc26_apply, acc25_apply, acc24_apply, acc23_apply, acc22_apply, acc21_apply, acc20_apply, acc19_apply, acc18_apply,
    acc17_apply, acc16_apply, acc15_apply, acc14_apply, acc13_apply, acc12_apply, acc11_apply, acc10_apply, acc9_apply,
    acc8_apply, acc7_apply, acc6_apply, acc5_apply, acc4_apply, acc3_apply, acc2_apply, acc1_apply, acc0_apply]
  rfl

end Cert.KernelIdeal.Pay

end
-- ==== Proof.IdealHost.lean ====
/-
  The values the kernel reads, traced back to the two arguments.

  Before the region the host widens the feature array's last axis from 66 to 128 with zeros and flattens the weight array's
  last two axes of 64 into one of 4096.  Inside the unpadded width the widened array is the argument; the flattened array
  at column h * 64 + w is the argument at (h, w).  A weight row the body loads is row k of the tile's weight block.
-/
import proofs.«416960_j11115375362872_4_alg».proof.Proof.IdealLoads
import Idealize.ShloMosaic.Lib.KernelVsHost
import Idealize.ShloMosaic.Lib.Pipeline.Value
import Idealize.ShloMosaic.Lib.ValueIdx
import Idealize.ShloMosaic.Lib.StableHlo.Run

set_option maxRecDepth 16384

noncomputable section

namespace Cert.KernelIdeal.DB

open Idealize.ShloMosaic Idealize.ShloMosaic.TcCoe Idealize.ShloMosaic.Tactic
open Idealize.SL Idealize.SL.Sem
open Idealize.ShloMosaic.ValueIdx
open Cert.KernelIdeal Cert.KernelIdeal.Gen

variable {F : FTy → Type} [FloatOps F]

variable (m : (ℓ : Loc nD τ sig) → Buf (Elt F) ℓ)

/-- The array the kernel copies from is the first argument widened with a constant on its last axis. -/
theorem V_widened (c : Dev nD) :
    (V m c main_v0 : S2x32x66x66x128.Idx → Elt F .f32)
      = pad S2x32x66x66x128 ![0, 0, 0, 0, 0] ![0, 0, 0, 0, 62] ![0, 0, 0, 0, 0] (m ((c : Thread nD τ).loc main_arg0))
          (sitofp .f32 (constantI S_ 32 0#32)) pads_S2x32x66x66x66_S2x32x66x66x128_000_000_000_000_0620 h_S_ := by
  dsimp only [V, V0]
  simp only [hostOps0, hostOps0_1, hostOps0_2, List.flatten_cons, List.flatten_nil, List.append_nil, List.cons_append, List.nil_append]
  after_results
  rfl

/-- Inside the unpadded width it is the argument. -/
theorem Vpad_apply (c : Dev nD) (β : Fin 2) (ch : Fin 32) (z y : Fin 66) (x : Fin 128) (hx : x.val < 66) :
    (V m c main_v0 : S2x32x66x66x128.Idx → Elt F .f32) (ix5 β ch z y x)
      = (m ((c : Thread nD τ).loc main_arg0) : S2x32x66x66x66.Idx → Elt F .f32) (ix5 β ch z y ⟨x.val, hx⟩) := by
  rw [V_widened]
  exact pad_apply_of_inside _ _ _ _ _ _ _ (ix5 β ch z y x) (ix5 β ch z y ⟨x.val, hx⟩) (fun a => by fin_cases a <;> simp)

/-- The weight array as the region finds it is the second argument with its last two axes flattened. -/
theorem V_flattened (c : Dev nD) :
    (V m c main_v1 : S2x26x64x4096.Idx → Elt F .f32)
      = shapeCast S2x26x64x4096 (m ((c : Thread nD τ).loc main_arg1)) shapeCasts_S2x26x64x64x64_S2x26x64x4096 := by
  dsimp only [V, V0]
  simp only [hostOps0, hostOps0_1, hostOps0_2, List.flatten_cons, List.flatten_nil, List.append_nil, List.cons_append, List.nil_append]
  after_results
  rfl

/-- Column h * 64 + w of the flattened array is entry (h, w) of the argument. -/
theorem Vflat_apply (c : Dev nD) (β : Fin 2) (k : Fin 26) (D h w : Fin 64) :
    (V m c main_v1 : S2x26x64x4096.Idx → Elt F .f32) (ix4 β k D ⟨h.val * 64 + w.val, by have := h.isLt; have := w.isLt; omega⟩)
      = (m ((c : Thread nD τ).loc main_arg1) : S2x26x64x64x64.Idx → Elt F .f32) (ix5 β k D h w) := by
  rw [V_flattened]
  refine shapeCast_apply _ _ _ (ix5 β k D h w) ?_
  rw [Shape.rowMajor_val_five, Shape.rowMajor_val_four]
  simp
  ring

/-- A weight row the body loads is that row of the tile's weight block. -/
theorem weightRow_apply (arg3 : Memref sig .tc .vmem S1x26x8x4096 .f32) (harg3 : arg3.IsWhole) (x0 : Vec F S1x26x8x4096 .f32) (k : Fin 26) (d : Fin 8) (q : Fin 4096) :
    weightRow arg3 harg3 x0 k (ix4 (0 : Fin 1) (0 : Fin 1) d q) = x0 (ix4 (0 : Fin 1) k d q) := by
  unfold weightRow
  rw [View.readAt_eq_ld, harg3.read_unread]
  show x0 _ = x0 _
  congr 1
  funext a
  apply Fin.ext
  fin_cases a <;> simp [LoadRect.idx, Rect.unit]

end Cert.KernelIdeal.DB

end
-- ==== Proof.IdealIndex1.lean ====
/-
  The waited slot, read at an index.

  The scratch holds two slots of thirty-two channels by ten depth rows by 66 by 128.  At depth tile i of batch β the
  body loads slot i mod 2 through the scratch's own memref at the box (i mod 2, 0, 0, 0, 0) of one slot's extent, after
  the copy wrote the slot whole, through the slot's own sliced and squeezed memref, with depth rows [8 i, 8 i + 10) of
  batch β of the padded array.  Both memrefs address the same elements: element (ch, r, y, x) of the squeezed slot is
  element (i mod 2, ch, r, y, x) of the scratch, and element (ch, r, y, x) of the squeezed source window is element
  (β, ch, 8 i + r, y, x) of the array, a unit-stride box placing a coordinate at its offset plus the coordinate.  A
  whole write is read back as its payload, and a transfer between memrefs of one element type delivers the values as
  they are.  So the load's entry (0, ch, r, y, x) is the array's entry (β, ch, 8 i + r, y, x).
-/
import proofs.«416960_j11115375362872_4_alg».proof.Proof.IdealLoads
import Idealize.ShloMosaic.Lib.Pipeline.Value
import Idealize.ShloMosaic.Lib.ValueIdx

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (Pipeline.UD sig nD τ) ℕ

/-- An index of a shape with a leading axis of extent one is the index of the remaining axes behind the coordinate zero. -/
theorem cons_ix4 {n1 n2 n3 n4 : Nat} (a : Fin n1) (b : Fin n2) (c : Fin n3) (d : Fin n4) :
    (Fin.cons (⟨0, Nat.one_pos⟩ : Fin 1) (ix4 a b c d) : (⟨5, ![1, n1, n2, n3, n4]⟩ : Shape).Idx) = ix5 (0 : Fin 1) a b c d := by
  funext i; match i with | ⟨0, _⟩ => rfl | ⟨1, _⟩ => rfl | ⟨2, _⟩ => rfl | ⟨3, _⟩ => rfl | ⟨4, _⟩ => rfl

/-- The scratch read at slot `s`'s box, at (0, ch, r, y, x), is slot `s` read through its own sliced and squeezed memref at
    (ch, r, y, x): the squeeze only drops the box's leading unit axis. -/
theorem scratch_box_eq_slot (c : Dev nD) (s : Fin 2) (W : HbBuf (F := F) c scM) (ch : Fin 32) (r : Fin 10) (y : Fin 66) (x : Fin 128) :
    View.readAt (Elt F) scM.view (Rect.unit (s := S2x32x10x66x128) ![s.val, 0, 0, 0, 0] S1x32x10x66x128.size (inb_slot s)).toLoadRect W (ix5 (0 : Fin 1) ch r y x)
      = (rslot s).view.read (Elt F) W (ix4 ch r y x) := by
  unfold rslot
  rw [Memref.read_squeeze_slice scM _ (fun _ => rfl) squeezes_S1x32x10x66x128_S32x10x66x128 shapeCasts_S1x32x10x66x128_S32x10x66x128 W]
  refine ((shapeCast_dropUnit_apply ![32, 10, 66, 128] _ shapeCasts_S1x32x10x66x128_S32x10x66x128 (ix4 ch r y x)).trans ?_).symm
  congr 1
  exact cons_ix4 ch r y x

/-- Depth rows [8 b, 8 b + 10) of batch `β`, read through the window's own sliced and squeezed memref at (ch, r, y, x), are the
    array at (β, ch, 8 b + r, y, x): on each axis the box's offset plus the coordinate. -/
theorem window_eq_array (c : Dev nD) (β : Fin 2) (b : Fin 8) (fh : HbBuf (F := F) c hbM) (ch : Fin 32) (r : Fin 10) (y : Fin 66) (x : Fin 128) :
    (srcB β b).view.read (Elt F) fh (ix4 ch r y x)
      = (fh : S2x32x66x66x128.Idx → Elt F .f32) (ix5 β ch (⟨8 * b.val + r.val, by have := r.isLt; have := b.isLt; omega⟩ : Fin 66) y x) := by
  unfold srcB
  rw [Memref.read_squeeze_slice hbM _ (fun _ => rfl) squeezes_S1x32x10x66x128_S32x10x66x128 shapeCasts_S1x32x10x66x128_S32x10x66x128 fh]
  refine (shapeCast_dropUnit_apply ![32, 10, 66, 128] _ shapeCasts_S1x32x10x66x128_S32x10x66x128 (ix4 ch r y x)).trans ?_
  refine congrArg (fh : S2x32x66x66x128.Idx → Elt F .f32) (funext fun a => Fin.ext ?_)
  match a with
  | ⟨0, _⟩ => show β.val + 1 * 0 = β.val; omega
  | ⟨1, _⟩ => show 0 + 1 * ch.val = ch.val; omega
  | ⟨2, _⟩ => show 8 * b.val + 1 * r.val = 8 * b.val + r.val; omega
  | ⟨3, _⟩ => show 0 + 1 * y.val = y.val; omega
  | ⟨4, _⟩ => show 0 + 1 * x.val = x.val; omega

/-- The waited slot as the body loads it at point `t`, at (0, ch, r, y, x): the padded array's entry at the point's batch, channel
    `ch`, depth row 8 (t mod 8) + r, and (y, x). -/
theorem slotLoad_apply (c : Dev nD) (t : Fin cfg0.N) (fh : HbBuf (F := F) c hbM) (ch : Fin 32) (r : Fin 10) (y : Fin 66) (x : Fin 128) :
    slotLoad c t fh (ix5 (0 : Fin 1) ch r y x)
      = (fh : S2x32x66x66x128.Idx → Elt F .f32) (ix5 (bat t.val) ch (⟨8 * (t.val % 8) + r.val, by have := r.isLt; omega⟩ : Fin 66) y x) := by
  unfold slotLoad
  have hb : (Ring.bk 8 (t.val % 8)).val = t.val % 8 := Ring.bk_val (Nat.mod_lt _ (by decide))
  refine (congrFun (View.readAt_unit_congr scM.view (coff_load t) (k0_off8_inb (grid0.coords t)) (inb_slot (Ring.sl 2 (t.val % 8))) _) _).trans ?_
  refine (scratch_box_eq_slot c (Ring.sl 2 (t.val % 8)) _ ch r y x).trans ?_
  refine (congrFun (View.read_writes_whole _ _ _) _).trans ?_
  refine (window_eq_array c (bat t.val) (Ring.bk 8 (t.val % 8)) fh ch r y x).trans ?_
  exact congrArg (fun z : Fin 66 => (fh : S2x32x66x66x128.Idx → Elt F .f32) (ix5 (bat t.val) ch z y x))
    (Fin.ext (by show 8 * (Ring.bk 8 (t.val % 8)).val + r.val = 8 * (t.val % 8) + r.val; rw [hb]))

end Cert.KernelIdeal.DB

end
-- ==== Proof.IdealBlock.lean ====
/-
  The weight block of a grid point, read at coordinates.

  The weight window cuts the flattened weight array (batch, neighbour, depth, position) into blocks of one batch, all 26
  neighbours, eight depth rows and all 4096 positions; over the grid of 2 batches by 8 depth tiles, point t takes the
  block at batch t / 8 and depth tile t mod 8.  A block's coordinate along an axis is the block index times the block's
  extent plus the coordinate inside the block, so entry (0, k, d, q) of point t's block is the array's entry
  (t / 8, k, 8 (t mod 8) + d, q).
-/
import proofs.«416960_j11115375362872_4_alg».proof.Proof.IdealKit
import Idealize.ShloMosaic.Lib.ValueIdx

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (m : (ℓ : Loc nD τ sig) → Buf (Elt F) ℓ)

/-- The weight window's block index at each of the sixteen grid points: batch t / 8, depth tile t mod 8, zero on the
    neighbour and position axes. -/
theorem weightWindow_index : ∀ t : Fin cfg0.N, win0_0.index t (0 : Fin 4) = t.val / 8
    ∧ win0_0.index t (1 : Fin 4) = 0
    ∧ win0_0.index t (2 : Fin 4) = t.val % 8
    ∧ win0_0.index t (3 : Fin 4) = 0 :=
  (by decide +kernel : ∀ t : Fin grid0.N, _)

/-- The batch of a point as a number: t / 8, the grid having sixteen points. -/
theorem batch_of_point (t : Fin cfg0.N) : (bat t.val).val = t.val / 8 := by
  have hN : t.val < 16 := lt_of_lt_of_eq t.isLt (show cfg0.N = 16 from N_0)
  show (t.val / 8) % 2 = t.val / 8
  omega

theorem blockDepth_lt (t : Fin cfg0.N) (d : Fin 8) : 8 * (t.val % 8) + d.val < 64 := by
  have := d.isLt; have := Nat.mod_lt t.val (show 0 < 8 by decide); omega

/-- Entry (0, k, d, q) of point t's weight block is the flattened weight array at (t / 8, k, 8 (t mod 8) + d, q). -/
theorem iblk_apply (c : Dev nD) (t : Fin cfg0.N) (k : Fin 26) (d : Fin 8) (q : Fin 4096) :
    iblk m c 0 t (ix4 (0 : Fin 1) k d q)
      = (V m c main_v1 : S2x26x64x4096.Idx → Elt F .f32) (ix4 (bat t.val) k ⟨8 * (t.val % 8) + d.val, blockDepth_lt t d⟩ q) := by
  obtain ⟨e0, e1, e2, e3⟩ := weightWindow_index t
  have hb := batch_of_point t
  show V m c main_v1 (((cfg0.win 0).blk t).view.emb (ix4 (0 : Fin 1) k d q)) = _
  refine congrArg (V m c main_v1) (funext fun a => Fin.ext ?_)
  match a with
  | ⟨0, _⟩ => show win0_0.index t (0 : Fin 4) * 1 + 1 * 0 = (bat t.val).val; omega
  | ⟨1, _⟩ => show win0_0.index t (1 : Fin 4) * 26 + 1 * k.val = k.val; omega
  | ⟨2, _⟩ => show win0_0.index t (2 : Fin 4) * 8 + 1 * d.val = 8 * (t.val % 8) + d.val; omega
  | ⟨3, _⟩ => show win0_0.index t (3 : Fin 4) * 4096 + 1 * q.val = q.val; omega

end Cert.KernelIdeal.DB

end
-- ==== Proof.IdealPoint.lean ====
/-
  What one grid point leaves in its output block, as the stencil sum of the two arguments.

  Point t works on batch t / 8 and depth tile t mod 8: its loaded slot holds the ten depth rows from 8 (t mod 8) on of
  that batch of the widened feature array, and its weight block the eight depth rows from 8 (t mod 8) on of the flattened
  weight array.  Whatever the kind of the point, the block ends as the body's chain of 27 stored values, which at channel
  ch, depth row d and position h * 64 + w is zero plus, for each neighbour k in the order with the depth offset fastest,
      slot[ch, d + dz k, h + dy k, w + dx k] * row_k[d, h * 64 + w].
  The slot's entry is the feature argument at batch t / 8, depth 8 (t mod 8) + d + dz k, height h + dy k and width
  w + dx k, a width below 66, where the widened array is the argument itself; the weight row's entry is the weight
  argument at neighbour k, depth 8 (t mod 8) + d, height h and width w.  So the block holds the stencil sum at the voxel
  (t / 8, ch, 8 (t mod 8) + d, h, w).
-/
import proofs.«416960_j11115375362872_4_alg».proof.Proof.IdealPieces
import proofs.«416960_j11115375362872_4_alg».proof.Proof.IdealPayload
import proofs.«416960_j11115375362872_4_alg».proof.Proof.IdealHost
import proofs.«416960_j11115375362872_4_alg».proof.Proof.IdealIndex1
import proofs.«416960_j11115375362872_4_alg».proof.Proof.IdealBlock

set_option maxRecDepth 16384

noncomputable section

namespace Cert.KernelIdeal.DB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-! ## The coordinates of a point's tile -/

/-- A depth row of the point's output block as a depth of the whole arrays: tile t mod 8 starts at depth 8 (t mod 8). -/
theorem depth_lt (t : Fin cfg0.N) (d : Fin 8) : 8 * (t.val % 8) + d.val < 64 := by
  have := d.isLt; have := Nat.mod_lt t.val (show 0 < 8 by decide); omega
theorem flat_lt (h w : Fin 64) : h.val * 64 + w.val < 4096 := by
  have := h.isLt; have := w.isLt; omega

/-! ## What the point's block holds is the body's chain of stored values -/

/-- Whatever the kind of the point, its output block ends as the chain of the 27 stored values at the point's loaded
    slot and weight rows. -/
theorem outsAt_chain (c : Dev nD) (t : Fin cfg0.N) :
    outsAt (F := Ideal) m c t = Pay.chain (slotLoad c t (V m c main_v0)) (weightRow (msA t) (hsA t) (iblk m c 0 t)) := by
  by_cases h0 : t.val % 8 = 0
  · rw [outsAt_A m c t h0]; exact outA_eq c t _ _ _ _ _ _ _ _
  · by_cases h1 : t.val % 8 < 7
    · rw [outsAt_B m c t h0 h1]; exact outB_eq c t _ _ _ _ _ _ _ _
    · rw [outsAt_C m c t h0 h1]; exact outC_eq c t _ _ _ _ _ _ _ _

/-! ## Each neighbour's two factors at the point -/

/-- The feature value neighbour k contributes at the point: the padded argument at the output voxel moved by k's
    offsets.  Only widths below 66 are read, where the widened array is the argument. -/
theorem feat_eq (c : Dev nD) (t : Fin cfg0.N) (ch : Fin 32) (d : Fin 8) (h w : Fin 64) (k : Fin 26) :
    Pay.feat (slotLoad c t (V m c main_v0)) ch d h w k
      = m ((c : Thread nD τ).loc main_arg0)
          (ix5 (bat t.val) ch (Cert.Stencil.shift ⟨8 * (t.val % 8) + d.val, depth_lt t d⟩ (Cert.Stencil.dz k) (Cert.Stencil.dz_le k))
            (Cert.Stencil.shift h (Cert.Stencil.dy k) (Cert.Stencil.dy_le k))
            (Cert.Stencil.shift w (Cert.Stencil.dx k) (Cert.Stencil.dx_le k))) := by
  have hx : (Pay.widthAt w (Cert.Stencil.dx k) (Cert.Stencil.dx_le k)).val < 66 := by
    have := w.isLt; have := Cert.Stencil.dx_le k; show w.val + Cert.Stencil.dx k < 66; omega
  unfold Pay.feat
  refine (slotLoad_apply c t _ ch _ _ _).trans ((Vpad_apply m c _ ch _ _ _ hx).trans ?_)
  refine congrArg (m ((c : Thread nD τ).loc main_arg0)) ?_
  refine congrArg (fun z : Fin 66 => ix5 (bat t.val) ch z _ _) (Fin.ext ?_)
  show 8 * (t.val % 8) + (d.val + Cert.Stencil.dz k) = 8 * (t.val % 8) + d.val + Cert.Stencil.dz k
  omega

/-- The weight neighbour k carries at the point: the weight argument at the output voxel. -/
theorem weight_eq (c : Dev nD) (t : Fin cfg0.N) (d : Fin 8) (h w : Fin 64) (k : Fin 26) :
    weightRow (msA t) (hsA t) (iblk m c 0 t) k (ix4 (0 : Fin 1) (0 : Fin 1) d (Pay.flat h w))
      = m ((c : Thread nD τ).loc main_arg1) (ix5 (bat t.val) k ⟨8 * (t.val % 8) + d.val, depth_lt t d⟩ h w) :=
  (weightRow_apply _ _ _ k d _).trans ((iblk_apply m c t k d _).trans (Vflat_apply m c _ k _ h w))

/-! ## The point's block is the stencil sum -/

/-- After point t the output block holds, at channel ch, depth row d and position h * 64 + w, the stencil sum of the two
    arguments with the depth offset varying fastest, at batch t / 8, depth 8 (t mod 8) + d, height h and width w. -/
theorem point_value (c : Dev nD) (t : Fin cfg0.N) (ch : Fin 32) (d : Fin 8) (h w : Fin 64) :
    outsAt (F := Ideal) m c t (ix4 (0 : Fin 1) ch d ⟨h.val * 64 + w.val, flat_lt h w⟩)
      = Cert.Stencil.depthFastestSum (m ((c : Thread nD τ).loc main_arg0)) (m ((c : Thread nD τ).loc main_arg1))
          (ix5 (bat t.val) ch ⟨8 * (t.val % 8) + d.val, depth_lt t d⟩ h w) := by
  rw [outsAt_chain m c t]
  refine (Pay.chain_apply _ _ ch d h w).trans ?_
  unfold Cert.Stencil.depthFastestSum Cert.Stencil.sumIn
  refine congrArg (fun f => List.foldl f 0 Cert.Stencil.depthFastest) (funext fun acc => funext fun k => congrArg (acc + ·) ?_)
  rw [feat_eq m c t ch d h w k, weight_eq m c t d h w k]
  rfl

end Cert.KernelIdeal.DB

end
-- ==== Proof.RefOps.lean ====
/-
  The reference program as a list of its operations, cut where the printed program is cut.

  The program is a straight line of 132 tensor operations: a zero constant and its broadcast, then for each of the
  26 neighbours a cut of `x`, a cut of `a`, its repetition over the channels, a product and a sum.  It is printed in
  three consecutive pieces of 60, 60 and 12 operations; each piece is the sequence of a literal list, the whole
  program the sequence of the three lists joined, every operation touches only the core's own arrays, and none of
  them leaves a result undetermined.  These are the facts the run of a straight line asks for.
-/
import proofs.«416960_j11115375362872_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The first piece: the zero start, neighbours 0 to 10 in full, and neighbour 11 up to its repeated slab. -/
abbrev ops0 : List (HloOp τ sig (Elt F)) :=
  [ nullary main_cst (constant S_ .f32 0x00000000#32),
    unary main_cst main_v0 (broadcastInDim S2x32x64x64x64 ![] bcast_S_S2x32x64x64x64 : (⟨S_, .f32⟩ : BufTy).Contents (Elt F) → (⟨S2x32x64x64x64, .f32⟩ : BufTy).Contents (Elt F)),
    unary main_arg0 main_v1 ((extractStridedSlice S2x32x64x64x64 ![0, 0, 0, 0, 0] · slices_S2x32x66x66x66_S2x32x64x64x64_0_0_0_0_0) : (⟨S2x32x66x66x66, .f32⟩ : BufTy).Contents (Elt F) → (⟨S2x32x64x64x64, .f32⟩ : BufTy).Contents (Elt F)),
    unary main_arg1 main_v2 ((extractStridedSlice S2x1x64x64x64 ![0, 0, 0, 0, 0] · slices_S2x26x64x64x64_S2x1x64x64x64_0_0_0_0_0) : (⟨S2x26x64x64x64, .f32⟩ : BufTy).Contents (Elt F) → (⟨S2x1x64x64x64, .f32⟩ : BufTy).Contents (Elt F)),
    unary main_v2 main_v3 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v1 main_v3 main_v4 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v0 main_v4 main_v5 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v6 ((extractStridedSlice S2x32x64x64x64 ![0, 0, 0, 0, 1] · slices_S2x32x66x66x66_S2x32x64x64x64_0_0_0_0_1) : (⟨S2x32x66x66x66, .f32⟩ : BufTy).Contents (Elt F) → (⟨S2x32x64x64x64, .f32⟩ : BufTy).Contents (Elt F)),
    unary main_arg1 main_v7 ((extractStridedSlice S2x1x64x64x64 ![0, 1, 0, 0, 0] · slices_S2x26x64x64x64_S2x1x64x64x64_0_1_0_0_0) : (⟨S2x26x64x64x64, .f32⟩ : BufTy).Contents (Elt F) → (⟨S2x1x64x64x64, .f32⟩ : BufTy).Contents (Elt F)),
    unary main_v7 main_v8 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v6 main_v8 main_v9 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v5 main_v9 main_v10 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v11 ((extractStridedSlice S2x32x64x64x64 ![0, 0, 0, 0, 2] · slices_S2x32x66x66x66_S2x32x64x64x64_0_0_0_0_2) : (⟨S2x32x66x66x66, .f32⟩ : BufTy).Contents (Elt F) → (⟨S2x32x64x64x64, .f32⟩ : BufTy).Contents (Elt F)),
    unary main_arg1 main_v12 ((extractStridedSlice S2x1x64x64x64 ![0, 2, 0, 0, 0] · slices_S2x26x64x64x64_S2x1x64x64x64_0_2_0_0_0) : (⟨S2x26x64x64x64, .f32⟩ : BufTy).Contents (Elt F) → (⟨S2x1x64x64x64, .f32⟩ : BufTy).Contents (Elt F)),
    unary main_v12 main_v13 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v11 main_v13 main_v14 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v10 main_v14 main_v15 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v16 ((extractStridedSlice S2x32x64x64x64 ![0, 0, 0, 1, 0] · slices_S2x32x66x66x66_S2x32x64x64x64_0_0_0_1_0) : (⟨S2x32x66x66x66, .f32⟩ : BufTy).Contents (Elt F) → (⟨S2x32x64x64x64, .f32⟩ : BufTy).Contents (Elt F)),
    unary main_arg1 main_v17 ((extractStridedSlice S2x1x64x64x64 ![0, 3, 0, 0, 0] · slices_S2x26x64x64x64_S2x1x64x64x64_0_3_0_0_0) : (⟨S2x26x64x64x64, .f32⟩ : BufTy).Contents (Elt F) → (⟨S2x1x64x64x64, .f32⟩ : BufTy).Contents (Elt F)),
    unary main_v17 main_v18 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v16 main_v18 main_v19 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v15 main_v19 main_v20 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v21 ((extractStridedSlice S2x32x64x64x64 ![0, 0, 0, 1, 1] · slices_S2x32x66x66x66_S2x32x64x64x64_0_0_0_1_1) : (⟨S2x32x66x66x66, .f32⟩ : BufTy).Contents (Elt F) → (⟨S2x32x64x64x64, .f32⟩ : BufTy).Contents (Elt F)),
    unary main_arg1 main_v22 ((extractStridedSlice S2x1x64x64x64 ![0, 4, 0, 0, 0] · slices_S2x26x64x64x64_S2x1x64x64x64_0_4_0_0_0) : (⟨S2x26x64x64x64, .f32⟩ : BufTy).Contents (Elt F) → (⟨S2x1x64x64x64, .f32⟩ : BufTy).Contents (Elt F)),
    unary main_v22 main_v23 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v21 main_v23 main_v24 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v20 main_v24 main_v25 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v26 ((extractStridedSlice S2x32x64x64x64 ![0, 0, 0, 1, 2] · slices_S2x32x66x66x66_S2x32x64x64x64_0_0_0_1_2) : (⟨S2x32x66x66x66, .f32⟩ : BufTy).Contents (Elt F) → (⟨S2x32x64x64x64, .f32⟩ : BufTy).Contents (Elt F)),
    unary main_arg1 main_v27 ((extractStridedSlice S2x1x64x64x64 ![0, 5, 0, 0, 0] · slices_S2x26x64x64x64_S2x1x64x64x64_0_5_0_0_0) : (⟨S2x26x64x64x64, .f32⟩ : BufTy).Contents (Elt F) → (⟨S2x1x64x64x64, .f32⟩ : BufTy).Contents (Elt F)),
    unary main_v27 main_v28 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v26 main_v28 main_v29 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v25 main_v29 main_v30 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v31 ((extractStridedSlice S2x32x64x64x64 ![0, 0, 0, 2, 0] · slices_S2x32x66x66x66_S2x32x64x64x64_0_0_0_2_0) : (⟨S2x32x66x66x66, .f32⟩ : BufTy).Contents (Elt F) → (⟨S2x32x64x64x64, .f32⟩ : BufTy).Contents (Elt F)),
    unary main_arg1 main_v32 ((extractStridedSlice S2x1x64x64x64 ![0, 6, 0, 0, 0] · slices_S2x26x64x64x64_S2x1x64x64x64_0_6_0_0_0) : (⟨S2x26x64x64x64, .f32⟩ : BufTy).Contents (Elt F) → (⟨S2x1x64x64x64, .f32⟩ : BufTy).Contents (Elt F)),
    unary main_v32 main_v33 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v31 main_v33 main_v34 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v30 main_v34 main_v35 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v36 ((extractStridedSlice S2x32x64x64x64 ![0, 0, 0, 2, 1] · slices_S2x32x66x66x66_S2x32x64x64x64_0_0_0_2_1) : (⟨S2x32x66x66x66, .f32⟩ : BufTy).Contents (Elt F) → (⟨S2x32x64x64x64, .f32⟩ : BufTy).Contents (Elt F)),
    unary main_arg1 main_v37 ((extractStridedSlice S2x1x64x64x64 ![0, 7, 0, 0, 0] · slices_S2x26x64x64x64_S2x1x64x64x64_0_7_0_0_0) : (⟨S2x26x64x64x64, .f32⟩ : BufTy).Contents (Elt F) → (⟨S2x1x64x64x64, .f32⟩ : BufTy).Contents (Elt F)),
    unary main_v37 main_v38 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v36 main_v38 main_v39 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v35 main_v39 main_v40 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v41 ((extractStridedSlice S2x32x64x64x64 ![0, 0, 0, 2, 2] · slices_S2x32x66x66x66_S2x32x64x64x64_0_0_0_2_2) : (⟨S2x32x66x66x66, .f32⟩ : BufTy).Contents (Elt F) → (⟨S2x32x64x64x64, .f32⟩ : BufTy).Contents (Elt F)),
    unary main_arg1 main_v42 ((extractStridedSlice S2x1x64x64x64 ![0, 8, 0, 0, 0] · slices_S2x26x64x64x64_S2x1x64x64x64_0_8_0_0_0) : (⟨S2x26x64x64x64, .f32⟩ : BufTy).Contents (Elt F) → (⟨S2x1x64x64x64, .f32⟩ : BufTy).Contents (Elt F)),
    unary main_v42 main_v43 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v41 main_v43 main_v44 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v40 main_v44 main_v45 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v46 ((extractStridedSlice S2x32x64x64x64 ![0, 0, 1, 0, 0] · slices_S2x32x66x66x66_S2x32x64x64x64_0_0_1_0_0) : (⟨S2x32x66x66x66, .f32⟩ : BufTy).Contents (Elt F) → (⟨S2x32x64x64x64, .f32⟩ : BufTy).Contents (Elt F)),
    unary main_arg1 main_v47 ((extractStridedSlice S2x1x64x64x64 ![0, 9, 0, 0, 0] · slices_S2x26x64x64x64_S2x1x64x64x64_0_9_0_0_0) : (⟨S2x26x64x64x64, .f32⟩ : BufTy).Contents (Elt F) → (⟨S2x1x64x64x64, .f32⟩ : BufTy).Contents (Elt F)),
    unary main_v47 main_v48 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v46 main_v48 main_v49 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v45 main_v49 main_v50 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v51 ((extractStridedSlice S2x32x64x64x64 ![0, 0, 1, 0, 1] · slices_S2x32x66x66x66_S2x32x64x64x64_0_0_1_0_1) : (⟨S2x32x66x66x66, .f32⟩ : BufTy).Contents (Elt F) → (⟨S2x32x64x64x64, .f32⟩ : BufTy).Contents (Elt F)),
    unary main_arg1 main_v52 ((extractStridedSlice S2x1x64x64x64 ![0, 10, 0, 0, 0] · slices_S2x26x64x64x64_S2x1x64x64x64_0_10_0_0_0) : (⟨S2x26x64x64x64, .f32⟩ : BufTy).Contents (Elt F) → (⟨S2x1x64x64x64, .f32⟩ : BufTy).Contents (Elt F)),
    unary main_v52 main_v53 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v51 main_v53 main_v54 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v50 main_v54 main_v55 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v56 ((extractStridedSlice S2x32x64x64x64 ![0, 0, 1, 0, 2] · slices_S2x32x66x66x66_S2x32x64x64x64_0_0_1_0_2) : (⟨S2x32x66x66x66, .f32⟩ : BufTy).Contents (Elt F) → (⟨S2x32x64x64x64, .f32⟩ : BufTy).Contents (Elt F)),
    unary main_arg1 main_v57 ((extractStridedSlice S2x1x64x64x64 ![0, 11, 0, 0, 0] · slices_S2x26x64x64x64_S2x1x64x64x64_0_11_0_0_0) : (⟨S2x26x64x64x64, .f32⟩ : BufTy).Contents (Elt F) → (⟨S2x1x64x64x64, .f32⟩ : BufTy).Contents (Elt F)),
    unary main_v57 main_v58 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)) ]

/-- The second piece: the rest of neighbour 11, neighbours 12 to 22 in full, neighbour 23 up to its repeated slab. -/
abbrev ops1 : List (HloOp τ sig (Elt F)) :=
  [ binary main_v56 main_v58 main_v59 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v55 main_v59 main_v60 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v61 ((extractStridedSlice S2x32x64x64x64 ![0, 0, 1, 1, 0] · slices_S2x32x66x66x66_S2x32x64x64x64_0_0_1_1_0) : (⟨S2x32x66x66x66, .f32⟩ : BufTy).Contents (Elt F) → (⟨S2x32x64x64x64, .f32⟩ : BufTy).Contents (Elt F)),
    unary main_arg1 main_v62 ((extractStridedSlice S2x1x64x64x64 ![0, 12, 0, 0, 0] · slices_S2x26x64x64x64_S2x1x64x64x64_0_12_0_0_0) : (⟨S2x26x64x64x64, .f32⟩ : BufTy).Contents (Elt F) → (⟨S2x1x64x64x64, .f32⟩ : BufTy).Contents (Elt F)),
    unary main_v62 main_v63 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v61 main_v63 main_v64 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v60 main_v64 main_v65 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v66 ((extractStridedSlice S2x32x64x64x64 ![0, 0, 1, 1, 2] · slices_S2x32x66x66x66_S2x32x64x64x64_0_0_1_1_2) : (⟨S2x32x66x66x66, .f32⟩ : BufTy).Contents (Elt F) → (⟨S2x32x64x64x64, .f32⟩ : BufTy).Contents (Elt F)),
    unary main_arg1 main_v67 ((extractStridedSlice S2x1x64x64x64 ![0, 13, 0, 0, 0] · slices_S2x26x64x64x64_S2x1x64x64x64_0_13_0_0_0) : (⟨S2x26x64x64x64, .f32⟩ : BufTy).Contents (Elt F) → (⟨S2x1x64x64x64, .f32⟩ : BufTy).Contents (Elt F)),
    unary main_v67 main_v68 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v66 main_v68 main_v69 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v65 main_v69 main_v70 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v71 ((extractStridedSlice S2x32x64x64x64 ![0, 0, 1, 2, 0] · slices_S2x32x66x66x66_S2x32x64x64x64_0_0_1_2_0) : (⟨S2x32x66x66x66, .f32⟩ : BufTy).Contents (Elt F) → (⟨S2x32x64x64x64, .f32⟩ : BufTy).Contents (Elt F)),
    unary main_arg1 main_v72 ((extractStridedSlice S2x1x64x64x64 ![0, 14, 0, 0, 0] · slices_S2x26x64x64x64_S2x1x64x64x64_0_14_0_0_0) : (⟨S2x26x64x64x64, .f32⟩ : BufTy).Contents (Elt F) → (⟨S2x1x64x64x64, .f32⟩ : BufTy).Contents (Elt F)),
    unary main_v72 main_v73 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v71 main_v73 main_v74 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v70 main_v74 main_v75 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v76 ((extractStridedSlice S2x32x64x64x64 ![0, 0, 1, 2, 1] · slices_S2x32x66x66x66_S2x32x64x64x64_0_0_1_2_1) : (⟨S2x32x66x66x66, .f32⟩ : BufTy).Contents (Elt F) → (⟨S2x32x64x64x64, .f32⟩ : BufTy).Contents (Elt F)),
    unary main_arg1 main_v77 ((extractStridedSlice S2x1x64x64x64 ![0, 15, 0, 0, 0] · slices_S2x26x64x64x64_S2x1x64x64x64_0_15_0_0_0) : (⟨S2x26x64x64x64, .f32⟩ : BufTy).Contents (Elt F) → (⟨S2x1x64x64x64, .f32⟩ : BufTy).Contents (Elt F)),
    unary main_v77 main_v78 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v76 main_v78 main_v79 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v75 main_v79 main_v80 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v81 ((extractStridedSlice S2x32x64x64x64 ![0, 0, 1, 2, 2] · slices_S2x32x66x66x66_S2x32x64x64x64_0_0_1_2_2) : (⟨S2x32x66x66x66, .f32⟩ : BufTy).Contents (Elt F) → (⟨S2x32x64x64x64, .f32⟩ : BufTy).Contents (Elt F)),
    unary main_arg1 main_v82 ((extractStridedSlice S2x1x64x64x64 ![0, 16, 0, 0, 0] · slices_S2x26x64x64x64_S2x1x64x64x64_0_16_0_0_0) : (⟨S2x26x64x64x64, .f32⟩ : BufTy).Contents (Elt F) → (⟨S2x1x64x64x64, .f32⟩ : BufTy).Contents (Elt F)),
    unary main_v82 main_v83 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v81 main_v83 main_v84 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v80 main_v84 main_v85 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v86 ((extractStridedSlice S2x32x64x64x64 ![0, 0, 2, 0, 0] · slices_S2x32x66x66x66_S2x32x64x64x64_0_0_2_0_0) : (⟨S2x32x66x66x66, .f32⟩ : BufTy).Contents (Elt F) → (⟨S2x32x64x64x64, .f32⟩ : BufTy).Contents (Elt F)),
    unary main_arg1 main_v87 ((extractStridedSlice S2x1x64x64x64 ![0, 17, 0, 0, 0] · slices_S2x26x64x64x64_S2x1x64x64x64_0_17_0_0_0) : (⟨S2x26x64x64x64, .f32⟩ : BufTy).Contents (Elt F) → (⟨S2x1x64x64x64, .f32⟩ : BufTy).Contents (Elt F)),
    unary main_v87 main_v88 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v86 main_v88 main_v89 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v85 main_v89 main_v90 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v91 ((extractStridedSlice S2x32x64x64x64 ![0, 0, 2, 0, 1] · slices_S2x32x66x66x66_S2x32x64x64x64_0_0_2_0_1) : (⟨S2x32x66x66x66, .f32⟩ : BufTy).Contents (Elt F) → (⟨S2x32x64x64x64, .f32⟩ : BufTy).Contents (Elt F)),
    unary main_arg1 main_v92 ((extractStridedSlice S2x1x64x64x64 ![0, 18, 0, 0, 0] · slices_S2x26x64x64x64_S2x1x64x64x64_0_18_0_0_0) : (⟨S2x26x64x64x64, .f32⟩ : BufTy).Contents (Elt F) → (⟨S2x1x64x64x64, .f32⟩ : BufTy).Contents (Elt F)),
    unary main_v92 main_v93 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v91 main_v93 main_v94 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v90 main_v94 main_v95 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v96 ((extractStridedSlice S2x32x64x64x64 ![0, 0, 2, 0, 2] · slices_S2x32x66x66x66_S2x32x64x64x64_0_0_2_0_2) : (⟨S2x32x66x66x66, .f32⟩ : BufTy).Contents (Elt F) → (⟨S2x32x64x64x64, .f32⟩ : BufTy).Contents (Elt F)),
    unary main_arg1 main_v97 ((extractStridedSlice S2x1x64x64x64 ![0, 19, 0, 0, 0] · slices_S2x26x64x64x64_S2x1x64x64x64_0_19_0_0_0) : (⟨S2x26x64x64x64, .f32⟩ : BufTy).Contents (Elt F) → (⟨S2x1x64x64x64, .f32⟩ : BufTy).Contents (Elt F)),
    unary main_v97 main_v98 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v96 main_v98 main_v99 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v95 main_v99 main_v100 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v101 ((extractStridedSlice S2x32x64x64x64 ![0, 0, 2, 1, 0] · slices_S2x32x66x66x66_S2x32x64x64x64_0_0_2_1_0) : (⟨S2x32x66x66x66, .f32⟩ : BufTy).Contents (Elt F) → (⟨S2x32x64x64x64, .f32⟩ : BufTy).Contents (Elt F)),
    unary main_arg1 main_v102 ((extractStridedSlice S2x1x64x64x64 ![0, 20, 0, 0, 0] · slices_S2x26x64x64x64_S2x1x64x64x64_0_20_0_0_0) : (⟨S2x26x64x64x64, .f32⟩ : BufTy).Contents (Elt F) → (⟨S2x1x64x64x64, .f32⟩ : BufTy).Contents (Elt F)),
    unary main_v102 main_v103 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v101 main_v103 main_v104 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v100 main_v104 main_v105 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v106 ((extractStridedSlice S2x32x64x64x64 ![0, 0, 2, 1, 1] · slices_S2x32x66x66x66_S2x32x64x64x64_0_0_2_1_1) : (⟨S2x32x66x66x66, .f32⟩ : BufTy).Contents (Elt F) → (⟨S2x32x64x64x64, .f32⟩ : BufTy).Contents (Elt F)),
    unary main_arg1 main_v107 ((extractStridedSlice S2x1x64x64x64 ![0, 21, 0, 0, 0] · slices_S2x26x64x64x64_S2x1x64x64x64_0_21_0_0_0) : (⟨S2x26x64x64x64, .f32⟩ : BufTy).Contents (Elt F) → (⟨S2x1x64x64x64, .f32⟩ : BufTy).Contents (Elt F)),
    unary main_v107 main_v108 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v106 main_v108 main_v109 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v105 main_v109 main_v110 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v111 ((extractStridedSlice S2x32x64x64x64 ![0, 0, 2, 1, 2] · slices_S2x32x66x66x66_S2x32x64x64x64_0_0_2_1_2) : (⟨S2x32x66x66x66, .f32⟩ : BufTy).Contents (Elt F) → (⟨S2x32x64x64x64, .f32⟩ : BufTy).Contents (Elt F)),
    unary main_arg1 main_v112 ((extractStridedSlice S2x1x64x64x64 ![0, 22, 0, 0, 0] · slices_S2x26x64x64x64_S2x1x64x64x64_0_22_0_0_0) : (⟨S2x26x64x64x64, .f32⟩ : BufTy).Contents (Elt F) → (⟨S2x1x64x64x64, .f32⟩ : BufTy).Contents (Elt F)),
    unary main_v112 main_v113 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v111 main_v113 main_v114 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v110 main_v114 main_v115 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v116 ((extractStridedSlice S2x32x64x64x64 ![0, 0, 2, 2, 0] · slices_S2x32x66x66x66_S2x32x64x64x64_0_0_2_2_0) : (⟨S2x32x66x66x66, .f32⟩ : BufTy).Contents (Elt F) → (⟨S2x32x64x64x64, .f32⟩ : BufTy).Contents (Elt F)),
    unary main_arg1 main_v117 ((extractStridedSlice S2x1x64x64x64 ![0, 23, 0, 0, 0] · slices_S2x26x64x64x64_S2x1x64x64x64_0_23_0_0_0) : (⟨S2x26x64x64x64, .f32⟩ : BufTy).Contents (Elt F) → (⟨S2x1x64x64x64, .f32⟩ : BufTy).Contents (Elt F)),
    unary main_v117 main_v118 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)) ]

/-- The third piece: the rest of neighbour 23, then neighbours 24 and 25. -/
abbrev ops2 : List (HloOp τ sig (Elt F)) :=
  [ binary main_v116 main_v118 main_v119 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v115 main_v119 main_v120 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v121 ((extractStridedSlice S2x32x64x64x64 ![0, 0, 2, 2, 1] · slices_S2x32x66x66x66_S2x32x64x64x64_0_0_2_2_1) : (⟨S2x32x66x66x66, .f32⟩ : BufTy).Contents (Elt F) → (⟨S2x32x64x64x64, .f32⟩ : BufTy).Contents (Elt F)),
    unary main_arg1 main_v122 ((extractStridedSlice S2x1x64x64x64 ![0, 24, 0, 0, 0] · slices_S2x26x64x64x64_S2x1x64x64x64_0_24_0_0_0) : (⟨S2x26x64x64x64, .f32⟩ : BufTy).Contents (Elt F) → (⟨S2x1x64x64x64, .f32⟩ : BufTy).Contents (Elt F)),
    unary main_v122 main_v123 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v121 main_v123 main_v124 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v120 main_v124 main_v125 (addf : (⟨S2x32x64x64x64, .f32⟩ : BufTy).Contents (Elt F) → (⟨S2x32x64x64x64, .f32⟩ : BufTy).Contents (Elt F) → (⟨S2x32x64x64x64, .f32⟩ : BufTy).Contents (Elt F)),
    unary main_arg0 main_v126 ((extractStridedSlice S2x32x64x64x64 ![0, 0, 2, 2, 2] · slices_S2x32x66x66x66_S2x32x64x64x64_0_0_2_2_2) : (⟨S2x32x66x66x66, .f32⟩ : BufTy).Contents (Elt F) → (⟨S2x32x64x64x64, .f32⟩ : BufTy).Contents (Elt F)),
    unary main_arg1 main_v127 ((extractStridedSlice S2x1x64x64x64 ![0, 25, 0, 0, 0] · slices_S2x26x64x64x64_S2x1x64x64x64_0_25_0_0_0) : (⟨S2x26x64x64x64, .f32⟩ : BufTy).Contents (Elt F) → (⟨S2x1x64x64x64, .f32⟩ : BufTy).Contents (Elt F)),
    unary main_v127 main_v128 (broadcastInDim S2x32x64x64x64 ![0, 1, 2, 3, 4] bcast_S2x1x64x64x64_S2x32x64x64x64_0_1_2_3_4 : (⟨S2x1x64x64x64, .f32⟩ : BufTy).Contents (Elt F) → (⟨S2x32x64x64x64, .f32⟩ : BufTy).Contents (Elt F)),
    binary main_v126 main_v128 main_v129 (mulf : (⟨S2x32x64x64x64, .f32⟩ : BufTy).Contents (Elt F) → (⟨S2x32x64x64x64, .f32⟩ : BufTy).Contents (Elt F) → (⟨S2x32x64x64x64, .f32⟩ : BufTy).Contents (Elt F)),
    binary main_v125 main_v129 main_v130 (addf : (⟨S2x32x64x64x64, .f32⟩ : BufTy).Contents (Elt F) → (⟨S2x32x64x64x64, .f32⟩ : BufTy).Contents (Elt F) → (⟨S2x32x64x64x64, .f32⟩ : BufTy).Contents (Elt F)) ]

/-- All 132 operations, in order. -/
abbrev ops : List (HloOp τ sig (Elt F)) := ops0 ++ (ops1 ++ ops2)

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl

set_option maxRecDepth 8192 in
/-- The program is the sequence of the joined list. -/
theorem main_eq (c : Dev nD) : main (F := F) c = seq ops := by
  simp only [ops, seq_append, ← main_part0_eq c, ← main_part1_eq c, ← main_part2_eq c]
  rfl

/-- The signature scopes no array and no semaphore to a region. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub ..⟩
set_option maxRecDepth 8192 in
theorem ops1_sub : (ops1 : List (HloOp τ sig (Elt F))).Forall fun op => op.bufs ⊆ tcRefs τ sig :=
  ⟨binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub ..⟩
set_option maxRecDepth 8192 in
theorem ops2_sub : (ops2 : List (HloOp τ sig (Elt F))).Forall fun op => op.bufs ⊆ tcRefs τ sig :=
  ⟨binary_bufs_sub .., binary_bufs_sub .., unary_bufs_sub .., unary_bufs_sub .., unary_bufs_sub .., binary_bufs_sub .., binary_bufs_sub .., unary_bufs_sub .., unary_bufs_sub .., unary_bufs_sub .., binary_bufs_sub .., binary_bufs_sub ..⟩

/-- Every operation touches only the core's own arrays. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl⟩

/-- Every operation determines its result. -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h,
    List.forall_iff_forall_mem.mp ops2_fresh op h]

end Cert.ReferenceIdeal.RefRun

end
-- ==== Proof.RefStages.lean ====
/-
  The reference program's running sum, stage by stage, as functions of the two argument arrays.

  A stage takes the running sum `p`, cuts from the padded array `x` the 64-cube that begins at an offset, cuts from
  `a` one channel's slab and repeats it over the 32 channels, multiplies the two entry by entry and adds the product
  to `p`.  `acc0` is the zero array the program starts from, `acc1` ... `acc26` the running sum after each of the 26
  neighbours in increasing number; each names its neighbour's offset (dz, dy, dx) and number.  Everything here is
  stated for any float values: the operations are only composed, not evaluated.
-/
import proofs.«416960_j11115375362872_4_alg».proof.Proof.Gen.ReferenceIdeal

noncomputable section

namespace Cert.ReferenceIdeal.RefValue

open Cert.ReferenceIdeal Cert.ReferenceIdeal.Gen Idealize.ShloMosaic

variable {F : FTy → Type} [FloatOps F]

/-- The padded feature array, the weight array, and an array over the output voxels, as the program's buffers hold them. -/
abbrev TX (F : FTy → Type) : Type := (⟨S2x32x66x66x66, .f32⟩ : BufTy).Contents (Elt F)
abbrev TA (F : FTy → Type) : Type := (⟨S2x26x64x64x64, .f32⟩ : BufTy).Contents (Elt F)
abbrev TO (F : FTy → Type) : Type := (⟨S2x32x64x64x64, .f32⟩ : BufTy).Contents (Elt F)

/-- The 64-cube of `x` that begins at offset `o`. -/
def cut (o : Fin 5 → ℕ) (h : S2x32x66x66x66.Slices o S2x32x64x64x64) (x : TX F) : TO F :=
  extractStridedSlice S2x32x64x64x64 o x h

/-- The one-channel slab of `a` that begins at offset `o`, repeated over the 32 channels. -/
def slab (o : Fin 5 → ℕ) (h : S2x26x64x64x64.Slices o S2x1x64x64x64) (a : TA F) : TO F :=
  broadcastInDim S2x32x64x64x64 ![0, 1, 2, 3, 4] bcast_S2x1x64x64x64_S2x32x64x64x64_0_1_2_3_4
    (extractStridedSlice S2x1x64x64x64 o a h)

/-- One stage: the running sum `p` plus the cut of `x` times the repeated slab of `a`, entry by entry. -/
def stage (o : Fin 5 → ℕ) (h : S2x32x66x66x66.Slices o S2x32x64x64x64)
    (o' : Fin 5 → ℕ) (h' : S2x26x64x64x64.Slices o' S2x1x64x64x64) (p : TO F) (x : TX F) (a : TA F) : TO F :=
  addf p (mulf (cut o h x) (slab o' h' a))

/-- The running sum before any neighbour: the zero constant at every voxel. -/
def acc0 : TO F :=
  broadcastInDim S2x32x64x64x64 ![] bcast_S_S2x32x64x64x64 (constant S_ .f32 0x00000000#32)

/-- The running sum through neighbour 0, at offset (0, 0, 0). -/
def acc1 (x : TX F) (a : TA F) : TO F :=
  stage ![0, 0, 0, 0, 0] slices_S2x32x66x66x66_S2x32x64x64x64_0_0_0_0_0
    ![0, 0, 0, 0, 0] slices_S2x26x64x64x64_S2x1x64x64x64_0_0_0_0_0 (acc0) x a

/-- The running sum through neighbour 1, at offset (0, 0, 1). -/
def acc2 (x : TX F) (a : TA F) : TO F :=
  stage ![0, 0, 0, 0, 1] slices_S2x32x66x66x66_S2x32x64x64x64_0_0_0_0_1
    ![0, 1, 0, 0, 0] slices_S2x26x64x64x64_S2x1x64x64x64_0_1_0_0_0 (acc1 x a) x a

/-- The running sum through neighbour 2, at offset (0, 0, 2). -/
def acc3 (x : TX F) (a : TA F) : TO F :=
  stage ![0, 0, 0, 0, 2] slices_S2x32x66x66x66_S2x32x64x64x64_0_0_0_0_2
    ![0, 2, 0, 0, 0] slices_S2x26x64x64x64_S2x1x64x64x64_0_2_0_0_0 (acc2 x a) x a

/-- The running sum through neighbour 3, at offset (0, 1, 0). -/
def acc4 (x : TX F) (a : TA F) : TO F :=
  stage ![0, 0, 0, 1, 0] slices_S2x32x66x66x66_S2x32x64x64x64_0_0_0_1_0
    ![0, 3, 0, 0, 0] slices_S2x26x64x64x64_S2x1x64x64x64_0_3_0_0_0 (acc3 x a) x a

/-- The running sum through neighbour 4, at offset (0, 1, 1). -/
def acc5 (x : TX F) (a : TA F) : TO F :=
  stage ![0, 0, 0, 1, 1] slices_S2x32x66x66x66_S2x32x64x64x64_0_0_0_1_1
    ![0, 4, 0, 0, 0] slices_S2x26x64x64x64_S2x1x64x64x64_0_4_0_0_0 (acc4 x a) x a

/-- The running sum through neighbour 5, at offset (0, 1, 2). -/
def acc6 (x : TX F) (a : TA F) : TO F :=
  stage ![0, 0, 0, 1, 2] slices_S2x32x66x66x66_S2x32x64x64x64_0_0_0_1_2
    ![0, 5, 0, 0, 0] slices_S2x26x64x64x64_S2x1x64x64x64_0_5_0_0_0 (acc5 x a) x a

/-- The running sum through neighbour 6, at offset (0, 2, 0). -/
def acc7 (x : TX F) (a : TA F) : TO F :=
  stage ![0, 0, 0, 2, 0] slices_S2x32x66x66x66_S2x32x64x64x64_0_0_0_2_0
    ![0, 6, 0, 0, 0] slices_S2x26x64x64x64_S2x1x64x64x64_0_6_0_0_0 (acc6 x a) x a

/-- The running sum through neighbour 7, at offset (0, 2, 1). -/
def acc8 (x : TX F) (a : TA F) : TO F :=
  stage ![0, 0, 0, 2, 1] slices_S2x32x66x66x66_S2x32x64x64x64_0_0_0_2_1
    ![0, 7, 0, 0, 0] slices_S2x26x64x64x64_S2x1x64x64x64_0_7_0_0_0 (acc7 x a) x a

/-- The running sum through neighbour 8, at offset (0, 2, 2). -/
def acc9 (x : TX F) (a : TA F) : TO F :=
  stage ![0, 0, 0, 2, 2] slices_S2x32x66x66x66_S2x32x64x64x64_0_0_0_2_2
    ![0, 8, 0, 0, 0] slices_S2x26x64x64x64_S2x1x64x64x64_0_8_0_0_0 (acc8 x a) x a

/-- The running sum through neighbour 9, at offset (1, 0, 0). -/
def acc10 (x : TX F) (a : TA F) : TO F :=
  stage ![0, 0, 1, 0, 0] slices_S2x32x66x66x66_S2x32x64x64x64_0_0_1_0_0
    ![0, 9, 0, 0, 0] slices_S2x26x64x64x64_S2x1x64x64x64_0_9_0_0_0 (acc9 x a) x a

/-- The running sum through neighbour 10, at offset (1, 0, 1). -/
def acc11 (x : TX F) (a : TA F) : TO F :=
  stage ![0, 0, 1, 0, 1] slices_S2x32x66x66x66_S2x32x64x64x64_0_0_1_0_1
    ![0, 10, 0, 0, 0] slices_S2x26x64x64x64_S2x1x64x64x64_0_10_0_0_0 (acc10 x a) x a

/-- The running sum through neighbour 11, at offset (1, 0, 2). -/
def acc12 (x : TX F) (a : TA F) : TO F :=
  stage ![0, 0, 1, 0, 2] slices_S2x32x66x66x66_S2x32x64x64x64_0_0_1_0_2
    ![0, 11, 0, 0, 0] slices_S2x26x64x64x64_S2x1x64x64x64_0_11_0_0_0 (acc11 x a) x a

/-- The running sum through neighbour 12, at offset (1, 1, 0). -/
def acc13 (x : TX F) (a : TA F) : TO F :=
  stage ![0, 0, 1, 1, 0] slices_S2x32x66x66x66_S2x32x64x64x64_0_0_1_1_0
    ![0, 12, 0, 0, 0] slices_S2x26x64x64x64_S2x1x64x64x64_0_12_0_0_0 (acc12 x a) x a

/-- The running sum through neighbour 13, at offset (1, 1, 2). -/
def acc14 (x : TX F) (a : TA F) : TO F :=
  stage ![0, 0, 1, 1, 2] slices_S2x32x66x66x66_S2x32x64x64x64_0_0_1_1_2
    ![0, 13, 0, 0, 0] slices_S2x26x64x64x64_S2x1x64x64x64_0_13_0_0_0 (acc13 x a) x a

/-- The running sum through neighbour 14, at offset (1, 2, 0). -/
def acc15 (x : TX F) (a : TA F) : TO F :=
  stage ![0, 0, 1, 2, 0] slices_S2x32x66x66x66_S2x32x64x64x64_0_0_1_2_0
    ![0, 14, 0, 0, 0] slices_S2x26x64x64x64_S2x1x64x64x64_0_14_0_0_0 (acc14 x a) x a

/-- The running sum through neighbour 15, at offset (1, 2, 1). -/
def acc16 (x : TX F) (a : TA F) : TO F :=
  stage ![0, 0, 1, 2, 1] slices_S2x32x66x66x66_S2x32x64x64x64_0_0_1_2_1
    ![0, 15, 0, 0, 0] slices_S2x26x64x64x64_S2x1x64x64x64_0_15_0_0_0 (acc15 x a) x a

/-- The running sum through neighbour 16, at offset (1, 2, 2). -/
def acc17 (x : TX F) (a : TA F) : TO F :=
  stage ![0, 0, 1, 2, 2] slices_S2x32x66x66x66_S2x32x64x64x64_0_0_1_2_2
    ![0, 16, 0, 0, 0] slices_S2x26x64x64x64_S2x1x64x64x64_0_16_0_0_0 (acc16 x a) x a

/-- The running sum through neighbour 17, at offset (2, 0, 0). -/
def acc18 (x : TX F) (a : TA F) : TO F :=
  stage ![0, 0, 2, 0, 0] slices_S2x32x66x66x66_S2x32x64x64x64_0_0_2_0_0
    ![0, 17, 0, 0, 0] slices_S2x26x64x64x64_S2x1x64x64x64_0_17_0_0_0 (acc17 x a) x a

/-- The running sum through neighbour 18, at offset (2, 0, 1). -/
def acc19 (x : TX F) (a : TA F) : TO F :=
  stage ![0, 0, 2, 0, 1] slices_S2x32x66x66x66_S2x32x64x64x64_0_0_2_0_1
    ![0, 18, 0, 0, 0] slices_S2x26x64x64x64_S2x1x64x64x64_0_18_0_0_0 (acc18 x a) x a

/-- The running sum through neighbour 19, at offset (2, 0, 2). -/
def acc20 (x : TX F) (a : TA F) : TO F :=
  stage ![0, 0, 2, 0, 2] slices_S2x32x66x66x66_S2x32x64x64x64_0_0_2_0_2
    ![0, 19, 0, 0, 0] slices_S2x26x64x64x64_S2x1x64x64x64_0_19_0_0_0 (acc19 x a) x a

/-- The running sum through neighbour 20, at offset (2, 1, 0). -/
def acc21 (x : TX F) (a : TA F) : TO F :=
  stage ![0, 0, 2, 1, 0] slices_S2x32x66x66x66_S2x32x64x64x64_0_0_2_1_0
    ![0, 20, 0, 0, 0] slices_S2x26x64x64x64_S2x1x64x64x64_0_20_0_0_0 (acc20 x a) x a

/-- The running sum through neighbour 21, at offset (2, 1, 1). -/
def acc22 (x : TX F) (a : TA F) : TO F :=
  stage ![0, 0, 2, 1, 1] slices_S2x32x66x66x66_S2x32x64x64x64_0_0_2_1_1
    ![0, 21, 0, 0, 0] slices_S2x26x64x64x64_S2x1x64x64x64_0_21_0_0_0 (acc21 x a) x a

/-- The running sum through neighbour 22, at offset (2, 1, 2). -/
def acc23 (x : TX F) (a : TA F) : TO F :=
  stage ![0, 0, 2, 1, 2] slices_S2x32x66x66x66_S2x32x64x64x64_0_0_2_1_2
    ![0, 22, 0, 0, 0] slices_S2x26x64x64x64_S2x1x64x64x64_0_22_0_0_0 (acc22 x a) x a

/-- The running sum through neighbour 23, at offset (2, 2, 0). -/
def acc24 (x : TX F) (a : TA F) : TO F :=
  stage ![0, 0, 2, 2, 0] slices_S2x32x66x66x66_S2x32x64x64x64_0_0_2_2_0
    ![0, 23, 0, 0, 0] slices_S2x26x64x64x64_S2x1x64x64x64_0_23_0_0_0 (acc23 x a) x a

/-- The running sum through neighbour 24, at offset (2, 2, 1). -/
def acc25 (x : TX F) (a : TA F) : TO F :=
  stage ![0, 0, 2, 2, 1] slices_S2x32x66x66x66_S2x32x64x64x64_0_0_2_2_1
    ![0, 24, 0, 0, 0] slices_S2x26x64x64x64_S2x1x64x64x64_0_24_0_0_0 (acc24 x a) x a

/-- The running sum through neighbour 25, at offset (2, 2, 2). -/
def acc26 (x : TX F) (a : TA F) : TO F :=
  stage ![0, 0, 2, 2, 2] slices_S2x32x66x66x66_S2x32x64x64x64_0_0_2_2_2
    ![0, 25, 0, 0, 0] slices_S2x26x64x64x64_S2x1x64x64x64_0_25_0_0_0 (acc25 x a) x a

end Cert.ReferenceIdeal.RefValue

end
-- ==== Proof.RefWin0.lean ====
/-
  The first piece of the reference program, read back: what the arrays hold after its 60 operations.

  The piece ends in the middle of neighbour 11's stage, so three arrays carry over to the next piece: the running
  sum through neighbour 10, neighbour 11's cut of `x` at offset (1, 0, 2), and neighbour 11's repeated slab of `a`.
  The two argument arrays are written by no operation and keep their contents.
-/
import proofs.«416960_j11115375362872_4_alg».proof.Proof.RefOps
import proofs.«416960_j11115375362872_4_alg».proof.Proof.RefStages

noncomputable section

namespace Cert.ReferenceIdeal.RefRun

open Cert.ReferenceIdeal Cert.ReferenceIdeal.Gen Cert.ReferenceIdeal.RefValue Idealize.ShloMosaic Idealize.ShloMosaic.TcCoe
  Idealize.SL.Sem Idealize.ShloMosaic.StableHlo

variable {F : FTy → Type} [FloatOps F]

/-- The core's arrays after the first piece, from contents `V0`. -/
def val1 (V0 : Valuation τ sig (Elt F)) : Valuation τ sig (Elt F) := after ops0 V0

set_option maxRecDepth 8192 in
set_option maxHeartbeats 4000000 in
theorem val1_arg0 (V0 : Valuation τ sig (Elt F)) :
    val1 V0 (no_index (Proc.devRef .tc main_arg0)) = V0 (Proc.devRef .tc main_arg0) := by
  unfold val1
  simp only [ops0]
  after_results_simp

set_option maxRecDepth 8192 in
set_option maxHeartbeats 4000000 in
theorem val1_arg1 (V0 : Valuation τ sig (Elt F)) :
    val1 V0 (no_index (Proc.devRef .tc main_arg1)) = V0 (Proc.devRef .tc main_arg1) := by
  unfold val1
  simp only [ops0]
  after_results_simp

set_option maxRecDepth 8192 in
set_option maxHeartbeats 4000000 in
/-- The running sum through neighbour 10. -/
theorem val1_v55 (V0 : Valuation τ sig (Elt F)) :
    val1 V0 (no_index (Proc.devRef .tc main_v55)) = acc11 (V0 (Proc.devRef .tc main_arg0)) (V0 (Proc.devRef .tc main_arg1)) := by
  unfold val1
  simp only [ops0]
  after_results_simp <;> rfl

set_option maxRecDepth 8192 in
set_option maxHeartbeats 4000000 in
/-- Neighbour 11's cut of `x`. -/
theorem val1_v56 (V0 : Valuation τ sig (Elt F)) :
    val1 V0 (no_index (Proc.devRef .tc main_v56))
      = cut ![0, 0, 1, 0, 2] slices_S2x32x66x66x66_S2x32x64x64x64_0_0_1_0_2 (V0 (Proc.devRef .tc main_arg0)) := by
  unfold val1
  simp only [ops0]
  after_results_simp <;> rfl

set_option maxRecDepth 8192 in
set_option maxHeartbeats 4000000 in
/-- Neighbour 11's repeated slab of `a`. -/
theorem val1_v58 (V0 : Valuation τ sig (Elt F)) :
    val1 V0 (no_index (Proc.devRef .tc main_v58))
      = slab ![0, 11, 0, 0, 0] slices_S2x26x64x64x64_S2x1x64x64x64_0_11_0_0_0 (V0 (Proc.devRef .tc main_arg1)) := by
  unfold val1
  simp only [ops0]
  after_results_simp <;> rfl

end Cert.ReferenceIdeal.RefRun

end
-- ==== Proof.RefWin1.lean ====
/-
  The second piece of the reference program, read back: what the arrays hold after its 60 operations.

  The piece takes over the running sum through neighbour 10 and neighbour 11's cut and slab, finishes neighbour 11,
  runs neighbours 12 to 22 in full, and ends in the middle of neighbour 23's stage.  Three arrays carry over again:
  the running sum through neighbour 22, neighbour 23's cut of `x` at offset (2, 2, 0), and its repeated slab of `a`.
-/
import proofs.«416960_j11115375362872_4_alg».proof.Proof.RefWin0

noncomputable section

namespace Cert.ReferenceIdeal.RefRun

open Cert.ReferenceIdeal Cert.ReferenceIdeal.Gen Cert.ReferenceIdeal.RefValue Idealize.ShloMosaic Idealize.ShloMosaic.TcCoe
  Idealize.SL.Sem Idealize.ShloMosaic.StableHlo

variable {F : FTy → Type} [FloatOps F]

/-- The core's arrays after the first two pieces. -/
def val2 (V0 : Valuation τ sig (Elt F)) : Valuation τ sig (Elt F) := after ops1 (val1 V0)

set_option maxRecDepth 8192 in
set_option maxHeartbeats 4000000 in
theorem val2_arg0 (V0 : Valuation τ sig (Elt F)) :
    val2 V0 (no_index (Proc.devRef .tc main_arg0)) = V0 (Proc.devRef .tc main_arg0) := by
  unfold val2
  simp only [ops1]
  after_results_simp
  exact val1_arg0 V0

set_option maxRecDepth 8192 in
set_option maxHeartbeats 4000000 in
theorem val2_arg1 (V0 : Valuation τ sig (Elt F)) :
    val2 V0 (no_index (Proc.devRef .tc main_arg1)) = V0 (Proc.devRef .tc main_arg1) := by
  unfold val2
  simp only [ops1]
  after_results_simp
  exact val1_arg1 V0

set_option maxRecDepth 8192 in
set_option maxHeartbeats 4000000 in
/-- The running sum through neighbour 22. -/
theorem val2_v115 (V0 : Valuation τ sig (Elt F)) :
    val2 V0 (no_index (Proc.devRef .tc main_v115)) = acc23 (V0 (Proc.devRef .tc main_arg0)) (V0 (Proc.devRef .tc main_arg1)) := by
  unfold val2
  simp only [ops1]
  after_results_simp
  simp only [val1_v55, val1_v56, val1_v58, val1_arg0, val1_arg1] <;> rfl

set_option maxRecDepth 8192 in
set_option maxHeartbeats 4000000 in
/-- Neighbour 23's cut of `x`. -/
theorem val2_v116 (V0 : Valuation τ sig (Elt F)) :
    val2 V0 (no_index (Proc.devRef .tc main_v116))
      = cut ![0, 0, 2, 2, 0] slices_S2x32x66x66x66_S2x32x64x64x64_0_0_2_2_0 (V0 (Proc.devRef .tc main_arg0)) := by
  unfold val2
  simp only [ops1]
  after_results_simp
  simp only [val1_arg0] <;> rfl

set_option maxRecDepth 8192 in
set_option maxHeartbeats 4000000 in
/-- Neighbour 23's repeated slab of `a`. -/
theorem val2_v118 (V0 : Valuation τ sig (Elt F)) :
    val2 V0 (no_index (Proc.devRef .tc main_v118))
      = slab ![0, 23, 0, 0, 0] slices_S2x26x64x64x64_S2x1x64x64x64_0_23_0_0_0 (V0 (Proc.devRef .tc main_arg1)) := by
  unfold val2
  simp only [ops1]
  after_results_simp
  simp only [val1_arg1] <;> rfl

end Cert.ReferenceIdeal.RefRun

end
-- ==== Proof.RefWin2.lean ====
/-
  The third piece of the reference program, read back, and the whole program's result.

  The last 12 operations finish neighbour 23 and run neighbours 24 and 25; the result array then holds the running
  sum through all 26 neighbours, as a function of the two argument arrays the program started with, and the
  argument arrays are as they were.  The contents after the joined list of all operations are the contents after
  the three pieces one after the other.
-/
import proofs.«416960_j11115375362872_4_alg».proof.Proof.RefWin1

noncomputable section

namespace Cert.ReferenceIdeal.RefRun

open Cert.ReferenceIdeal Cert.ReferenceIdeal.Gen Cert.ReferenceIdeal.RefValue Idealize.ShloMosaic Idealize.ShloMosaic.TcCoe
  Idealize.SL.Sem Idealize.ShloMosaic.StableHlo

variable {F : FTy → Type} [FloatOps F]

/-- The core's arrays after all three pieces. -/
def val3 (V0 : Valuation τ sig (Elt F)) : Valuation τ sig (Elt F) := after ops2 (val2 V0)

set_option maxRecDepth 8192 in
set_option maxHeartbeats 4000000 in
theorem val3_arg0 (V0 : Valuation τ sig (Elt F)) :
    val3 V0 (no_index (Proc.devRef .tc main_arg0)) = V0 (Proc.devRef .tc main_arg0) := by
  unfold val3
  simp only [ops2]
  after_results_simp
  exact val2_arg0 V0

set_option maxRecDepth 8192 in
set_option maxHeartbeats 4000000 in
theorem val3_arg1 (V0 : Valuation τ sig (Elt F)) :
    val3 V0 (no_index (Proc.devRef .tc main_arg1)) = V0 (Proc.devRef .tc main_arg1) := by
  unfold val3
  simp only [ops2]
  after_results_simp
  exact val2_arg1 V0

set_option maxRecDepth 8192 in
set_option maxHeartbeats 4000000 in
/-- The result array: the running sum through all 26 neighbours. -/
theorem val3_v130 (V0 : Valuation τ sig (Elt F)) :
    val3 V0 (no_index (Proc.devRef .tc main_v130)) = acc26 (V0 (Proc.devRef .tc main_arg0)) (V0 (Proc.devRef .tc main_arg1)) := by
  unfold val3
  simp only [ops2]
  after_results_simp
  simp only [val2_v115, val2_v116, val2_v118, val2_arg0, val2_arg1] <;> rfl

/-- Running two lists one after the other is running their concatenation. -/
theorem after_join : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_join l₁ l₂]

/-- The contents after the joined list are the contents after the three pieces in turn. -/
theorem after_ops (V0 : Valuation τ sig (Elt F)) : after ops V0 = val3 V0 := by
  unfold ops
  rw [after_join, after_join]
  rfl

end Cert.ReferenceIdeal.RefRun

end
-- ==== Proof.RefRun.lean ====
/-
  The run of the reference program: every execution ends with the result array at the running sum through all 26
  neighbours, a function of the two argument arrays as the run found them, and the argument arrays unchanged.

  A straight line of tensor operations, on a signature that scopes nothing, runs to the end from any memory with
  zero counters, and each array of the core ends at what the operations, applied in order, leave there.  The
  program is such a line (the joined list of its three pieces), and what the line leaves in the result array and
  in the two argument arrays was read off piece by piece.
-/
import proofs.«416960_j11115375362872_4_alg».proof.Proof.RefWin2

noncomputable section

namespace Cert.ReferenceIdeal.RefRun

open Cert.ReferenceIdeal Cert.ReferenceIdeal.Gen Cert.ReferenceIdeal.RefValue Idealize.ShloMosaic Idealize.ShloMosaic.TcCoe
  Idealize.SL.Sem Idealize.ShloMosaic.StableHlo

variable {F : FTy → Type} [FloatOps F]

set_option maxRecDepth 8192 in
theorem run_acc (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130)
        = acc26 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v130).trans (by simp only [after_ops]; exact val3_v130 (launchContents m c)),
       (h c main_arg0).trans (by simp only [after_ops]; exact val3_arg0 (launchContents m c)),
       (h c main_arg1).trans (by simp only [after_ops]; exact val3_arg1 (launchContents m c))⟩)
    (run_seq scopedRefs_eq scopedSems_eq defs main (fun _ => ops) main_eq (fun _ => ops_sub) m ρ
      (fun _ => ops_fresh))

end Cert.ReferenceIdeal.RefRun

end
-- ==== Proof.RefRead.lean ====
/-
  The reference program's running sum, read at an output voxel over the extended reals.

  Read at a voxel `i`, the 64-cube cut from the padded array at offset (0, 0, dz, dy, dx) is `x` at `i` moved by the
  offset; the one-channel slab of `a` cut at channel k and repeated over the 32 channels is `a` at `i` with k in place
  of the channel; sums and products of arrays are taken entry by entry.  So a stage adds `term x a k i` to the
  running sum at `i` (`stage_term`, once for all stages), each of the 26 stages adds the term of its neighbour
  (`step0` ... `step25`), the start is zero, and the last running sum is zero plus the 26 terms in increasing
  neighbour number: `byNumberSum`.
-/
import proofs.«416960_j11115375362872_4_alg».proof.Proof.RefStages
import proofs.«416960_j11115375362872_4_alg».proof.Proof.Spec
import proofs.«416960_j11115375362872_4_alg».proof.Proof.Terms
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.Stencil

/-- The cut of `x` at offset `o`, read at a voxel: `x` at any index whose coordinates are the voxel's plus the offset. -/
theorem cut_apply {F : FTy → Type} [FloatOps F] (o : Fin 5 → ℕ) (h : S2x32x66x66x66.Slices o S2x32x64x64x64)
    (x : TX F) (i : S2x32x64x64x64.Idx) (j : S2x32x66x66x66.Idx)
    (h0 : (j 0).val = o 0 + (i 0).val) (h1 : (j 1).val = o 1 + (i 1).val) (h2 : (j 2).val = o 2 + (i 2).val)
    (h3 : (j 3).val = o 3 + (i 3).val) (h4 : (j 4).val = o 4 + (i 4).val) : cut o h x i = x j := by
  unfold cut
  exact extractStridedSlice_apply o x h i j (fun c => match c with
    | ⟨0, _⟩ => by exact h0
    | ⟨1, _⟩ => by exact h1
    | ⟨2, _⟩ => by exact h2
    | ⟨3, _⟩ => by exact h3
    | ⟨4, _⟩ => by exact h4)

/-- The voxel's place in a one-channel slab: channel 0, the other coordinates the voxel's. -/
def inSlab (i : S2x32x64x64x64.Idx) : S2x1x64x64x64.Idx := ix5 (i 0) (0 : Fin 1) (i 2) (i 3) (i 4)

/-- The repeated slab of `a` at offset `o`, read at a voxel: `a` at any index whose channel is the offset's and
    whose other coordinates are the voxel's plus the offset. -/
theorem slab_apply {F : FTy → Type} [FloatOps F] (o : Fin 5 → ℕ) (h : S2x26x64x64x64.Slices o S2x1x64x64x64)
    (a : TA F) (i : S2x32x64x64x64.Idx) (j : S2x26x64x64x64.Idx)
    (g0 : (j 0).val = o 0 + (i 0).val) (g1 : (j 1).val = o 1 + 0) (g2 : (j 2).val = o 2 + (i 2).val)
    (g3 : (j 3).val = o 3 + (i 3).val) (g4 : (j 4).val = o 4 + (i 4).val) : slab o h a i = a j := by
  unfold slab
  refine (broadcastInDim_apply ![0, 1, 2, 3, 4] bcast_S2x1x64x64x64_S2x32x64x64x64_0_1_2_3_4
    (extractStridedSlice S2x1x64x64x64 o a h) i (inSlab i) (fun c => match c with
      | ⟨0, _⟩ => by show (i 0).val = if (2 : Nat) = 1 then 0 else (i 0).val; rw [if_neg (by decide)]
      | ⟨1, _⟩ => by show 0 = if (1 : Nat) = 1 then 0 else (i 1).val; rw [if_pos rfl]
      | ⟨2, _⟩ => by show (i 2).val = if (64 : Nat) = 1 then 0 else (i 2).val; rw [if_neg (by decide)]
      | ⟨3, _⟩ => by show (i 3).val = if (64 : Nat) = 1 then 0 else (i 3).val; rw [if_neg (by decide)]
      | ⟨4, _⟩ => by show (i 4).val = if (64 : Nat) = 1 then 0 else (i 4).val; rw [if_neg (by decide)])).trans ?_
  exact extractStridedSlice_apply o a h (inSlab i) j (fun c => match c with
    | ⟨0, _⟩ => by exact g0
    | ⟨1, _⟩ => by exact g1
    | ⟨2, _⟩ => by exact g2
    | ⟨3, _⟩ => by exact g3
    | ⟨4, _⟩ => by exact g4)

/-- A stage whose cut begins at neighbour `k`'s offset and whose slab is channel `k` adds neighbour `k`'s term to the
    running sum, at every voxel. -/
theorem stage_term (k : Fin 26) (kn : ℕ) (hk : k.val = kn) (oz oy ox : ℕ)
    (hz : dz k = oz) (hy : dy k = oy) (hx : dx k = ox)
    (h : S2x32x66x66x66.Slices ![0, 0, oz, oy, ox] S2x32x64x64x64)
    (h' : S2x26x64x64x64.Slices ![0, kn, 0, 0, 0] S2x1x64x64x64)
    (p : TO Ideal) (x : TX Ideal) (a : TA Ideal) (i : S2x32x64x64x64.Idx) :
    stage ![0, 0, oz, oy, ox] h ![0, kn, 0, 0, 0] h' p x a i = p i + term x a k i := by
  subst hk hz hy hx
  unfold stage
  rw [addf_apply, mulf_apply,
    cut_apply _ h x i
      (ix5 (i 0) (i 1) (shift (i 2) (dz k) (dz_le k)) (shift (i 3) (dy k) (dy_le k)) (shift (i 4) (dx k) (dx_le k)))
      (Nat.zero_add _).symm (Nat.zero_add _).symm (Nat.add_comm _ _) (Nat.add_comm _ _) (Nat.add_comm _ _),
    slab_apply _ h' a i (ix5 (i 0) k (i 2) (i 3) (i 4))
      (Nat.zero_add _).symm rfl (Nat.zero_add _).symm (Nat.zero_add _).symm (Nat.zero_add _).symm]
  rfl

/-- The running sum starts as zero at every voxel. -/
theorem start (i : S2x32x64x64x64.Idx) : (acc0 (F := Ideal) i : EReal) = 0 := by
  unfold acc0
  refine (broadcastInDim_apply (![] : Fin 0 → Fin S2x32x64x64x64.rank) bcast_S_S2x32x64x64x64
    (constant (F := Ideal) S_ .f32 0x00000000#32) i (fun c => c.elim0) (fun c => c.elim0)).trans ?_
  exact Ideal.ofBits_zero_f32

/-- Neighbour 0, at offset (0, 0, 0). -/
theorem step0 (x : TX Ideal) (a : TA Ideal) (i : S2x32x64x64x64.Idx) :
    acc1 x a i = (acc0 (F := Ideal)) i + term x a 0 i :=
  stage_term 0 0 rfl 0 0 0 rfl rfl rfl _ _ acc0 x a i

/-- Neighbour 1, at offset (0, 0, 1). -/
theorem step1 (x : TX Ideal) (a : TA Ideal) (i : S2x32x64x64x64.Idx) :
    acc2 x a i = acc1 x a i + term x a 1 i :=
  stage_term 1 1 rfl 0 0 1 rfl rfl rfl _ _ (acc1 x a) x a i

/-- Neighbour 2, at offset (0, 0, 2). -/
theorem step2 (x : TX Ideal) (a : TA Ideal) (i : S2x32x64x64x64.Idx) :
    acc3 x a i = acc2 x a i + term x a 2 i :=
  stage_term 2 2 rfl 0 0 2 rfl rfl rfl _ _ (acc2 x a) x a i

/-- Neighbour 3, at offset (0, 1, 0). -/
theorem step3 (x : TX Ideal) (a : TA Ideal) (i : S2x32x64x64x64.Idx) :
    acc4 x a i = acc3 x a i + term x a 3 i :=
  stage_term 3 3 rfl 0 1 0 rfl rfl rfl _ _ (acc3 x a) x a i

/-- Neighbour 4, at offset (0, 1, 1). -/
theorem step4 (x : TX Ideal) (a : TA Ideal) (i : S2x32x64x64x64.Idx) :
    acc5 x a i = acc4 x a i + term x a 4 i :=
  stage_term 4 4 rfl 0 1 1 rfl rfl rfl _ _ (acc4 x a) x a i

/-- Neighbour 5, at offset (0, 1, 2). -/
theorem step5 (x : TX Ideal) (a : TA Ideal) (i : S2x32x64x64x64.Idx) :
    acc6 x a i = acc5 x a i + term x a 5 i :=
  stage_term 5 5 rfl 0 1 2 rfl rfl rfl _ _ (acc5 x a) x a i

/-- Neighbour 6, at offset (0, 2, 0). -/
theorem step6 (x : TX Ideal) (a : TA Ideal) (i : S2x32x64x64x64.Idx) :
    acc7 x a i = acc6 x a i + term x a 6 i :=
  stage_term 6 6 rfl 0 2 0 rfl rfl rfl _ _ (acc6 x a) x a i

/-- Neighbour 7, at offset (0, 2, 1). -/
theorem step7 (x : TX Ideal) (a : TA Ideal) (i : S2x32x64x64x64.Idx) :
    acc8 x a i = acc7 x a i + term x a 7 i :=
  stage_term 7 7 rfl 0 2 1 rfl rfl rfl _ _ (acc7 x a) x a i

/-- Neighbour 8, at offset (0, 2, 2). -/
theorem step8 (x : TX Ideal) (a : TA Ideal) (i : S2x32x64x64x64.Idx) :
    acc9 x a i = acc8 x a i + term x a 8 i :=
  stage_term 8 8 rfl 0 2 2 rfl rfl rfl _ _ (acc8 x a) x a i

/-- Neighbour 9, at offset (1, 0, 0). -/
theorem step9 (x : TX Ideal) (a : TA Ideal) (i : S2x32x64x64x64.Idx) :
    acc10 x a i = acc9 x a i + term x a 9 i :=
  stage_term 9 9 rfl 1 0 0 rfl rfl rfl _ _ (acc9 x a) x a i

/-- Neighbour 10, at offset (1, 0, 1). -/
theorem step10 (x : TX Ideal) (a : TA Ideal) (i : S2x32x64x64x64.Idx) :
    acc11 x a i = acc10 x a i + term x a 10 i :=
  stage_term 10 10 rfl 1 0 1 rfl rfl rfl _ _ (acc10 x a) x a i

/-- Neighbour 11, at offset (1, 0, 2). -/
theorem step11 (x : TX Ideal) (a : TA Ideal) (i : S2x32x64x64x64.Idx) :
    acc12 x a i = acc11 x a i + term x a 11 i :=
  stage_term 11 11 rfl 1 0 2 rfl rfl rfl _ _ (acc11 x a) x a i

/-- Neighbour 12, at offset (1, 1, 0): the last one before the centre, which is skipped. -/
theorem step12 (x : TX Ideal) (a : TA Ideal) (i : S2x32x64x64x64.Idx) :
    acc13 x a i = acc12 x a i + term x a 12 i :=
  stage_term 12 12 rfl 1 1 0 rfl rfl rfl _ _ (acc12 x a) x a i

/-- Neighbour 13, at offset (1, 1, 2): the first one past the centre. -/
theorem step13 (x : TX Ideal) (a : TA Ideal) (i : S2x32x64x64x64.Idx) :
    acc14 x a i = acc13 x a i + term x a 13 i :=
  stage_term 13 13 rfl 1 1 2 rfl rfl rfl _ _ (acc13 x a) x a i

/-- Neighbour 14, at offset (1, 2, 0). -/
theorem step14 (x : TX Ideal) (a : TA Ideal) (i : S2x32x64x64x64.Idx) :
    acc15 x a i = acc14 x a i + term x a 14 i :=
  stage_term 14 14 rfl 1 2 0 rfl rfl rfl _ _ (acc14 x a) x a i

/-- Neighbour 15, at offset (1, 2, 1). -/
theorem step15 (x : TX Ideal) (a : TA Ideal) (i : S2x32x64x64x64.Idx) :
    acc16 x a i = acc15 x a i + term x a 15 i :=
  stage_term 15 15 rfl 1 2 1 rfl rfl rfl _ _ (acc15 x a) x a i

/-- Neighbour 16, at offset (1, 2, 2). -/
theorem step16 (x : TX Ideal) (a : TA Ideal) (i : S2x32x64x64x64.Idx) :
    acc17 x a i = acc16 x a i + term x a 16 i :=
  stage_term 16 16 rfl 1 2 2 rfl rfl rfl _ _ (acc16 x a) x a i

/-- Neighbour 17, at offset (2, 0, 0). -/
theorem step17 (x : TX Ideal) (a : TA Ideal) (i : S2x32x64x64x64.Idx) :
    acc18 x a i = acc17 x a i + term x a 17 i :=
  stage_term 17 17 rfl 2 0 0 rfl rfl rfl _ _ (acc17 x a) x a i

/-- Neighbour 18, at offset (2, 0, 1). -/
theorem step18 (x : TX Ideal) (a : TA Ideal) (i : S2x32x64x64x64.Idx) :
    acc19 x a i = acc18 x a i + term x a 18 i :=
  stage_term 18 18 rfl 2 0 1 rfl rfl rfl _ _ (acc18 x a) x a i

/-- Neighbour 19, at offset (2, 0, 2). -/
theorem step19 (x : TX Ideal) (a : TA Ideal) (i : S2x32x64x64x64.Idx) :
    acc20 x a i = acc19 x a i + term x a 19 i :=
  stage_term 19 19 rfl 2 0 2 rfl rfl rfl _ _ (acc19 x a) x a i

/-- Neighbour 20, at offset (2, 1, 0). -/
theorem step20 (x : TX Ideal) (a : TA Ideal) (i : S2x32x64x64x64.Idx) :
    acc21 x a i = acc20 x a i + term x a 20 i :=
  stage_term 20 20 rfl 2 1 0 rfl rfl rfl _ _ (acc20 x a) x a i

/-- Neighbour 21, at offset (2, 1, 1). -/
theorem step21 (x : TX Ideal) (a : TA Ideal) (i : S2x32x64x64x64.Idx) :
    acc22 x a i = acc21 x a i + term x a 21 i :=
  stage_term 21 21 rfl 2 1 1 rfl rfl rfl _ _ (acc21 x a) x a i

/-- Neighbour 22, at offset (2, 1, 2). -/
theorem step22 (x : TX Ideal) (a : TA Ideal) (i : S2x32x64x64x64.Idx) :
    acc23 x a i = acc22 x a i + term x a 22 i :=
  stage_term 22 22 rfl 2 1 2 rfl rfl rfl _ _ (acc22 x a) x a i

/-- Neighbour 23, at offset (2, 2, 0). -/
theorem step23 (x : TX Ideal) (a : TA Ideal) (i : S2x32x64x64x64.Idx) :
    acc24 x a i = acc23 x a i + term x a 23 i :=
  stage_term 23 23 rfl 2 2 0 rfl rfl rfl _ _ (acc23 x a) x a i

/-- Neighbour 24, at offset (2, 2, 1). -/
theorem step24 (x : TX Ideal) (a : TA Ideal) (i : S2x32x64x64x64.Idx) :
    acc25 x a i = acc24 x a i + term x a 24 i :=
  stage_term 24 24 rfl 2 2 1 rfl rfl rfl _ _ (acc24 x a) x a i

/-- Neighbour 25, at offset (2, 2, 2). -/
theorem step25 (x : TX Ideal) (a : TA Ideal) (i : S2x32x64x64x64.Idx) :
    acc26 x a i = acc25 x a i + term x a 25 i :=
  stage_term 25 25 rfl 2 2 2 rfl rfl rfl _ _ (acc25 x a) x a i

/-- The last running sum at a voxel: zero and the 26 terms, added in increasing neighbour number. -/
theorem result_at (x : TX Ideal) (a : TA Ideal) (i : S2x32x64x64x64.Idx) : acc26 x a i = byNumberSum x a i := by
  rw [byNumberSum_apply, step25, step24, step23, step22, step21, step20, step19, step18, step17, step16, step15,
    step14, step13, step12, step11, step10, step9, step8, step7, step6, step5, step4, step3, step2, step1, step0, start]

/-- The reference's result, as a function of its two argument arrays, is the stencil in increasing neighbour number. -/
theorem result_eq (x : FVec Ideal S2x32x66x66x66 .f32) (a : FVec Ideal S2x26x64x64x64 .f32) :
    acc26 (F := Ideal) x a = byNumberSum x a :=
  funext fun i => result_at x a i

end Cert.ReferenceIdeal.RefValue

end
-- ==== Proof.RefSide.lean ====
/-
  The reference program's result, read back at the extended reals, is the stencil with the neighbours added in
  increasing number.

  The program keeps a running sum, an array over the output voxels that starts as zero everywhere.  For each
  neighbour number k = 0, 1, ..., 25 in turn it cuts from the padded array `x` the 64-cube that begins at the
  neighbour's offset (dz, dy, dx), cuts from `a` the slab of channel k, repeats that slab over the 32 channels,
  multiplies the two entry by entry and adds the product to the running sum.  Its run ends with the result array
  at the last running sum, as a function of the argument arrays; read at an output voxel that function is zero plus
  the 26 terms `term x a k i` in increasing k.  Put together: the run ends with the result array at `byNumberSum`
  of the argument arrays, and the argument arrays unchanged.
-/
import proofs.«416960_j11115375362872_4_alg».proof.Proof.RefRun
import proofs.«416960_j11115375362872_4_alg».proof.Proof.RefRead
import proofs.«416960_j11115375362872_4_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo
open Cert.Stencil

/-- Every weakly fair execution of the reference program ends with its result array at the stencil of the two
    argument arrays as the run found them, the neighbours added in increasing number, and the argument arrays
    unchanged. -/
theorem run (m : (ℓ : Loc nD τ sig) → Buf (Elt Ideal) ℓ) (ρ : Dev nD → PrngReg) :
    θ_run Cert.ReferenceIdeal.defs (onTc (τ := τ) (main (F := Ideal))) ⟨m, fun _ => 0, ρ⟩ (fun r => ∀ c : Dev nD,
      r.2.mem ((c.tc : Thread nD τ).loc main_v130)
        = byNumberSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono (fun _ h c => ⟨(h c).1.trans (result_eq _ _), (h c).2⟩)
    (Cert.ReferenceIdeal.RefRun.run_acc (F := Ideal) m ρ)

end Cert.ReferenceIdeal.RefValue

end
-- ==== Proof.SpecLaw.lean ====
/-
  The two orders of summation give the same result.

  The list that lets the depth offset vary fastest is a rearrangement of the list in increasing neighbour number:
  both hold each of the 26 numbers exactly once.  A left fold that adds `f k` to an accumulator is the sum of the
  list of the `f k`, and the sum of a list in a commutative additive monoid does not change under rearrangement.
  The extended reals are such a monoid: `⊤ + ⊥ = ⊥` is fixed once and for all, and with that convention addition is
  commutative and associative on all of `EReal`, so no finiteness of the terms is needed.
-/
import Mathlib.Algebra.BigOperators.Group.List.Basic
import Mathlib.Data.EReal.Basic
import proofs.«416960_j11115375362872_4_alg».proof.Proof.Spec

noncomputable section

namespace Cert.Stencil

/-- Adding `f k` for the `k` of a list, left to right from `c`, is `c` plus the sum of the list of values. -/
theorem foldl_add_eq_sum {M : Type} [AddCommMonoid M] {ι : Type} (f : ι → M) (l : List ι) (c : M) :
    l.foldl (fun acc k => acc + f k) c = c + (l.map f).sum := by
  induction l generalizing c with
  | nil => simp
  | cons k l ih => simp [ih, add_assoc]

/-- The sum over a list, as `sumIn` forms it, is the sum of the list of terms. -/
theorem sumIn_eq_sum (l : List (Fin 26)) (x : SX.Idx → EReal) (a : SA.Idx → EReal) (i : SO.Idx) :
    sumIn l x a i = (l.map (fun k => term x a k i)).sum := by
  unfold sumIn
  rw [foldl_add_eq_sum (fun k => term x a k i) l 0, zero_add]

/-- A rearranged list has the same sum. -/
theorem sumIn_perm {l₁ l₂ : List (Fin 26)} (h : l₁.Perm l₂) (x : SX.Idx → EReal) (a : SA.Idx → EReal)
    (i : SO.Idx) : sumIn l₁ x a i = sumIn l₂ x a i := by
  rw [sumIn_eq_sum, sumIn_eq_sum]
  exact (h.map _).sum_eq

/-- Depth-fastest order lists the same 26 neighbours as increasing number. -/
theorem depthFastest_perm : depthFastest.Perm byNumber := by
  unfold depthFastest byNumber
  decide

theorem depthFastestSum_eq (x : SX.Idx → EReal) (a : SA.Idx → EReal) :
    depthFastestSum x a = byNumberSum x a := by
  funext i
  exact sumIn_perm depthFastest_perm x a i

end Cert.Stencil

end
-- ==== Proof.lean ====
/-
  The certificate of a 26-neighbour weighted stencil.

  For a padded feature array x of shape (2, 32, 66, 66, 66) and a weight array a of shape (2, 26, 64, 64, 64), both
  programs compute, at every voxel (b, c, d, h, w) of a 64-cube,
      the sum over the 26 neighbour offsets (dz, dy, dx) in {0, 1, 2}^3 other than (1, 1, 1), numbered k, of
      x[b, c, d + dz, h + dy, w + dx] * a[b, k, d, h, w],
  starting from zero and adding one neighbour at a time.  The reference adds them in increasing k.  The kernel walks the
  64 depth rows in eight tiles of eight per batch; it streams each tile's ten feature rows from slow memory through a
  scratch buffer of two slots by copies of its own, one tile ahead, and adds the neighbours with the depth offset
  varying fastest.  Addition of extended reals is commutative and associative, also where a sum meets an infinity, so
  the two orders give the same value and finiteness of the inputs is never used.

  The frames of the kernel (at the word level and idealized) are proved from the ring of copies: before a batch's
  first tile and after its last nothing is in flight; in between one copy is, and the slot not in flight keeps the
  rows of the tile before.  The reference's run is read back window by window.  The kernel's value is read off its
  frame run: what a grid point leaves in the output block is the body's chain of twenty-seven stores at the rows the
  waited copy landed and the tile's weight rows, the sixteen blocks cover the flat result, and the host reshapes it.
-/
import proofs.«416960_j11115375362872_4_alg».proof.Defs
import proofs.«416960_j11115375362872_4_alg».proof.Proof.Gen.Kernel
import proofs.«416960_j11115375362872_4_alg».proof.Proof.Gen.KernelIdeal
import proofs.«416960_j11115375362872_4_alg».proof.Proof.Gen.ReferenceIdeal
import proofs.«416960_j11115375362872_4_alg».proof.Proof.Gen.Pre_finite_inputs
import proofs.«416960_j11115375362872_4_alg».proof.Proof.BitsFrame
import proofs.«416960_j11115375362872_4_alg».proof.Proof.IdealArray
import proofs.«416960_j11115375362872_4_alg».proof.Proof.IdealPoint
import proofs.«416960_j11115375362872_4_alg».proof.Proof.RefSide
import proofs.«416960_j11115375362872_4_alg».proof.Proof.SpecLaw
import Idealize.ShloMosaic.Adequacy
import Idealize.ShloMosaic.Init

noncomputable section

namespace Cert.Proof

open Idealize.ShloMosaic Idealize.SL.Sem

/-- The word-level kernel runs to the end, nothing faults, and both arguments end as launched. -/
theorem frame_kernel : Cert.frame_Kernel := fun m ρ _ => Cert.Kernel.DB.frame (F := Bits) m ρ

/-- The same of the idealized kernel. -/
theorem frame_kernelIdeal : Cert.frame_KernelIdeal := fun m ρ _ => Cert.KernelIdeal.DB.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both idealized programs end with the stencil of their arguments: the kernel with the depth offset varying fastest,
    the reference in increasing neighbour number; the two sums are equal. -/
theorem algebraic : Cert.algebraic_KernelIdeal_ReferenceIdeal := by
  intro m ρ m' ρ' _ hagree
  refine ⟨fun c => Cert.Stencil.depthFastestSum (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.DB.run_of_points m ρ (fun c t ch d h w => Cert.KernelIdeal.DB.point_value m c t ch d h w), ?_⟩
  refine (θ_run Cert.ReferenceIdeal.defs _ _).mono (fun _ h c => ⟨(h c).1.trans ?_, (h c).2⟩) (Cert.ReferenceIdeal.RefValue.run m' ρ')
  rw [(hagree c).1, (hagree c).2]
  exact (Cert.Stencil.depthFastestSum_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
